-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S32x12288 : Shape := ⟨2, ![32, 12288]⟩
abbrev S12288 : Shape := ⟨1, ![12288]⟩
abbrev S512x12288 : Shape := ⟨2, ![512, 12288]⟩
abbrev S32x1536 : Shape := ⟨2, ![32, 1536]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x12288 : S_.BroadcastsInDim S32x12288 (![] : Fin 0 → Fin S32x12288.rank)
  reducesTo_S32x12288_S_d0_1 : S32x12288.ReducesTo [0, 1] S_
  bcast_S_S12288 : S_.BroadcastsInDim S12288 (![] : Fin 0 → Fin S12288.rank)
  reducesTo_S12288_S_d0 : S12288.ReducesTo [0] S_

variable [Facts]

def fn {F : FTy → Type} [FloatOps F] (main_arg0 : FVec F S8192x4096 .f32) (main_arg1 : FVec F S32x12288 .f32) (main_arg2 : FVec F S12288 .f32) (main_arg3 : IVec S512x12288 32) (main_arg4 : IVec S32x1536 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x12288 .f32 := Host.absf main_arg1
  let main_cst_0 : FVec F S_ .f32 := constant S_ .f32 0x7F800000#32
  let main_v5 : FVec F S32x12288 .f32 := broadcastInDim S32x12288 ![] bcast_S_S32x12288 main_cst_0
  let main_v6 : IVec S32x12288 1 := cmpf .olt main_v4 main_v5
  let main_c_1 : IVec S_ 1 := constantI S_ 1 1#1
  let main_v7 : IVec S_ 1 := (fun x v => Host.reduce IntOp.andi x v reducesTo_S32x12288_S_d0_1 h_S_) main_v6 main_c_1
  let main_v8 : IVec S_ 1 := andi main_v3 main_v7
  let main_v9 : FVec F S12288 .f32 := Host.absf main_arg2
  let main_cst_2 : FVec F S_ .f32 := constant S_ .f32 0x7F800000#32
  let main_v10 : FVec F S12288 .f32 := broadcastInDim S12288 ![] bcast_S_S12288 main_cst_2
  let main_v11 : IVec S12288 1 := cmpf .olt main_v9 main_v10
  let main_c_3 : IVec S_ 1 := constantI S_ 1 1#1
  let main_v12 : IVec S_ 1 := (fun x v => Host.reduce IntOp.andi x v reducesTo_S12288_S_d0 h_S_) main_v11 main_c_3
  let main_v13 : IVec S_ 1 := andi main_v8 main_v12
  main_v13
-- ==== Kernel.lean ====
abbrev S8192x4096 : Shape := ⟨2, ![8192, 4096]⟩
abbrev S32x12288 : Shape := ⟨2, ![32, 12288]⟩
abbrev S12288 : Shape := ⟨1, ![12288]⟩
abbrev S512x12288 : Shape := ⟨2, ![512, 12288]⟩
abbrev S32x1536 : Shape := ⟨2, ![32, 1536]⟩
abbrev S_ : Shape := ⟨0, ![]⟩
abbrev S32x1536x1 : Shape := ⟨3, ![32, 1536, 1]⟩
abbrev S32x1536x8 : Shape := ⟨3, ![32, 1536, 8]⟩
abbrev S8192x32x128 : Shape := ⟨3, ![8192, 32, 128]⟩
abbrev S8192x32 : Shape := ⟨2, ![8192, 32]⟩
abbrev S1x12288 : Shape := ⟨2, ![1, 12288]⟩
abbrev S8192x12288 : Shape := ⟨2, ![8192, 12288]⟩
abbrev S2048x1024 : Shape := ⟨2, ![2048, 1024]⟩
abbrev S128x512 : Shape := ⟨2, ![128, 512]⟩
abbrev S8x512 : Shape := ⟨2, ![8, 512]⟩
abbrev S2048x32 : Shape := ⟨2, ![2048, 32]⟩
abbrev S32x512 : Shape := ⟨2, ![32, 512]⟩
abbrev S1x512 : Shape := ⟨2, ![1, 512]⟩
abbrev S2048x512 : Shape := ⟨2, ![2048, 512]⟩
abbrev S128x1x512 : Shape := ⟨3, ![128, 1, 512]⟩
abbrev S128x8x512 : Shape := ⟨3, ![128, 8, 512]⟩
abbrev S1024x512 : Shape := ⟨2, ![1024, 512]⟩
abbrev S8x1x512 : Shape := ⟨3, ![8, 1, 512]⟩
abbrev S8x128x512 : Shape := ⟨3, ![8, 128, 512]⟩

abbrev nBuf : Space → Nat
  | .hbm => 74
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S32x12288, .f32⟩
  | .hbm, ⟨2, _⟩ => ⟨S12288, .f32⟩
  | .hbm, ⟨3, _⟩ => ⟨S512x12288, .i32⟩
  | .hbm, ⟨4, _⟩ => ⟨S32x1536, .i32⟩
  | .hbm, ⟨5, _⟩ => ⟨S_, .i32⟩
  | .hbm, ⟨6, _⟩ => ⟨S32x1536, .i32⟩
  | .hbm, ⟨7, _⟩ => ⟨S32x1536, .i32⟩
  | .hbm, ⟨8, _⟩ => ⟨S_, .i32⟩
  | .hbm, ⟨9, _⟩ => ⟨S32x1536, .i32⟩
  | .hbm, ⟨10, _⟩ => ⟨S32x1536, .i32⟩
  | .hbm, ⟨11, _⟩ => ⟨S_, .i32⟩
  | .hbm, ⟨12, _⟩ => ⟨S32x1536, .i32⟩
  | .hbm, ⟨13, _⟩ => ⟨S32x1536, .i32⟩
  | .hbm, ⟨14, _⟩ => ⟨S_, .i32⟩
  | .hbm, ⟨15, _⟩ => ⟨S32x1536, .i32⟩
  | .hbm, ⟨16, _⟩ => ⟨S32x1536, .i32⟩
  | .hbm, ⟨17, _⟩ => ⟨S_, .i32⟩
  | .hbm, ⟨18, _⟩ => ⟨S32x1536, .i32⟩
  | .hbm, ⟨19, _⟩ => ⟨S32x1536, .i32⟩
  | .hbm, ⟨20, _⟩ => ⟨S_, .i32⟩
  | .hbm, ⟨21, _⟩ => ⟨S32x1536, .i32⟩
  | .hbm, ⟨22, _⟩ => ⟨S32x1536, .i32⟩
  | .hbm, ⟨23, _⟩ => ⟨S_, .i32⟩
  | .hbm, ⟨24, _⟩ => ⟨S32x1536, .i32⟩
  | .hbm, ⟨25, _⟩ => ⟨S32x1536, .i32⟩
  | .hbm, ⟨26, _⟩ => ⟨S_, .i32⟩
  | .hbm, ⟨27, _⟩ => ⟨S32x1536, .i32⟩
  | .hbm, ⟨28, _⟩ => ⟨S32x1536, .i32⟩
  | .hbm, ⟨29, _⟩ => ⟨S_, .i32⟩
  | .hbm, ⟨30, _⟩ => ⟨S32x1536, .i32⟩
  | .hbm, ⟨31, _⟩ => ⟨S32x1536, .i32⟩
  | .hbm, ⟨32, _⟩ => ⟨S_, .i32⟩
  | .hbm, ⟨33, _⟩ => ⟨S32x1536, .i32⟩
  | .hbm, ⟨34, _⟩ => ⟨S32x1536, .i32⟩
  | .hbm, ⟨35, _⟩ => ⟨S_, .i32⟩
  | .hbm, ⟨36, _⟩ => ⟨S32x1536, .i32⟩
  | .hbm, ⟨37, _⟩ => ⟨S32x1536, .i32⟩
  | .hbm, ⟨38, _⟩ => ⟨S_, .i32⟩
  | .hbm, ⟨39, _⟩ => ⟨S32x1536, .i32⟩
  | .hbm, ⟨40, _⟩ => ⟨S32x1536, .i32⟩
  | .hbm, ⟨41, _⟩ => ⟨S_, .i32⟩
  | .hbm, ⟨42, _⟩ => ⟨S32x1536, .i32⟩
  | .hbm, ⟨43, _⟩ => ⟨S32x1536, .i32⟩
  | .hbm, ⟨44, _⟩ => ⟨S_, .i32⟩
  | .hbm, ⟨45, _⟩ => ⟨S32x1536, .i32⟩
  | .hbm, ⟨46, _⟩ => ⟨S32x1536, .i32⟩
  | .hbm, ⟨47, _⟩ => ⟨S_, .i32⟩
  | .hbm, ⟨48, _⟩ => ⟨S32x1536, .i32⟩
  | .hbm, ⟨49, _⟩ => ⟨S32x1536, .i32⟩
  | .hbm, ⟨50, _⟩ => ⟨S_, .i32⟩
  | .hbm, ⟨51, _⟩ => ⟨S32x1536, .i32⟩
  | .hbm, ⟨52, _⟩ => ⟨S32x1536, .i32⟩
  | .hbm, ⟨53, _⟩ => ⟨S32x1536x1, .i32⟩
  | .hbm, ⟨54, _⟩ => ⟨S32x1536x1, .i32⟩
  | .hbm, ⟨55, _⟩ => ⟨S32x1536x1, .i32⟩
  | .hbm, ⟨56, _⟩ => ⟨S32x1536x1, .i32⟩
  | .hbm, ⟨57, _⟩ => ⟨S32x1536x1, .i32⟩
  | .hbm, ⟨58, _⟩ => ⟨S32x1536x1, .i32⟩
  | .hbm, ⟨59, _⟩ => ⟨S32x1536x1, .i32⟩
  | .hbm, ⟨60, _⟩ => ⟨S32x1536x1, .i32⟩
  | .hbm, ⟨61, _⟩ => ⟨S32x1536x8, .i32⟩
  | .hbm, ⟨62, _⟩ => ⟨S32x12288, .i32⟩
  | .hbm, ⟨63, _⟩ => ⟨S_, .i32⟩
  | .hbm, ⟨64, _⟩ => ⟨S32x12288, .i32⟩
  | .hbm, ⟨65, _⟩ => ⟨S32x12288, .i32⟩
  | .hbm, ⟨66, _⟩ => ⟨S32x12288, .f32⟩
  | .hbm, ⟨67, _⟩ => ⟨S32x12288, .f32⟩
  | .hbm, ⟨68, _⟩ => ⟨S8192x32x128, .f32⟩
  | .hbm, ⟨69, _⟩ => ⟨S_, .f32⟩
  | .hbm, ⟨70, _⟩ => ⟨S8192x32, .f32⟩
  | .hbm, ⟨71, _⟩ => ⟨S1x12288, .f32⟩
  | .hbm, ⟨72, _⟩ => ⟨S8192x4096, .bf16⟩
  | .hbm, ⟨73, _⟩ => ⟨S8192x12288, .f32⟩
  | .local _ .vmem, ⟨0, _⟩ => ⟨S2048x1024, .bf16⟩
  | .local _ .vmem, ⟨1, _⟩ => ⟨S2048x1024, .bf16⟩
  | .local _ .vmem, ⟨2, _⟩ => ⟨S128x512, .i32⟩
  | .local _ .vmem, ⟨3, _⟩ => ⟨S128x512, .i32⟩
  | .local _ .vmem, ⟨4, _⟩ => ⟨S8x512, .f32⟩
  | .local _ .vmem, ⟨5, _⟩ => ⟨S8x512, .f32⟩
  | .local _ .vmem, ⟨6, _⟩ => ⟨S2048x32, .f32⟩
  | .local _ .vmem, ⟨7, _⟩ => ⟨S2048x32, .f32⟩
  | .local _ .vmem, ⟨8, _⟩ => ⟨S32x512, .f32⟩
  | .local _ .vmem, ⟨9, _⟩ => ⟨S32x512, .f32⟩
  | .local _ .vmem, ⟨10, _⟩ => ⟨S1x512, .f32⟩
  | .local _ .vmem, ⟨11, _⟩ => ⟨S1x512, .f32⟩
  | .local _ .vmem, ⟨12, _⟩ => ⟨S2048x512, .f32⟩
  | .local _ .vmem, ⟨13, _⟩ => ⟨S2048x512, .f32⟩
  | .local _ .vmem, ⟨14, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_v15 : Ref sig .tc := ⟨.hbm, 28, rfl⟩
abbrev main_c_7 : Ref sig .tc := ⟨.hbm, 29, rfl⟩
abbrev main_v16 : Ref sig .tc := ⟨.hbm, 30, rfl⟩
abbrev main_v17 : Ref sig .tc := ⟨.hbm, 31, rfl⟩
abbrev main_c_8 : Ref sig .tc := ⟨.hbm, 32, rfl⟩
abbrev main_v18 : Ref sig .tc := ⟨.hbm, 33, rfl⟩
abbrev main_v19 : Ref sig .tc := ⟨.hbm, 34, rfl⟩
abbrev main_c_9 : Ref sig .tc := ⟨.hbm, 35, rfl⟩
abbrev main_v20 : Ref sig .tc := ⟨.hbm, 36, rfl⟩
abbrev main_v21 : Ref sig .tc := ⟨.hbm, 37, rfl⟩
abbrev main_c_10 : Ref sig .tc := ⟨.hbm, 38, rfl⟩
abbrev main_v22 : Ref sig .tc := ⟨.hbm, 39, rfl⟩
abbrev main_v23 : Ref sig .tc := ⟨.hbm, 40, rfl⟩
abbrev main_c_11 : Ref sig .tc := ⟨.hbm, 41, rfl⟩
abbrev main_v24 : Ref sig .tc := ⟨.hbm, 42, rfl⟩
abbrev main_v25 : Ref sig .tc := ⟨.hbm, 43, rfl⟩
abbrev main_c_12 : Ref sig .tc := ⟨.hbm, 44, rfl⟩
abbrev main_v26 : Ref sig .tc := ⟨.hbm, 45, rfl⟩
abbrev main_v27 : Ref sig .tc := ⟨.hbm, 46, rfl⟩
abbrev main_c_13 : Ref sig .tc := ⟨.hbm, 47, rfl⟩
abbrev main_v28 : Ref sig .tc := ⟨.hbm, 48, rfl⟩
abbrev main_v29 : Ref sig .tc := ⟨.hbm, 49, rfl⟩
abbrev main_c_14 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_15 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 24, 4], ![false, false, false]⟩

def k0_cond2 (i : grid0.Coords) : BitVec 1 :=
  let arg2 : BitVec 32 := BitVec.ofNat 32 (i 2).val
  let c3_i32 : BitVec 32 := 3#32
  let v69 : BitVec 1 := Scalar.cmpi .eq arg2 c3_i32
  let v70 : BitVec 32 := Scalar.extui v69
  let c0_i32_18 : BitVec 32 := 0#32
  let v71 : BitVec 1 := Scalar.cmpi .ne v70 c0_i32_18
  v71

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bcast_S_S32x1536 : S_.BroadcastsInDim S32x1536 (![] : Fin 0 → Fin S32x1536.rank)
  bcast_S32x1536_S32x1536x1_0_1 : S32x1536.BroadcastsInDim S32x1536x1 (![0, 1] : Fin 2 → Fin S32x1536x1.rank)
  concatenates_S32x1536x1_S32x1536x1_S32x1536x1_S32x1536x1_S32x1536x1_S32x1536x1_S32x1536x1_S32x1536x1_S32x1536x8_d2 : Shape.Concatenates [S32x1536x1, S32x1536x1, S32x1536x1, S32x1536x1, S32x1536x1, S32x1536x1, S32x1536x1, S32x1536x1] S32x1536x8 2
  shapeCasts_S32x1536x8_S32x12288 : S32x1536x8.ShapeCasts S32x12288
  bcast_S_S32x12288 : S_.BroadcastsInDim S32x12288 (![] : Fin 0 → Fin S32x12288.rank)
  shapeCasts_S8192x4096_S8192x32x128 : S8192x4096.ShapeCasts S8192x32x128
  reducesTo_S8192x32x128_S8192x32_d2 : S8192x32x128.ReducesTo [2] S8192x32
  h_S_ : 0 < S_.numel
  shapeCasts_S12288_S1x12288 : S12288.ShapeCasts S1x12288
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S128x512_S128x512_0_0 : ∀ a, (![0, 0] : Fin 2 → Nat) a + S128x512.size a ≤ S128x512.size a
  h_S128x512 : 0 < S128x512.numel
  shapeCasts_S128x512_S128x1x512 : S128x512.ShapeCasts S128x1x512
  concatenates_S128x1x512_S128x1x512_S128x1x512_S128x1x512_S128x1x512_S128x1x512_S128x1x512_S128x1x512_S128x8x512_d1 : Shape.Concatenates [S128x1x512, S128x1x512, S128x1x512, S128x1x512, S128x1x512, S128x1x512, S128x1x512, S128x1x512] S128x8x512 1
  shapeCasts_S128x8x512_S1024x512 : S128x8x512.ShapeCasts S1024x512
  inb_S8x512_S8x512_0_0 : ∀ a, (![0, 0] : Fin 2 → Nat) a + S8x512.size a ≤ S8x512.size a
  h_S8x512 : 0 < S8x512.numel
  shapeCasts_S8x512_S8x1x512 : S8x512.ShapeCasts S8x1x512
  shapeCasts_S8x1x512_S8x1x512 : S8x1x512.ShapeCasts S8x1x512
  broadcasts_S8x1x512_S8x128x512 : S8x1x512.Broadcasts S8x128x512
  shapeCasts_S8x128x512_S1024x512 : S8x128x512.ShapeCasts S1024x512
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x1024_S1024x512_S2048x512_1_0_0_1_n_n_wf : DotDims.WF S2048x1024 S1024x512 S2048x512 [1] [0] [0] [1] [] []
  dot_S2048x32_S32x512_S2048x512_1_0_0_1_n_n_wf : DotDims.WF S2048x32 S32x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x4096.size a
  hwx0_0 : ∀ i : grid0.Coords, EltTy.bits .bf16 = 32 ∨ (Rect.block (s := S8192x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x12288.size a
  hwx0_1 : ∀ i : grid0.Coords, EltTy.bits .i32 = 32 ∨ (Rect.block (s := S512x12288) S128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S32x12288.size a
  hwx0_2 : ∀ i : grid0.Coords, EltTy.bits .f32 = 32 ∨ (Rect.block (s := S32x12288) S8x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x32.size a ≤ S8192x32.size a
  hwx0_3 : ∀ i : grid0.Coords, EltTy.bits .f32 = 32 ∨ (Rect.block (s := S8192x32) S2048x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x512.size a ≤ S32x12288.size a
  hwx0_4 : ∀ i : grid0.Coords, EltTy.bits .f32 = 32 ∨ (Rect.block (s := S32x12288) S32x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x12288.size a
  hwx0_5 : ∀ i : grid0.Coords, EltTy.bits .f32 = 32 ∨ (Rect.block (s := S1x12288) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S8192x12288.size a
  hwx0_6 : ∀ i : grid0.Coords, EltTy.bits .f32 = 32 ∨ (Rect.block (s := S8192x12288) S2048x512.size (cc0_transform_6 i) (hinb0_6 i)).WholeWords (EltTy.packing .f32)

variable [Facts₀]

def dot_S2048x1024_S1024x512_S2048x512_1_0_0_1_n_n : DotDims S2048x1024 S1024x512 S2048x512 where
  lhsContracting := [1]
  rhsContracting := [0]
  lhsNonContracting := [0]
  rhsNonContracting := [1]
  lhsBatch := []
  rhsBatch := []
  wf := dot_S2048x1024_S1024x512_S2048x512_1_0_0_1_n_n_wf
def dot_S2048x32_S32x512_S2048x512_1_0_0_1_n_n : DotDims S2048x32 S32x512 S2048x512 where
  lhsContracting := [1]
  rhsContracting := [0]
  lhsNonContracting := [0]
  rhsNonContracting := [1]
  lhsBatch := []
  rhsBatch := []
  wf := dot_S2048x32_S32x512_S2048x512_1_0_0_1_n_n_wf

abbrev win0_0 : Pipeline.Window sig grid0 :=
  Pipeline.Window.ofSpec (Memref.whole main_v49) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2048x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v45) S32x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v50) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S32x12288 : Shape := ⟨2, ![32, 12288]⟩
abbrev S12288 : Shape := ⟨1, ![12288]⟩
abbrev S512x12288 : Shape := ⟨2, ![512, 12288]⟩
abbrev S32x1536 : Shape := ⟨2, ![32, 1536]⟩
abbrev S_ : Shape := ⟨0, ![]⟩
abbrev S512x1x12288 : Shape := ⟨3, ![512, 1, 12288]⟩
abbrev S512x8x12288 : Shape := ⟨3, ![512, 8, 12288]⟩
abbrev S4096x12288 : Shape := ⟨2, ![4096, 12288]⟩
abbrev S32x1536x1 : Shape := ⟨3, ![32, 1536, 1]⟩
abbrev S32x1536x8 : Shape := ⟨3, ![32, 1536, 8]⟩
abbrev S32x128x12288 : Shape := ⟨3, ![32, 128, 12288]⟩
abbrev S32x1x12288 : Shape := ⟨3, ![32, 1, 12288]⟩
abbrev S8192x12288 : Shape := ⟨2, ![8192, 12288]⟩
abbrev S1x12288 : Shape := ⟨2, ![1, 12288]⟩

abbrev nBuf : Space → Nat
  | .hbm => 138
  | .vmem => 0
  | .smem => 0
  | _ => 0

abbrev hbmTy0_0 (i : Nat) : BufTy := match i % 128 with
  | 0 => ⟨S8192x4096, .f32⟩
  | 1 => ⟨S32x12288, .f32⟩
  | 2 => ⟨S12288, .f32⟩
  | 3 => ⟨S512x12288, .i32⟩
  | 4 => ⟨S32x1536, .i32⟩
  | 5 => ⟨S_, .i32⟩
  | 6 => ⟨S512x12288, .i32⟩
  | 7 => ⟨S512x12288, .i32⟩
  | 8 => ⟨S_, .i32⟩
  | 9 => ⟨S512x12288, .i32⟩
  | 10 => ⟨S512x12288, .i32⟩
  | 11 => ⟨S_, .i32⟩
  | 12 => ⟨S512x12288, .i32⟩
  | 13 => ⟨S512x12288, .i32⟩
  | 14 => ⟨S_, .i32⟩
  | 15 => ⟨S512x12288, .i32⟩
  | 16 => ⟨S512x12288, .i32⟩
  | 17 => ⟨S_, .i32⟩
  | 18 => ⟨S512x12288, .i32⟩
  | 19 => ⟨S512x12288, .i32⟩
  | 20 => ⟨S_, .i32⟩
  | 21 => ⟨S512x12288, .i32⟩
  | 22 => ⟨S512x12288, .i32⟩
  | 23 => ⟨S_, .i32⟩
  | 24 => ⟨S512x12288, .i32⟩
  | 25 => ⟨S512x12288, .i32⟩
  | 26 => ⟨S_, .i32⟩
  | 27 => ⟨S512x12288, .i32⟩
  | 28 => ⟨S512x12288, .i32⟩
  | 29 => ⟨S_, .i32⟩
  | 30 => ⟨S512x12288, .i32⟩
  | 31 => ⟨S512x12288, .i32⟩
  | 32 => ⟨S_, .i32⟩
  | 33 => ⟨S512x12288, .i32⟩
  | 34 => ⟨S512x12288, .i32⟩
  | 35 => ⟨S_, .i32⟩
  | 36 => ⟨S512x12288, .i32⟩
  | 37 => ⟨S512x12288, .i32⟩
  | 38 => ⟨S_, .i32⟩
  | 39 => ⟨S512x12288, .i32⟩
  | 40 => ⟨S512x12288, .i32⟩
  | 41 => ⟨S_, .i32⟩
  | 42 => ⟨S512x12288, .i32⟩
  | 43 => ⟨S512x12288, .i32⟩
  | 44 => ⟨S_, .i32⟩
  | 45 => ⟨S512x12288, .i32⟩
  | 46 => ⟨S512x12288, .i32⟩
  | 47 => ⟨S_, .i32⟩
  | 48 => ⟨S512x12288, .i32⟩
  | 49 => ⟨S512x12288, .i32⟩
  | 50 => ⟨S_, .i32⟩
  | 51 => ⟨S512x12288, .i32⟩
  | 52 => ⟨S512x12288, .i32⟩
  | 53 => ⟨S512x1x12288, .i32⟩
  | 54 => ⟨S512x1x12288, .i32⟩
  | 55 => ⟨S512x1x12288, .i32⟩
  | 56 => ⟨S512x1x12288, .i32⟩
  | 57 => ⟨S512x1x12288, .i32⟩
  | 58 => ⟨S512x1x12288, .i32⟩
  | 59 => ⟨S512x1x12288, .i32⟩
  | 60 => ⟨S512x1x12288, .i32⟩
  | 61 => ⟨S512x8x12288, .i32⟩
  | 62 => ⟨S4096x12288, .i32⟩
  | 63 => ⟨S4096x12288, .f32⟩
  | 64 => ⟨S_, .i32⟩
  | 65 => ⟨S32x1536, .i32⟩
  | 66 => ⟨S32x1536, .i32⟩
  | 67 => ⟨S_, .i32⟩
  | 68 => ⟨S32x1536, .i32⟩
  | 69 => ⟨S32x1536, .i32⟩
  | 70 => ⟨S_, .i32⟩
  | 71 => ⟨S32x1536, .i32⟩
  | 72 => ⟨S32x1536, .i32⟩
  | 73 => ⟨S_, .i32⟩
  | 74 => ⟨S32x1536, .i32⟩
  | 75 => ⟨S32x1536, .i32⟩
  | 76 => ⟨S_, .i32⟩
  | 77 => ⟨S32x1536, .i32⟩
  | 78 => ⟨S32x1536, .i32⟩
  | 79 => ⟨S_, .i32⟩
  | 80 => ⟨S32x1536, .i32⟩
  | 81 => ⟨S32x1536, .i32⟩
  | 82 => ⟨S_, .i32⟩
  | 83 => ⟨S32x1536, .i32⟩
  | 84 => ⟨S32x1536, .i32⟩
  | 85 => ⟨S_, .i32⟩
  | 86 => ⟨S32x1536, .i32⟩
  | 87 => ⟨S32x1536, .i32⟩
  | 88 => ⟨S_, .i32⟩
  | 89 => ⟨S32x1536, .i32⟩
  | 90 => ⟨S32x1536, .i32⟩
  | 91 => ⟨S_, .i32⟩
  | 92 => ⟨S32x1536, .i32⟩
  | 93 => ⟨S32x1536, .i32⟩
  | 94 => ⟨S_, .i32⟩
  | 95 => ⟨S32x1536, .i32⟩
  | 96 => ⟨S32x1536, .i32⟩
  | 97 => ⟨S_, .i32⟩
  | 98 => ⟨S32x1536, .i32⟩
  | 99 => ⟨S32x1536, .i32⟩
  | 100 => ⟨S_, .i32⟩
  | 101 => ⟨S32x1536, .i32⟩
  | 102 => ⟨S32x1536, .i32⟩
  | 103 => ⟨S_, .i32⟩
  | 104 => ⟨S32x1536, .i32⟩
  | 105 => ⟨S32x1536, .i32⟩
  | 106 => ⟨S_, .i32⟩
  | 107 => ⟨S32x1536, .i32⟩
  | 108 => ⟨S32x1536, .i32⟩
  | 109 => ⟨S_, .i32⟩
  | 110 => ⟨S32x1536, .i32⟩
  | 111 => ⟨S32x1536, .i32⟩
  | 112 => ⟨S32x1536x1, .i32⟩
  | 113 => ⟨S32x1536x1, .i32⟩
  | 114 => ⟨S32x1536x1, .i32⟩
  | 115 => ⟨S32x1536x1, .i32⟩
  | 116 => ⟨S32x1536x1, .i32⟩
  | 117 => ⟨S32x1536x1, .i32⟩
  | 118 => ⟨S32x1536x1, .i32⟩
  | 119 => ⟨S32x1536x1, .i32⟩
  | 120 => ⟨S32x1536x8, .i32⟩
  | 121 => ⟨S32x12288, .i32⟩
  | 122 => ⟨S_, .i32⟩
  | 123 => ⟨S32x12288, .i32⟩
  | 124 => ⟨S32x12288, .i32⟩
  | 125 => ⟨S32x12288, .f32⟩
  | 126 => ⟨S32x128x12288, .f32⟩
  | 127 => ⟨S32x1x12288, .f32⟩
  | _ => ⟨S8192x4096, .f32⟩

abbrev hbmTy0_1 (i : Nat) : BufTy := match i % 128 with
  | 0 => ⟨S32x128x12288, .f32⟩
  | 1 => ⟨S32x128x12288, .f32⟩
  | 2 => ⟨S32x1x12288, .f32⟩
  | 3 => ⟨S32x128x12288, .f32⟩
  | 4 => ⟨S32x128x12288, .f32⟩
  | 5 => ⟨S4096x12288, .f32⟩
  | 6 => ⟨S8192x12288, .f32⟩
  | 7 => ⟨S1x12288, .f32⟩
  | 8 => ⟨S8192x12288, .f32⟩
  | 9 => ⟨S8192x12288, .f32⟩
  | _ => ⟨S8192x4096, .f32⟩

abbrev hbmTy (i : Nat) : BufTy := match i / 128 with
  | 0 => hbmTy0_0 i
  | 1 => hbmTy0_1 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_c_6 : Ref sig .tc := ⟨.hbm, 26, rfl⟩
abbrev main_v14 : Ref sig .tc := ⟨.hbm, 27, rfl⟩
abbrev main_v15 : Ref sig .tc := ⟨.hbm, 28, rfl⟩
abbrev main_c_7 : Ref sig .tc := ⟨.hbm, 29, rfl⟩
abbrev main_v16 : Ref sig .tc := ⟨.hbm, 30, rfl⟩
abbrev main_v17 : Ref sig .tc := ⟨.hbm, 31, rfl⟩
abbrev main_c_8 : Ref sig .tc := ⟨.hbm, 32, rfl⟩
abbrev main_v18 : Ref sig .tc := ⟨.hbm, 33, rfl⟩
abbrev main_v19 : Ref sig .tc := ⟨.hbm, 34, rfl⟩
abbrev main_c_9 : Ref sig .tc := ⟨.hbm, 35, rfl⟩
abbrev main_v20 : Ref sig .tc := ⟨.hbm, 36, rfl⟩
abbrev main_v21 : Ref sig .tc := ⟨.hbm, 37, rfl⟩
abbrev main_c_10 : Ref sig .tc := ⟨.hbm, 38, rfl⟩
abbrev main_v22 : Ref sig .tc := ⟨.hbm, 39, rfl⟩
abbrev main_v23 : Ref sig .tc := ⟨.hbm, 40, rfl⟩
abbrev main_c_11 : Ref sig .tc := ⟨.hbm, 41, rfl⟩
abbrev main_v24 : Ref sig .tc := ⟨.hbm, 42, rfl⟩
abbrev main_v25 : Ref sig .tc := ⟨.hbm, 43, rfl⟩
abbrev main_c_12 : Ref sig .tc := ⟨.hbm, 44, rfl⟩
abbrev main_v26 : Ref sig .tc := ⟨.hbm, 45, rfl⟩
abbrev main_v27 : Ref sig .tc := ⟨.hbm, 46, rfl⟩
abbrev main_c_13 : Ref sig .tc := ⟨.hbm, 47, rfl⟩
abbrev main_v28 : Ref sig .tc := ⟨.hbm, 48, rfl⟩
abbrev main_v29 : Ref sig .tc := ⟨.hbm, 49, rfl⟩
abbrev main_c_14 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_15 : Ref sig .tc := ⟨.hbm, 64, rfl⟩
abbrev main_v43 : Ref sig .tc := ⟨.hbm, 65, rfl⟩
abbrev main_v44 : Ref sig .tc := ⟨.hbm, 66, rfl⟩
abbrev main_c_16 : Ref sig .tc := ⟨.hbm, 67, rfl⟩
abbrev main_v45 : Ref sig .tc := ⟨.hbm, 68, rfl⟩
abbrev main_v46 : Ref sig .tc := ⟨.hbm, 69, rfl⟩
abbrev main_c_17 : Ref sig .tc := ⟨.hbm, 70, rfl⟩
abbrev main_v47 : Ref sig .tc := ⟨.hbm, 71, rfl⟩
abbrev main_v48 : Ref sig .tc := ⟨.hbm, 72, rfl⟩
abbrev main_c_18 : Ref sig .tc := ⟨.hbm, 73, rfl⟩
abbrev main_v49 : Ref sig .tc := ⟨.hbm, 74, rfl⟩
abbrev main_v50 : Ref sig .tc := ⟨.hbm, 75, rfl⟩
abbrev main_c_19 : Ref sig .tc := ⟨.hbm, 76, rfl⟩
abbrev main_v51 : Ref sig .tc := ⟨.hbm, 77, rfl⟩
abbrev main_v52 : Ref sig .tc := ⟨.hbm, 78, rfl⟩
abbrev main_c_20 : Ref sig .tc := ⟨.hbm, 79, rfl⟩
abbrev main_v53 : Ref sig .tc := ⟨.hbm, 80, rfl⟩
abbrev main_v54 : Ref sig .tc := ⟨.hbm, 81, rfl⟩
abbrev main_c_21 : Ref sig .tc := ⟨.hbm, 82, rfl⟩
abbrev main_v55 : Ref sig .tc := ⟨.hbm, 83, rfl⟩
abbrev main_v56 : Ref sig .tc := ⟨.hbm, 84, rfl⟩
abbrev main_c_22 : Ref sig .tc := ⟨.hbm, 85, rfl⟩
abbrev main_v57 : Ref sig .tc := ⟨.hbm, 86, rfl⟩
abbrev main_v58 : Ref sig .tc := ⟨.hbm, 87, rfl⟩
abbrev main_c_23 : Ref sig .tc := ⟨.hbm, 88, rfl⟩
abbrev main_v59 : Ref sig .tc := ⟨.hbm, 89, rfl⟩
abbrev main_v60 : Ref sig .tc := ⟨.hbm, 90, rfl⟩
abbrev main_c_24 : Ref sig .tc := ⟨.hbm, 91, rfl⟩
abbrev main_v61 : Ref sig .tc := ⟨.hbm, 92, rfl⟩
abbrev main_v62 : Ref sig .tc := ⟨.hbm, 93, rfl⟩
abbrev main_c_25 : Ref sig .tc := ⟨.hbm, 94, rfl⟩
abbrev main_v63 : Ref sig .tc := ⟨.hbm, 95, rfl⟩
abbrev main_v64 : Ref sig .tc := ⟨.hbm, 96, rfl⟩
abbrev main_c_26 : Ref sig .tc := ⟨.hbm, 97, rfl⟩
abbrev main_v65 : Ref sig .tc := ⟨.hbm, 98, rfl⟩
abbrev main_v66 : Ref sig .tc := ⟨.hbm, 99, rfl⟩
abbrev main_c_27 : Ref sig .tc := ⟨.hbm, 100, rfl⟩
abbrev main_v67 : Ref sig .tc := ⟨.hbm, 101, rfl⟩
abbrev main_v68 : Ref sig .tc := ⟨.hbm, 102, rfl⟩
abbrev main_c_28 : Ref sig .tc := ⟨.hbm, 103, rfl⟩
abbrev main_v69 : Ref sig .tc := ⟨.hbm, 104, rfl⟩
abbrev main_v70 : Ref sig .tc := ⟨.hbm, 105, rfl⟩
abbrev main_c_29 : Ref sig .tc := ⟨.hbm, 106, rfl⟩
abbrev main_v71 : Ref sig .tc := ⟨.hbm, 107, rfl⟩
abbrev main_v72 : Ref sig .tc := ⟨.hbm, 108, rfl⟩
abbrev main_c_30 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_31 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  bcast_S_S512x12288 : S_.BroadcastsInDim S512x12288 (![] : Fin 0 → Fin S512x12288.rank)
  bcast_S512x12288_S512x1x12288_0_2 : S512x12288.BroadcastsInDim S512x1x12288 (![0, 2] : Fin 2 → Fin S512x1x12288.rank)
  concatenates_S512x1x12288_S512x1x12288_S512x1x12288_S512x1x12288_S512x1x12288_S512x1x12288_S512x1x12288_S512x1x12288_S512x8x12288_d1 : Shape.Concatenates [S512x1x12288, S512x1x12288, S512x1x12288, S512x1x12288, S512x1x12288, S512x1x12288, S512x1x12288, S512x1x12288] S512x8x12288 1
  shapeCasts_S512x8x12288_S4096x12288 : S512x8x12288.ShapeCasts S4096x12288
  bcast_S_S32x1536 : S_.BroadcastsInDim S32x1536 (![] : Fin 0 → Fin S32x1536.rank)
  bcast_S32x1536_S32x1536x1_0_1 : S32x1536.BroadcastsInDim S32x1536x1 (![0, 1] : Fin 2 → Fin S32x1536x1.rank)
  concatenates_S32x1536x1_S32x1536x1_S32x1536x1_S32x1536x1_S32x1536x1_S32x1536x1_S32x1536x1_S32x1536x1_S32x1536x8_d2 : Shape.Concatenates [S32x1536x1, S32x1536x1, S32x1536x1, S32x1536x1, S32x1536x1, S32x1536x1, S32x1536x1, S32x1536x1] S32x1536x8 2
  shapeCasts_S32x1536x8_S32x12288 : S32x1536x8.ShapeCasts S32x12288
  bcast_S_S32x12288 : S_.BroadcastsInDim S32x12288 (![] : Fin 0 → Fin S32x12288.rank)
  shapeCasts_S4096x12288_S32x128x12288 : S4096x12288.ShapeCasts S32x128x12288
  bcast_S32x12288_S32x1x12288_0_2 : S32x12288.BroadcastsInDim S32x1x12288 (![0, 2] : Fin 2 → Fin S32x1x12288.rank)
  bcast_S32x1x12288_S32x128x12288_0_1_2 : S32x1x12288.BroadcastsInDim S32x128x12288 (![0, 1, 2] : Fin 3 → Fin S32x128x12288.rank)
  shapeCasts_S32x128x12288_S4096x12288 : S32x128x12288.ShapeCasts S4096x12288
  bcast_S12288_S1x12288_1 : S12288.BroadcastsInDim S1x12288 (![1] : Fin 1 → Fin S1x12288.rank)
  bcast_S1x12288_S8192x12288_0_1 : S1x12288.BroadcastsInDim S8192x12288 (![0, 1] : Fin 2 → Fin S8192x12288.rank)
  dot_S8192x4096_S4096x12288_S8192x12288_1_0_0_1_n_n_wf : DotDims.WF S8192x4096 S4096x12288 S8192x12288 [1] [0] [0] [1] [] []

variable [Facts₀]

def dot_S8192x4096_S4096x12288_S8192x12288_1_0_0_1_n_n : DotDims S8192x4096 S4096x12288 S8192x12288 where
  lhsContracting := [1]
  rhsContracting := [0]
  lhsNonContracting := [0]
  rhsNonContracting := [1]
  lhsBatch := []
  rhsBatch := []
  wf := dot_S8192x4096_S4096x12288_S8192x12288_1_0_0_1_n_n_wf

class Facts : Prop extends Facts₀ where

variable [Facts]
-- ==== Proof.K.Kit.lean ====
/-
  The launch side of the quantized linear layer's frame: what the TensorCore's buffers hold when the one
  pipelined region is entered (the sixty-eight host operations that unpack the zero points, scale them, sum the
  activations group by group and reshape the bias have run), that none of them writes an argument array, the
  block of each window at a grid point read off those contents, and the frame claim's post read off a run
  that ends with every window's array accounted for and every other buffer as the region found it.
-/
import proofs.«419219_j18975165514260_3_alg».proof.Proof.Gen.Kernel.Launch
import proofs.«419219_j18975165514260_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s TensorCore buffers after the host operations before the region. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes its own result buffer only, so the five argument arrays reach the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetched it or
    not (where it was not fetched the block index has not moved), for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post -/

/-- From a run that ends with each window's array at what the proof data compute and every other unscoped buffer
    as the region found it: the activations, the bias and the packed zero points are staged by no window and
    reach the region as launched; the scales and the packed weights are input windows' arrays, which end as they
    were at the region's entry. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).2 main_arg4 (Pipeline.mem_restRefs_of main_arg4 (by decide) (by decide))).trans (V_main_arg4 m c)⟩) h

end Cert.Kernel.Fr

end
-- ==== Proof.K.Cases.lean ====
/-
  What the three kinds of grid point share. The grid is (row tile, column tile, depth tile) = 4 × 24 × 4 with the
  depth tile fastest, so a point's depth tile is its number mod 4. The body zeroes its accumulator at depth tile 0
  and subtracts the zero-point correction, adds the bias and stores the output tile at depth tile 3; the output
  window is stored nowhere else and is written back exactly at those points.
-/
import proofs.«419219_j18975165514260_3_alg».proof.Proof.K.Kit
import proofs.«419219_j18975165514260_3_alg».proof.Proof.Gen.Kernel.Skeleton
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions -/

/-- "This is the first depth tile": the condition under which the accumulator is zeroed, as the body computes it. -/
abbrev cond0_0 (i : grid0.Coords) : Prop := (Scalar.cmpi .ne (Scalar.extui (Scalar.cmpi .eq (BitVec.ofNat 32 (i 2).val) 0#32)) 0#32) = 1#1
/-- It holds at the points whose number is 0 mod 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last depth tile": the condition under which the output tile is stored. -/
abbrev cond0_1 (i : grid0.Coords) : Prop := k0_cond2 i = 1#1
/-- It holds at the points whose number is 3 mod 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last depth tile nothing is stored into the output window, and it is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last depth tile the output window is live. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x512 .f32 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0_0 : Memref sig .tc .vmem S2048x512 .f32 := Memref.whole cc0_scratch0
/-- The accumulator as a view: what it holds is stated through it. -/
abbrev VS0_0 : View sig .tc .vmem S2048x512 .f32 := scM0_0.view
/-- One staging buffer of the output window, through which its contents are stated (which one does not matter). -/
abbrev VO0_6 : View sig .tc .vmem S2048x512 .f32 := (Memref.whole cc0_stg6_0 : Memref sig .tc .vmem S2048x512 .f32).view

/-- What the region's launch hands the body besides the windows: the accumulator at some contents and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Fr

end
-- ==== Proof.K.RunA.lean ====
/-
  The body run at a grid point of the first depth tile (the accumulator is zeroed first; the output tile is not
  stored). On whole staging memrefs holding the six input blocks, the output window's buffer at any contents
  (handed back untouched) and the accumulator at anything, the body runs to its end; what it leaves in the
  accumulator is the list of pieces its two stores wrote (the zeros, then zeros plus this tile's product), found
  by running the body.
-/
import proofs.«419219_j18975165514260_3_alg».proof.Proof.K.Cases

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the stores leave (none in the output window, two in the accumulator), with the run. -/
noncomputable def kernelRun0_A (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x32 .f32) (harg6 : arg6.IsWhole) (arg7 : Memref sig .tc .vmem S32x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (hc0 : cond0_0 i) (hc1 : ¬cond0_1 i)
    (x0 : Vec F S2048x1024 .bf16) (x1 : Vec F S128x512 .i32) (x2 : Vec F S8x512 .f32) (x3 : Vec F S2048x32 .f32) (x4 : Vec F S32x512 .f32) (x5 : Vec F S1x512 .f32) :
    Σ' (L6 : List (View.Piece (Elt F) S2048x512 .f32)), { LS0 : List (View.Piece (Elt F) S2048x512 .f32) //
      ∀ (xi6 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__linear_kernel i arg3 harg3 arg4 harg4 arg5 harg5 arg6 harg6 arg7 harg7 arg8 harg8 arg9 harg9 arg10 harg10) K } := by
  refine ⟨[], ?_, fun xi6 E K => ?run⟩
  case run =>
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Fr

end
-- ==== Proof.K.RunB.lean ====
/-
  The body run at a grid point of a middle depth tile (nothing is zeroed and the output tile is not stored). The
  accumulator holds what the point before left; the body leaves in it one piece, those contents plus this tile's
  product.
-/
import proofs.«419219_j18975165514260_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the stores leave (none in the output window, one in the accumulator), with the run. -/
noncomputable def kernelRun0_B (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x32 .f32) (harg6 : arg6.IsWhole) (arg7 : Memref sig .tc .vmem S32x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (hc0 : ¬cond0_0 i) (hc1 : ¬cond0_1 i)
    (x0 : Vec F S2048x1024 .bf16) (x1 : Vec F S128x512 .i32) (x2 : Vec F S8x512 .f32) (x3 : Vec F S2048x32 .f32) (x4 : Vec F S32x512 .f32) (x5 : Vec F S1x512 .f32) (xs0 : Vec F S2048x512 .f32) :
    Σ' (L6 : List (View.Piece (Elt F) S2048x512 .f32)), { LS0 : List (View.Piece (Elt F) S2048x512 .f32) //
      ∀ (xi6 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__linear_kernel i arg3 harg3 arg4 harg4 arg5 harg5 arg6 harg6 arg7 harg7 arg8 harg8 arg9 harg9 arg10 harg10) K } := by
  refine ⟨[], ?_, fun xi6 E K => ?run⟩
  case run =>
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.Kernel.Fr

end
-- ==== Proof.K.RunC.lean ====
/-
  The body run at a grid point of the last depth tile. The accumulator holds what the point before left; the
  body adds this tile's product to it, then stores into the output window's buffer (whatever it held) the
  accumulator less the zero-point correction plus the bias: one piece in each.
-/
import proofs.«419219_j18975165514260_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the stores leave (one in the output window, one in the accumulator), with the run. -/
noncomputable def kernelRun0_C (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x32 .f32) (harg6 : arg6.IsWhole) (arg7 : Memref sig .tc .vmem S32x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (hc0 : ¬cond0_0 i) (hc1 : cond0_1 i)
    (x0 : Vec F S2048x1024 .bf16) (x1 : Vec F S128x512 .i32) (x2 : Vec F S8x512 .f32) (x3 : Vec F S2048x32 .f32) (x4 : Vec F S32x512 .f32) (x5 : Vec F S1x512 .f32) (xs0 : Vec F S2048x512 .f32) :
    Σ' (L6 : List (View.Piece (Elt F) S2048x512 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__linear_kernel i arg3 harg3 arg4 harg4 arg5 harg5 arg6 harg6 arg7 harg7 arg8 harg8 arg9 harg9 arg10 harg10) K } := by
  refine ⟨?_, ?_, fun E K => ?run⟩
  case run =>
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.Kernel.Fr

end
-- ==== Proof.K.Frame.lean ====
/-
  The frame of the quantized linear layer's program: the proof data of its one pipelined region, the body's
  obligation at every grid point, the run, and the frame claim.

  Between grid points the kernel keeps a running sum in a scratch accumulator: zeroed at the first depth tile of
  every (row tile, column tile) pair, added to at every depth tile, and at the last depth tile turned into the
  output tile. What the accumulator holds after each point is stated by recursion on the point; the output
  window's buffer matters only at the last depth tile, the only place it is stored and written back.
-/
import proofs.«419219_j18975165514260_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's runs at a grid point -/

/-- The run at a point of the first depth tile, on the point's staging memrefs and input blocks. -/
abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
/-- The run at a point of a middle depth tile, over what the accumulator held. -/
abbrev runB (c : Dev nD) (t : Fin cfg0.N) (h0 : ¬t.val % 4 = 0) (h1 : ¬t.val % 4 = 3) (xs0 : Vec F S2048x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0
/-- The run at a point of the last depth tile, over what the accumulator held. -/
abbrev runC (c : Dev nD) (t : Fin cfg0.N) (h0 : ¬t.val % 4 = 0) (h1 : t.val % 4 = 3) (xs0 : Vec F S2048x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0

/-! Each run's stores into the accumulator are whole-buffer stores, so its pieces cover it; so do the last depth
    tile's into the output window. -/
theorem scoverA (c : Dev nD) (t : Fin cfg0.N) (h0 : t.val % 4 = 0) (h1 : ¬t.val % 4 = 3) (y : S2048x512.Idx) :
    ∃ pc ∈ (runA m c t h0 h1).2.1, y ∈ pc.1.set :=
  View.cover_of_tiledL (runA m c t h0 h1).2.1 S2048x512.size (by sl_kernel_rfl) y
theorem scoverB (c : Dev nD) (t : Fin cfg0.N) (h0 : ¬t.val % 4 = 0) (h1 : ¬t.val % 4 = 3) (xs0 : Vec F S2048x512 .f32) (y : S2048x512.Idx) :
    ∃ pc ∈ (runB m c t h0 h1 xs0).2.1, y ∈ pc.1.set :=
  View.cover_of_tiledL (runB m c t h0 h1 xs0).2.1 S2048x512.size (by sl_kernel_rfl) y
theorem scoverC (c : Dev nD) (t : Fin cfg0.N) (h0 : ¬t.val % 4 = 0) (h1 : t.val % 4 = 3) (xs0 : Vec F S2048x512 .f32) (y : S2048x512.Idx) :
    ∃ pc ∈ (runC m c t h0 h1 xs0).2.1, y ∈ pc.1.set :=
  View.cover_of_tiledL (runC m c t h0 h1 xs0).2.1 S2048x512.size (by sl_kernel_rfl) y
theorem ocoverC (c : Dev nD) (t : Fin cfg0.N) (h0 : ¬t.val % 4 = 0) (h1 : t.val % 4 = 3) (xs0 : Vec F S2048x512 .f32) (y : S2048x512.Idx) :
    ∃ pc ∈ (runC m c t h0 h1 xs0).1, y ∈ pc.1.set :=
  View.cover_of_tiledL (runC m c t h0 h1 xs0).1 S2048x512.size (by sl_kernel_rfl) y

/-! ## What the accumulator and the output buffer hold after each point -/

/-- The accumulator after the body at position `n`: the stores of the case the point is in, read back; at a
    point past the first depth tile over what the point before left. -/
def accAfter (c : Dev nD) : (n : ℕ) → n < cfg0.N → Vec F S2048x512 .f32
  | 0, hn => View.canon (runA m c ⟨0, hn⟩ (Nat.zero_mod _) (show ¬(0 : ℕ) % 4 = 3 by decide)).2.1
  | n + 1, hn =>
    if h0 : (n + 1) % 4 = 0 then
      View.canon (runA m c ⟨n + 1, hn⟩ h0 (show ¬(n + 1) % 4 = 3 by omega)).2.1
    else if h1 : (n + 1) % 4 = 3 then
      View.canon (runC m c ⟨n + 1, hn⟩ h0 h1 (accAfter c n (Nat.lt_of_succ_lt hn))).2.1
    else
      View.canon (runB m c ⟨n + 1, hn⟩ h0 h1 (accAfter c n (Nat.lt_of_succ_lt hn))).2.1

/-- The accumulator before a point that is not the first of the grid. -/
abbrev accBefore (c : Dev nD) (t : Fin cfg0.N) : Vec F S2048x512 .f32 :=
  accAfter m c (t.val - 1) (Nat.lt_of_le_of_lt (Nat.sub_le _ _) t.isLt)

theorem accAfter_A (c : Dev nD) (t : Fin cfg0.N) (h0 : t.val % 4 = 0) (h1 : ¬t.val % 4 = 3) :
    accAfter m c t.val t.isLt = View.canon (runA m c t h0 h1).2.1 := by
  obtain ⟨n, hn⟩ := t
  cases n with
  | zero => rfl
  | succ n => exact (dif_pos h0).trans rfl

theorem accAfter_B (c : Dev nD) (t : Fin cfg0.N) (h0 : ¬t.val % 4 = 0) (h1 : ¬t.val % 4 = 3) :
    accAfter m c t.val t.isLt = View.canon (runB m c t h0 h1 (accBefore m c t)).2.1 := by
  obtain ⟨n, hn⟩ := t
  cases n with
  | zero => exact absurd (Nat.zero_mod _) h0
  | succ n => exact (dif_neg h0).trans ((dif_neg h1).trans rfl)

theorem accAfter_C (c : Dev nD) (t : Fin cfg0.N) (h0 : ¬t.val % 4 = 0) (h1 : t.val % 4 = 3) :
    accAfter m c t.val t.isLt = View.canon (runC m c t h0 h1 (accBefore m c t)).2.1 := by
  obtain ⟨n, hn⟩ := t
  cases n with
  | zero => exact absurd (Nat.zero_mod _) h0
  | succ n => exact (dif_neg h0).trans ((dif_pos h1).trans rfl)

/-- The output window's buffer after the body at point `t`: at the last depth tile the tile the body stored;
    elsewhere the body stores nothing there and the value is never consulted. -/
def outAfter (c : Dev nD) (t : Fin cfg0.N) : Vec F S2048x512 .f32 :=
  if h1 : t.val % 4 = 3 then View.canon (runC m c t (by omega) h1 (accBefore m c t)).1 else View.canon []

theorem outAfter_C (c : Dev nD) (t : Fin cfg0.N) (h0 : ¬t.val % 4 = 0) (h1 : t.val % 4 = 3) :
    outAfter m c t = View.canon (runC m c t h0 h1 (accBefore m c t)).1 := dif_pos h1

/-- The region's invariant before position `n`: before the first point whatever the launch hands over; afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAfter m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAfter m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAfter m c (n - 1) (by omega))) ∗ (∃ r, prngReg c r)) := by
  cases n with
  | zero => exact absurd rfl hz
  | succ n => rfl

/-! ## The proof data -/

/-- The arrays as the region finds them; after the body each input's buffer still at its block, the output's at
    `outAfter`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAfter m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAfter m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- An input window is live everywhere: the body must leave its buffer at the block it found. -/
theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]
theorem leaves_in5 (c : Dev nD) (t : Fin cfg0.N) : (dats m 0 c).leavesExact 5 t = owns (c : Thread nD τ) (ms0_5 t) fullShare (iblk m c 5 t) := by
  unfold Dat.leavesExact; rw [liveAt0_5 t, after0_5]

set_option maxHeartbeats 8000000 in
/-- The body at any point. The inputs' buffers hold their blocks; the point's number mod 4 says which of the three
    runs applies; the invariant hands over the accumulator at what the point before left (at anything before the
    grid's first point) and takes it back at this point's contents; away from the last depth tile the output
    buffer is handed back as found, at the last depth tile at the stored tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, leaves_in5]
  have hN : t.val < 384 := lt_of_lt_of_eq t.isLt (show cfg0.N = 384 from N_0)
  by_cases h0 : t.val % 4 = 0
  · have h1 : ¬t.val % 4 = 3 := by omega
    rw [Dat.leavesExact_idle (dats m 0 c) 6 t (idleAt0_6 t (fun h => h1 ((hcond0_1 t).mp h))) (noFlush0_6 t (fun h => h1 ((hcond0_1 t).mp h)))]
    rw [accAfter_A m c t h0 h1]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_eq_canon _ _ _ (scoverA m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_eq_canon _ _ _ (scoverA m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 4 = 3
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [accAfter_C m c t h0 h1, outAfter_C m c t h0 h1]
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runC m c t h0 h1 (accBefore m c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_eq_canon _ _ _ (scoverC m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (ocoverC m c t h0 h1 _)
    · rw [Dat.leavesExact_idle (dats m 0 c) 6 t (idleAt0_6 t (fun h => h1 ((hcond0_1 t).mp h))) (noFlush0_6 t (fun h => h1 ((hcond0_1 t).mp h)))]
      rw [accAfter_B m c t h0 h1]
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runB m c t h0 h1 (accBefore m c t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_eq_canon _ _ _ (scoverB m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 384 := N_0; omega), PhiA0_eq]
  iintro ⟨HS0, Hg⟩
  isplitl [HS0]
  · iexists _; iexact HS0
  iexact Hg

/-! ## The run and the frame -/

set_option backward.isDefEq.respectTransparency.types false in
/-- Every weakly fair execution of @main terminates with each window's array at what the proof data compute and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.KI.Kit.lean ====
/-
  The launch side of the quantized linear layer's frame: what the TensorCore's buffers hold when the one
  pipelined region is entered (the sixty-eight host operations that unpack the zero points, scale them, sum the
  activations group by group and reshape the bias have run), that none of them writes an argument array, the
  block of each window at a grid point read off those contents, and the frame claim's post read off a run
  that ends with every window's array accounted for and every other buffer as the region found it.
-/
import proofs.«419219_j18975165514260_3_alg».proof.Proof.Gen.KernelIdeal.Launch
import proofs.«419219_j18975165514260_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s TensorCore buffers after the host operations before the region. -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! Each host operation writes its own result buffer only, so the five argument arrays reach the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the point fetched it or
    not (where it was not fetched the block index has not moved), for any proof data over these arrays whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post -/

/-- From a run that ends with each window's array at what the proof data compute and every other unscoped buffer
    as the region found it: the activations, the bias and the packed zero points are staged by no window and
    reach the region as launched; the scales and the packed weights are input windows' arrays, which end as they
    were at the region's entry. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).2 main_arg2 (Pipeline.mem_restRefs_of main_arg2 (by decide) (by decide))).trans (V_main_arg2 m c),
      ((h c).1 1).trans (((dats 0 c).arrAt_in 1 rfl _).trans ((hA c 1).trans (V_main_arg3 m c))),
      ((h c).2 main_arg4 (Pipeline.mem_restRefs_of main_arg4 (by decide) (by decide))).trans (V_main_arg4 m c)⟩) h

end Cert.KernelIdeal.Fr

end
-- ==== Proof.KI.Cases.lean ====
/-
  What the three kinds of grid point share. The grid is (row tile, column tile, depth tile) = 4 × 24 × 4 with the
  depth tile fastest, so a point's depth tile is its number mod 4. The body zeroes its accumulator at depth tile 0
  and subtracts the zero-point correction, adds the bias and stores the output tile at depth tile 3; the output
  window is stored nowhere else and is written back exactly at those points.
-/
import proofs.«419219_j18975165514260_3_alg».proof.Proof.KI.Kit
import proofs.«419219_j18975165514260_3_alg».proof.Proof.Gen.KernelIdeal.Skeleton
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two branch conditions -/

/-- "This is the first depth tile": the condition under which the accumulator is zeroed, as the body computes it. -/
abbrev cond0_0 (i : grid0.Coords) : Prop := (Scalar.cmpi .ne (Scalar.extui (Scalar.cmpi .eq (BitVec.ofNat 32 (i 2).val) 0#32)) 0#32) = 1#1
/-- It holds at the points whose number is 0 mod 4. -/
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last depth tile": the condition under which the output tile is stored. -/
abbrev cond0_1 (i : grid0.Coords) : Prop := k0_cond2 i = 1#1
/-- It holds at the points whose number is 3 mod 4. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from the last depth tile nothing is stored into the output window, and it is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At the last depth tile the output window is live. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x512 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x512 .f32 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0_0 : Memref sig .tc .vmem S2048x512 .f32 := Memref.whole cc0_scratch0
/-- The accumulator as a view: what it holds is stated through it. -/
abbrev VS0_0 : View sig .tc .vmem S2048x512 .f32 := scM0_0.view
/-- One staging buffer of the output window, through which its contents are stated (which one does not matter). -/
abbrev VO0_6 : View sig .tc .vmem S2048x512 .f32 := (Memref.whole cc0_stg6_0 : Memref sig .tc .vmem S2048x512 .f32).view

/-- What the region's launch hands the body besides the windows: the accumulator at some contents and the
    generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Fr

end
-- ==== Proof.KI.RunA.lean ====
/-
  The body run at a grid point of the first depth tile (the accumulator is zeroed first; the output tile is not
  stored). On whole staging memrefs holding the six input blocks, the output window's buffer at any contents
  (handed back untouched) and the accumulator at anything, the body runs to its end; what it leaves in the
  accumulator is the list of pieces its two stores wrote (the zeros, then zeros plus this tile's product), found
  by running the body.
-/
import proofs.«419219_j18975165514260_3_alg».proof.Proof.KI.Cases

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the stores leave (none in the output window, two in the accumulator), with the run. -/
noncomputable def kernelRun0_A (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x32 .f32) (harg6 : arg6.IsWhole) (arg7 : Memref sig .tc .vmem S32x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (hc0 : cond0_0 i) (hc1 : ¬cond0_1 i)
    (x0 : Vec F S2048x1024 .bf16) (x1 : Vec F S128x512 .i32) (x2 : Vec F S8x512 .f32) (x3 : Vec F S2048x32 .f32) (x4 : Vec F S32x512 .f32) (x5 : Vec F S1x512 .f32) :
    Σ' (L6 : List (View.Piece (Elt F) S2048x512 .f32)), { LS0 : List (View.Piece (Elt F) S2048x512 .f32) //
      ∀ (xi6 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__linear_kernel i arg3 harg3 arg4 harg4 arg5 harg5 arg6 harg6 arg7 harg7 arg8 harg8 arg9 harg9 arg10 harg10) K } := by
  refine ⟨[], ?_, fun xi6 E K => ?run⟩
  case run =>
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Fr

end
-- ==== Proof.KI.RunB.lean ====
/-
  The body run at a grid point of a middle depth tile (nothing is zeroed and the output tile is not stored). The
  accumulator holds what the point before left; the body leaves in it one piece, those contents plus this tile's
  product.
-/
import proofs.«419219_j18975165514260_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the stores leave (none in the output window, one in the accumulator), with the run. -/
noncomputable def kernelRun0_B (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x32 .f32) (harg6 : arg6.IsWhole) (arg7 : Memref sig .tc .vmem S32x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (hc0 : ¬cond0_0 i) (hc1 : ¬cond0_1 i)
    (x0 : Vec F S2048x1024 .bf16) (x1 : Vec F S128x512 .i32) (x2 : Vec F S8x512 .f32) (x3 : Vec F S2048x32 .f32) (x4 : Vec F S32x512 .f32) (x5 : Vec F S1x512 .f32) (xs0 : Vec F S2048x512 .f32) :
    Σ' (L6 : List (View.Piece (Elt F) S2048x512 .f32)), { LS0 : List (View.Piece (Elt F) S2048x512 .f32) //
      ∀ (xi6 : Vec F S2048x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc0__linear_kernel i arg3 harg3 arg4 harg4 arg5 harg5 arg6 harg6 arg7 harg7 arg8 harg8 arg9 harg9 arg10 harg10) K } := by
  refine ⟨[], ?_, fun xi6 E K => ?run⟩
  case run =>
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6; obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS0

end Cert.KernelIdeal.Fr

end
-- ==== Proof.KI.RunC.lean ====
/-
  The body run at a grid point of the last depth tile. The accumulator holds what the point before left; the
  body adds this tile's product to it, then stores into the output window's buffer (whatever it held) the
  accumulator less the zero-point correction plus the bias: one piece in each.
-/
import proofs.«419219_j18975165514260_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the stores leave (one in the output window, one in the accumulator), with the run. -/
noncomputable def kernelRun0_C (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x32 .f32) (harg6 : arg6.IsWhole) (arg7 : Memref sig .tc .vmem S32x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (hc0 : ¬cond0_0 i) (hc1 : cond0_1 i)
    (x0 : Vec F S2048x1024 .bf16) (x1 : Vec F S128x512 .i32) (x2 : Vec F S8x512 .f32) (x3 : Vec F S2048x32 .f32) (x4 : Vec F S32x512 .f32) (x5 : Vec F S1x512 .f32) (xs0 : Vec F S2048x512 .f32) :
    Σ' (L6 : List (View.Piece (Elt F) S2048x512 .f32)), { LS0 : List (View.Piece (Elt F) S2048x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc0__linear_kernel i arg3 harg3 arg4 harg4 arg5 harg5 arg6 harg6 arg7 harg7 arg8 harg8 arg9 harg9 arg10 harg10) K } := by
  refine ⟨?_, ?_, fun E K => ?run⟩
  case run =>
    simp only [cc0__linear_kernel_eq_skeleton]; unfold cc0__linear_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    iexists _; iexact HS0

end Cert.KernelIdeal.Fr

end
-- ==== Proof.KI.Frame.lean ====
/-
  The frame of the quantized linear layer's program: the proof data of its one pipelined region, the body's
  obligation at every grid point, the run, and the frame claim.

  Between grid points the kernel keeps a running sum in a scratch accumulator: zeroed at the first depth tile of
  every (row tile, column tile) pair, added to at every depth tile, and at the last depth tile turned into the
  output tile. What the accumulator holds after each point is stated by recursion on the point; the output
  window's buffer matters only at the last depth tile, the only place it is stored and written back.
-/
import proofs.«419219_j18975165514260_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's runs at a grid point -/

/-- The run at a point of the first depth tile, on the point's staging memrefs and input blocks. -/
abbrev runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
/-- The run at a point of a middle depth tile, over what the accumulator held. -/
abbrev runB (c : Dev nD) (t : Fin cfg0.N) (h0 : ¬t.val % 4 = 0) (h1 : ¬t.val % 4 = 3) (xs0 : Vec F S2048x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) xs0
/-- The run at a point of the last depth tile, over what the accumulator held. -/
abbrev runC (c : Dev nD) (t : Fin cfg0.N) (h0 : ¬t.val % 4 = 0) (h1 : t.val % 4 = 3) (xs0 : Vec F S2048x512 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) xs0

/-! Each run's stores into the accumulator are whole-buffer stores, so its pieces cover it; so do the last depth
    tile's into the output window. -/
theorem scoverA (c : Dev nD) (t : Fin cfg0.N) (h0 : t.val % 4 = 0) (h1 : ¬t.val % 4 = 3) (y : S2048x512.Idx) :
    ∃ pc ∈ (runA m c t h0 h1).2.1, y ∈ pc.1.set :=
  View.cover_of_tiledL (runA m c t h0 h1).2.1 S2048x512.size (by sl_kernel_rfl) y
theorem scoverB (c : Dev nD) (t : Fin cfg0.N) (h0 : ¬t.val % 4 = 0) (h1 : ¬t.val % 4 = 3) (xs0 : Vec F S2048x512 .f32) (y : S2048x512.Idx) :
    ∃ pc ∈ (runB m c t h0 h1 xs0).2.1, y ∈ pc.1.set :=
  View.cover_of_tiledL (runB m c t h0 h1 xs0).2.1 S2048x512.size (by sl_kernel_rfl) y
theorem scoverC (c : Dev nD) (t : Fin cfg0.N) (h0 : ¬t.val % 4 = 0) (h1 : t.val % 4 = 3) (xs0 : Vec F S2048x512 .f32) (y : S2048x512.Idx) :
    ∃ pc ∈ (runC m c t h0 h1 xs0).2.1, y ∈ pc.1.set :=
  View.cover_of_tiledL (runC m c t h0 h1 xs0).2.1 S2048x512.size (by sl_kernel_rfl) y
theorem ocoverC (c : Dev nD) (t : Fin cfg0.N) (h0 : ¬t.val % 4 = 0) (h1 : t.val % 4 = 3) (xs0 : Vec F S2048x512 .f32) (y : S2048x512.Idx) :
    ∃ pc ∈ (runC m c t h0 h1 xs0).1, y ∈ pc.1.set :=
  View.cover_of_tiledL (runC m c t h0 h1 xs0).1 S2048x512.size (by sl_kernel_rfl) y

/-! ## What the accumulator and the output buffer hold after each point -/

/-- The accumulator after the body at position `n`: the stores of the case the point is in, read back; at a
    point past the first depth tile over what the point before left. -/
def accAfter (c : Dev nD) : (n : ℕ) → n < cfg0.N → Vec F S2048x512 .f32
  | 0, hn => View.canon (runA m c ⟨0, hn⟩ (Nat.zero_mod _) (show ¬(0 : ℕ) % 4 = 3 by decide)).2.1
  | n + 1, hn =>
    if h0 : (n + 1) % 4 = 0 then
      View.canon (runA m c ⟨n + 1, hn⟩ h0 (show ¬(n + 1) % 4 = 3 by omega)).2.1
    else if h1 : (n + 1) % 4 = 3 then
      View.canon (runC m c ⟨n + 1, hn⟩ h0 h1 (accAfter c n (Nat.lt_of_succ_lt hn))).2.1
    else
      View.canon (runB m c ⟨n + 1, hn⟩ h0 h1 (accAfter c n (Nat.lt_of_succ_lt hn))).2.1

/-- The accumulator before a point that is not the first of the grid. -/
abbrev accBefore (c : Dev nD) (t : Fin cfg0.N) : Vec F S2048x512 .f32 :=
  accAfter m c (t.val - 1) (Nat.lt_of_le_of_lt (Nat.sub_le _ _) t.isLt)

theorem accAfter_A (c : Dev nD) (t : Fin cfg0.N) (h0 : t.val % 4 = 0) (h1 : ¬t.val % 4 = 3) :
    accAfter m c t.val t.isLt = View.canon (runA m c t h0 h1).2.1 := by
  obtain ⟨n, hn⟩ := t
  cases n with
  | zero => rfl
  | succ n => exact (dif_pos h0).trans rfl

theorem accAfter_B (c : Dev nD) (t : Fin cfg0.N) (h0 : ¬t.val % 4 = 0) (h1 : ¬t.val % 4 = 3) :
    accAfter m c t.val t.isLt = View.canon (runB m c t h0 h1 (accBefore m c t)).2.1 := by
  obtain ⟨n, hn⟩ := t
  cases n with
  | zero => exact absurd (Nat.zero_mod _) h0
  | succ n => exact (dif_neg h0).trans ((dif_neg h1).trans rfl)

theorem accAfter_C (c : Dev nD) (t : Fin cfg0.N) (h0 : ¬t.val % 4 = 0) (h1 : t.val % 4 = 3) :
    accAfter m c t.val t.isLt = View.canon (runC m c t h0 h1 (accBefore m c t)).2.1 := by
  obtain ⟨n, hn⟩ := t
  cases n with
  | zero => exact absurd (Nat.zero_mod _) h0
  | succ n => exact (dif_neg h0).trans ((dif_pos h1).trans rfl)

/-- The output window's buffer after the body at point `t`: at the last depth tile the tile the body stored;
    elsewhere the body stores nothing there and the value is never consulted. -/
def outAfter (c : Dev nD) (t : Fin cfg0.N) : Vec F S2048x512 .f32 :=
  if h1 : t.val % 4 = 3 then View.canon (runC m c t (by omega) h1 (accBefore m c t)).1 else View.canon []

theorem outAfter_C (c : Dev nD) (t : Fin cfg0.N) (h0 : ¬t.val % 4 = 0) (h1 : t.val % 4 = 3) :
    outAfter m c t = View.canon (runC m c t h0 h1 (accBefore m c t)).1 := dif_pos h1

/-- The region's invariant before position `n`: before the first point whatever the launch hands over; afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare (accAfter m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (accAfter m c n hn)) ∗ (∃ r, prngReg c r)) := rfl

theorem PhiS_pos (c : Dev nD) (n : ℕ) (h : n ≤ cfg0.N) (hz : n ≠ 0) :
    PhiS m c n h = iprop(iprop(owns (c : Thread nD τ) scM0_0 fullShare (accAfter m c (n - 1) (by omega))) ∗ (∃ r, prngReg c r)) := by
  cases n with
  | zero => exact absurd rfl hz
  | succ n => rfl

/-! ## The proof data -/

/-- The arrays as the region finds them; after the body each input's buffer still at its block, the output's at
    `outAfter`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAfter m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAfter m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- An input window is live everywhere: the body must leave its buffer at the block it found. -/
theorem leaves_in0 (c : Dev nD) (t : Fin cfg0.N) : (dats m 0 c).leavesExact 0 t = owns (c : Thread nD τ) (ms0_0 t) fullShare (iblk m c 0 t) := by
  unfold Dat.leavesExact; rw [liveAt0_0 t, after0_0]
theorem leaves_in1 (c : Dev nD) (t : Fin cfg0.N) : (dats m 0 c).leavesExact 1 t = owns (c : Thread nD τ) (ms0_1 t) fullShare (iblk m c 1 t) := by
  unfold Dat.leavesExact; rw [liveAt0_1 t, after0_1]
theorem leaves_in2 (c : Dev nD) (t : Fin cfg0.N) : (dats m 0 c).leavesExact 2 t = owns (c : Thread nD τ) (ms0_2 t) fullShare (iblk m c 2 t) := by
  unfold Dat.leavesExact; rw [liveAt0_2 t, after0_2]
theorem leaves_in3 (c : Dev nD) (t : Fin cfg0.N) : (dats m 0 c).leavesExact 3 t = owns (c : Thread nD τ) (ms0_3 t) fullShare (iblk m c 3 t) := by
  unfold Dat.leavesExact; rw [liveAt0_3 t, after0_3]
theorem leaves_in4 (c : Dev nD) (t : Fin cfg0.N) : (dats m 0 c).leavesExact 4 t = owns (c : Thread nD τ) (ms0_4 t) fullShare (iblk m c 4 t) := by
  unfold Dat.leavesExact; rw [liveAt0_4 t, after0_4]
theorem leaves_in5 (c : Dev nD) (t : Fin cfg0.N) : (dats m 0 c).leavesExact 5 t = owns (c : Thread nD τ) (ms0_5 t) fullShare (iblk m c 5 t) := by
  unfold Dat.leavesExact; rw [liveAt0_5 t, after0_5]

set_option maxHeartbeats 8000000 in
/-- The body at any point. The inputs' buffers hold their blocks; the point's number mod 4 says which of the three
    runs applies; the invariant hands over the accumulator at what the point before left (at anything before the
    grid's first point) and takes it back at this point's contents; away from the last depth tile the output
    buffer is handed back as found, at the last depth tile at the stored tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3, leaves_in4, leaves_in5]
  have hN : t.val < 384 := lt_of_lt_of_eq t.isLt (show cfg0.N = 384 from N_0)
  by_cases h0 : t.val % 4 = 0
  · have h1 : ¬t.val % 4 = 3 := by omega
    rw [Dat.leavesExact_idle (dats m 0 c) 6 t (idleAt0_6 t (fun h => h1 ((hcond0_1 t).mp h))) (noFlush0_6 t (fun h => h1 ((hcond0_1 t).mp h)))]
    rw [accAfter_A m c t h0 h1]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_eq_canon _ _ _ (scoverA m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runA m c t h0 h1).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_eq_canon _ _ _ (scoverA m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h1 : t.val % 4 = 3
    · rw [show (dats m 0 c).leavesExact 6 t = owns (c : Thread nD τ) (ms0_6 t) fullShare ((dats m 0 c).after 6 t) from by
        unfold Dat.leavesExact; rw [liveAt0_6 t ((hcond0_1 t).mpr h1)], after0_6]
      rw [accAfter_C m c t h0 h1, outAfter_C m c t h0 h1]
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runC m c t h0 h1 (accBefore m c t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, ⟨%e6, H6⟩, ⟨%es0, HS0⟩⟩
      isplitl [HS0 Hg]
      · isplitl [HS0]
        · unfold owns; iexists _; isplitr
          swap; · iexact HS0
          ipureintro; exact View.read_writes_eq_canon _ _ _ (scoverC m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_eq_canon _ _ _ (ocoverC m c t h0 h1 _)
    · rw [Dat.leavesExact_idle (dats m 0 c) 6 t (idleAt0_6 t (fun h => h1 ((hcond0_1 t).mp h))) (noFlush0_6 t (fun h => h1 ((hcond0_1 t).mp h)))]
      rw [accAfter_B m c t h0 h1]
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((runB m c t h0 h1 (accBefore m c t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, ⟨%es0, HS0⟩⟩
      isplitl [HS0 Hg]
      · isplitl [HS0]
        · unfold owns; iexists _; isplitr
          swap; · iexact HS0
          ipureintro; exact View.read_writes_eq_canon _ _ _ (scoverB m c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the accumulator's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 384 := N_0; omega), PhiA0_eq]
  iintro ⟨HS0, Hg⟩
  isplitl [HS0]
  · iexists _; iexact HS0
  iexact Hg

/-! ## The run and the frame -/

set_option backward.isDefEq.respectTransparency.types false in
/-- Every weakly fair execution of @main terminates with each window's array at what the proof data compute and
    every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end, faults nowhere, and leaves its five argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.KI.Pieces.lean ====
/-
  What the body's stores leave, named. One depth tile's update of the accumulator is one function `stepAcc` of
  the tile's activations block, packed-weight block and scales block and of what the accumulator held: the
  accumulator plus the product of the activations with the unpacked, scaled weights. At the first depth tile the
  accumulator it reads is the zeros the body has just stored; at the last depth tile the output tile is the updated
  accumulator less the product of the group sums with the scaled zero points, plus the bias.
-/
import proofs.«419219_j18975165514260_3_alg».proof.Proof.KI.RunC
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One depth tile's update of the accumulator. -/
def stepAcc (x0 : Vec F S2048x1024 .bf16) (x1 : Vec F S128x512 .i32) (x2 : Vec F S8x512 .f32) (acc : Vec F S2048x512 .f32) : Vec F S2048x512 .f32 :=
  k0_pay1 x1 (k0_pay4 x1) (k0_pay5 x1) (k0_pay6 x1) (k0_pay7 x1) (k0_pay8 x1) (k0_pay9 x1) (k0_pay10 x1) x2 acc x0

/-- The zero offsets of a whole-buffer access, however the zeros are spelt. -/
theorem hz : (![0, 0] : Fin 2 → ℕ) = fun _ => 0 := by funext a; fin_cases a <;> rfl

theorem pieceA (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x32 .f32) (harg6 : arg6.IsWhole) (arg7 : Memref sig .tc .vmem S32x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (hc0 : cond0_0 i) (hc1 : ¬cond0_1 i) (x0 : Vec F S2048x1024 .bf16) (x1 : Vec F S128x512 .i32) (x2 : Vec F S8x512 .f32) (x3 : Vec F S2048x32 .f32) (x4 : Vec F S32x512 .f32) (x5 : Vec F S1x512 .f32) :
    View.canon (kernelRun0_A (F := F) c i arg3 harg3 arg4 harg4 arg5 harg5 arg6 harg6 arg7 harg7 arg8 harg8 arg9 harg9 arg10 harg10 hc0 hc1 x0 x1 x2 x3 x4 x5).2.1 = stepAcc x0 x1 x2 k0_pay3 := by
  unfold kernelRun0_A; dsimp only; sl_unfold_words
  rw [View.canon_cons_unit_zero (S := S2048x512) hz]
  simp only [View.readAt_eq_ld, Memref.IsWhole.read_unread, View.ld_unit_zero (S := S2048x1024) hz, View.ld_unit_zero (S := S128x512) hz,
    View.ld_unit_zero (S := S8x512) hz, View.ld_unit_zero (S := S2048x32) hz, View.ld_unit_zero (S := S32x512) hz, View.ld_unit_zero (S := S1x512) hz,
    View.ld_unit_zero (S := S2048x512) hz, View.readCov_unit_zero (S := S2048x512) _ hz, stepAcc]

theorem pieceB (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x32 .f32) (harg6 : arg6.IsWhole) (arg7 : Memref sig .tc .vmem S32x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (hc0 : ¬cond0_0 i) (hc1 : ¬cond0_1 i) (x0 : Vec F S2048x1024 .bf16) (x1 : Vec F S128x512 .i32) (x2 : Vec F S8x512 .f32) (x3 : Vec F S2048x32 .f32) (x4 : Vec F S32x512 .f32) (x5 : Vec F S1x512 .f32) (xs0 : Vec F S2048x512 .f32) :
    View.canon (kernelRun0_B (F := F) c i arg3 harg3 arg4 harg4 arg5 harg5 arg6 harg6 arg7 harg7 arg8 harg8 arg9 harg9 arg10 harg10 hc0 hc1 x0 x1 x2 x3 x4 x5 xs0).2.1 = stepAcc x0 x1 x2 xs0 := by
  unfold kernelRun0_B; dsimp only; sl_unfold_words
  rw [View.canon_unit_zero (S := S2048x512) hz]
  simp only [View.readAt_eq_ld, Memref.IsWhole.read_unread, View.ld_unit_zero (S := S2048x1024) hz, View.ld_unit_zero (S := S128x512) hz,
    View.ld_unit_zero (S := S8x512) hz, View.ld_unit_zero (S := S2048x32) hz, View.ld_unit_zero (S := S32x512) hz, View.ld_unit_zero (S := S1x512) hz,
    View.ld_unit_zero (S := S2048x512) hz, View.readCov_unit_zero (S := S2048x512) _ hz, stepAcc]

theorem pieceCs (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x32 .f32) (harg6 : arg6.IsWhole) (arg7 : Memref sig .tc .vmem S32x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (hc0 : ¬cond0_0 i) (hc1 : cond0_1 i) (x0 : Vec F S2048x1024 .bf16) (x1 : Vec F S128x512 .i32) (x2 : Vec F S8x512 .f32) (x3 : Vec F S2048x32 .f32) (x4 : Vec F S32x512 .f32) (x5 : Vec F S1x512 .f32) (xs0 : Vec F S2048x512 .f32) :
    View.canon (kernelRun0_C (F := F) c i arg3 harg3 arg4 harg4 arg5 harg5 arg6 harg6 arg7 harg7 arg8 harg8 arg9 harg9 arg10 harg10 hc0 hc1 x0 x1 x2 x3 x4 x5 xs0).2.1 = stepAcc x0 x1 x2 xs0 := by
  unfold kernelRun0_C; dsimp only; sl_unfold_words
  rw [View.canon_unit_zero (S := S2048x512) hz]
  simp only [View.readAt_eq_ld, Memref.IsWhole.read_unread, View.ld_unit_zero (S := S2048x1024) hz, View.ld_unit_zero (S := S128x512) hz,
    View.ld_unit_zero (S := S8x512) hz, View.ld_unit_zero (S := S2048x32) hz, View.ld_unit_zero (S := S32x512) hz, View.ld_unit_zero (S := S1x512) hz,
    View.ld_unit_zero (S := S2048x512) hz, View.readCov_unit_zero (S := S2048x512) _ hz, stepAcc]

theorem pieceCo (c : Dev nD) (i : grid0.Coords) (arg3 : Memref sig .tc .vmem S2048x1024 .bf16) (harg3 : arg3.IsWhole) (arg4 : Memref sig .tc .vmem S128x512 .i32) (harg4 : arg4.IsWhole) (arg5 : Memref sig .tc .vmem S8x512 .f32) (harg5 : arg5.IsWhole) (arg6 : Memref sig .tc .vmem S2048x32 .f32) (harg6 : arg6.IsWhole) (arg7 : Memref sig .tc .vmem S32x512 .f32) (harg7 : arg7.IsWhole) (arg8 : Memref sig .tc .vmem S1x512 .f32) (harg8 : arg8.IsWhole) (arg9 : Memref sig .tc .vmem S2048x512 .f32) (harg9 : arg9.IsWhole) (arg10 : Memref sig .tc .vmem S2048x512 .f32) (harg10 : arg10.IsWhole) (hc0 : ¬cond0_0 i) (hc1 : cond0_1 i) (x0 : Vec F S2048x1024 .bf16) (x1 : Vec F S128x512 .i32) (x2 : Vec F S8x512 .f32) (x3 : Vec F S2048x32 .f32) (x4 : Vec F S32x512 .f32) (x5 : Vec F S1x512 .f32) (xs0 : Vec F S2048x512 .f32) :
    View.canon (kernelRun0_C (F := F) c i arg3 harg3 arg4 harg4 arg5 harg5 arg6 harg6 arg7 harg7 arg8 harg8 arg9 harg9 arg10 harg10 hc0 hc1 x0 x1 x2 x3 x4 x5 xs0).1 = k0_pay2 x3 x4 (stepAcc x0 x1 x2 xs0) x5 := by
  unfold kernelRun0_C; dsimp only; sl_unfold_words
  rw [View.canon_unit_zero (S := S2048x512) hz]
  simp only [View.readAt_eq_ld, Memref.IsWhole.read_unread, View.ld_unit_zero (S := S2048x1024) hz, View.ld_unit_zero (S := S128x512) hz,
    View.ld_unit_zero (S := S8x512) hz, View.ld_unit_zero (S := S2048x32) hz, View.ld_unit_zero (S := S32x512) hz, View.ld_unit_zero (S := S1x512) hz,
    View.ld_unit_zero (S := S2048x512) hz, View.readCov_unit_zero (S := S2048x512) _ hz, stepAcc]

end Cert.KernelIdeal.Fr

end
-- ==== Proof.KI.Fold.lean ====
/-
  The accumulator as a fold. After grid point `n` the accumulator holds one depth tile's update `stepAcc` of what
  the point before left, restarting from zeros at every point whose number is a multiple of 4; so after the point
  `4·u + j` it holds the fold of the updates of the points `4·u … 4·u + j` started from zeros. At the last depth
  tile (`j = 3`) the output tile is that fold less the zero-point correction plus the bias.
-/
import proofs.«419219_j18975165514260_3_alg».proof.Proof.KI.Frame
import proofs.«419219_j18975165514260_3_alg».proof.Proof.KI.Pieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The six input blocks at a grid point, at their literal types. -/
abbrev xblk (c : Dev nD) (t : Fin cfg0.N) : Vec F S2048x1024 .bf16 := iblk m c 0 t
abbrev qblk (c : Dev nD) (t : Fin cfg0.N) : Vec F S128x512 .i32 := iblk m c 1 t
abbrev sblk (c : Dev nD) (t : Fin cfg0.N) : Vec F S8x512 .f32 := iblk m c 2 t
abbrev gblk (c : Dev nD) (t : Fin cfg0.N) : Vec F S2048x32 .f32 := iblk m c 3 t
abbrev zblk (c : Dev nD) (t : Fin cfg0.N) : Vec F S32x512 .f32 := iblk m c 4 t
abbrev bblk (c : Dev nD) (t : Fin cfg0.N) : Vec F S1x512 .f32 := iblk m c 5 t

/-- The update grid point `n` applies to the accumulator. -/
def stepAt (c : Dev nD) (n : ℕ) (h : n < cfg0.N) (acc : Vec F S2048x512 .f32) : Vec F S2048x512 .f32 :=
  stepAcc (xblk m c ⟨n, h⟩) (qblk m c ⟨n, h⟩) (sblk m c ⟨n, h⟩) acc

/-- At a first depth tile the accumulator restarts from zeros. -/
theorem accAfter_first (c : Dev nD) (n : ℕ) (h : n < cfg0.N) (h0 : n % 4 = 0) :
    accAfter m c n h = stepAt m c n h k0_pay3 :=
  (accAfter_A m c ⟨n, h⟩ h0 (by show ¬n % 4 = 3; omega)).trans (pieceA _ _ _ _ _ _ _ _ _ _ _ _ _ _ _ _ _ _ _ _ _ _ _ _ _ _)

/-- At any other depth tile it is updated from what the point before left. -/
theorem accAfter_step (c : Dev nD) (n : ℕ) (h : n + 1 < cfg0.N) (h0 : ¬(n + 1) % 4 = 0) :
    accAfter m c (n + 1) h = stepAt m c (n + 1) h (accAfter m c n (Nat.lt_of_succ_lt h)) := by
  by_cases h1 : (n + 1) % 4 = 3
  · exact (accAfter_C m c ⟨n + 1, h⟩ h0 h1).trans (pieceCs _ _ _ _ _ _ _ _ _ _ _ _ _ _ _ _ _ _ _ _ _ _ _ _ _ _ _)
  · exact (accAfter_B m c ⟨n + 1, h⟩ h0 h1).trans (pieceB _ _ _ _ _ _ _ _ _ _ _ _ _ _ _ _ _ _ _ _ _ _ _ _ _ _ _)

/-- The accumulator after any point is the fold of the updates since the last multiple of 4, started from zeros. -/
theorem accAfter_fold (c : Dev nD) (n : ℕ) (h : n < cfg0.N) (h' : 4 * (n / 4) + n % 4 < cfg0.N) :
    accAfter m c n h
      = Pipeline.accAt (fun b hb => stepAt m c b hb k0_pay3) (fun b hb acc => stepAt m c b hb acc) (4 * (n / 4)) (n % 4) h' :=
  Pipeline.eq_accAt_of_mod (fun b hb => accAfter m c b hb) 4 _ _
    (fun b hb hb0 => accAfter_first m c b hb hb0) (fun b hb hb0 => accAfter_step m c b hb hb0) (by decide) n h h'

/-- The output tile stored at a last depth tile. -/
theorem outAfter_last (c : Dev nD) (t : Fin cfg0.N) (h1 : t.val % 4 = 3) :
    outAfter m c t = k0_pay2 (gblk m c t) (zblk m c t) (accAfter m c t.val t.isLt) (bblk m c t) := by
  have h0 : ¬t.val % 4 = 0 := by omega
  rw [outAfter_C m c t h0 h1, accAfter_C m c t h0 h1, pieceCo, pieceCs]

end Cert.KernelIdeal.Fr

end
-- ==== Proof.Spec.lean ====
/-
  The atoms both programs are read over. A packed 32-bit word holds eight 4-bit fields; field `e` is the word
  shifted right (arithmetically) by `4·e` and masked with 15, a number in 0 … 15, read here as an extended real.
  Input channel `k` of the unpacked weight lives in field `k mod 8` of packed row `k / 8`, and belongs to
  dequantisation group `k / 128`.
-/
import Idealize.ShloMosaic.PureOps.Ideal
import Idealize.ShloMosaic.Lib.ValueIdx

noncomputable section

namespace Cert.QSpec

open Idealize.ShloMosaic

/-- The shift that brings field `e` of a packed word down to the low four bits. -/
def shAmt (e : Fin 8) : BitVec 32 := BitVec.ofNat 32 (4 * e.val)

/-- Field `e` of a packed word as a 32-bit integer: shift right arithmetically by `4·e`, keep the low four bits. -/
def field (w : BitVec 32) (e : Fin 8) : BitVec 32 := IntOp.andi (w.sshiftRight' (shAmt e)) 15#32

/-- The same as an extended real (the integer-to-float conversion at the ideal instance is exact). -/
def nibble (w : BitVec 32) (e : Fin 8) : EReal := (((field w e).toInt : ℝ) : EReal)

/-- A nibble is a real number. -/
theorem nibble_real (w : BitVec 32) (e : Fin 8) : ∃ r : ℝ, nibble w e = (r : EReal) := ⟨_, rfl⟩

/-- Both shift operations (the vector unit's and the host's) are the arithmetic shift when the amount is below the width. -/
theorem shrsi_of_lt (u : ArithUnit) (w s : BitVec 32) (h : s.toNat < 32) : IntOp.shrsi u w s = w.sshiftRight' s := if_pos h

/-- The packed row and the field of unpacked input channel `k`. -/
def rowOf (k : Fin 4096) : Fin 512 := ⟨k.val / 8, by omega⟩
def fieldOf (k : Fin 4096) : Fin 8 := ⟨k.val % 8, by omega⟩
/-- The dequantisation group of input channel `k`. -/
def grpOf (k : Fin 4096) : Fin 32 := ⟨k.val / 128, by omega⟩

end Cert.QSpec

end
-- ==== Proof.KI.PayIdeal.lean ====
/-
  The kernel's stored values read at an index. The accumulator update unpacks a [128,512] block of packed
  words into its eight 4-bit fields, lays them side by side so that row 8p+e of the [1024,512] result is field e of
  packed row p, scales row r by row r/128 of the [8,512] scales block, and adds the [2048,1024]x[1024,512] product to
  the accumulator; the last step subtracts the [2048,32]x[32,512] product of the group sums and the scaled zero
  points and adds the bias row. Each is a closed formula in the entries of the loaded blocks.
-/
import proofs.«419219_j18975165514260_3_alg».proof.Proof.Gen.KernelIdeal.Skeleton
import proofs.«419219_j18975165514260_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.QSpec Idealize.ShloMosaic Idealize.ShloMosaic.ValueIdx
open scoped BigOperators

/-! ## The zero block -/

theorem pay3_apply (p : Fin 2048) (q : Fin 512) : k0_pay3 (F := Ideal) (ix2 p q) = 0 := by
  unfold k0_pay3
  rw [shapeCast_self]
  exact Ideal.ofBits_zero_f32

/-! ## The two products at an index -/

theorem lhs_small_0 (i : S2048x512.Idx) (q : dot_S2048x32_S32x512_S2048x512_1_0_0_1_n_n.contr.Idx) :
    (dot_S2048x32_S32x512_S2048x512_1_0_0_1_n_n.lhsIdx i q 0).val = (i 0).val := by
  unfold DotDims.lhsIdx
  rw [dif_neg (show ¬(0 : Fin S2048x32.rank) ∈ dot_S2048x32_S32x512_S2048x512_1_0_0_1_n_n.lhsBatch by decide), dif_pos (show (0 : Fin S2048x32.rank) ∈ dot_S2048x32_S32x512_S2048x512_1_0_0_1_n_n.lhsNonContracting by decide)]
  rfl
theorem lhs_small_1 (i : S2048x512.Idx) (q : dot_S2048x32_S32x512_S2048x512_1_0_0_1_n_n.contr.Idx) :
    (dot_S2048x32_S32x512_S2048x512_1_0_0_1_n_n.lhsIdx i q 1).val = (q ⟨0, by decide⟩).val :=
  dot_S2048x32_S32x512_S2048x512_1_0_0_1_n_n.lhsIdx_val_of_single rfl i q
theorem rhs_small_0 (i : S2048x512.Idx) (q : dot_S2048x32_S32x512_S2048x512_1_0_0_1_n_n.contr.Idx) :
    (dot_S2048x32_S32x512_S2048x512_1_0_0_1_n_n.rhsIdx i q 0).val = (q ⟨0, by decide⟩).val :=
  dot_S2048x32_S32x512_S2048x512_1_0_0_1_n_n.rhsIdx_val_of_single rfl i q
theorem rhs_small_1 (i : S2048x512.Idx) (q : dot_S2048x32_S32x512_S2048x512_1_0_0_1_n_n.contr.Idx) :
    (dot_S2048x32_S32x512_S2048x512_1_0_0_1_n_n.rhsIdx i q 1).val = (i 1).val := by
  unfold DotDims.rhsIdx
  rw [dif_neg (show ¬(1 : Fin S32x512.rank) ∈ dot_S2048x32_S32x512_S2048x512_1_0_0_1_n_n.rhsBatch by decide), dif_pos (show (1 : Fin S32x512.rank) ∈ dot_S2048x32_S32x512_S2048x512_1_0_0_1_n_n.rhsNonContracting by decide)]
  rfl

/-- The [2048,32]x[32,512] product into the zero accumulator at (p, q): the sum over the 32 groups. -/
theorem matmul_small_apply (a : FVec Ideal S2048x32 .bf16) (b : FVec Ideal S32x512 .bf16) (p : Fin 2048) (q : Fin 512) :
    matmul dot_S2048x32_S32x512_S2048x512_1_0_0_1_n_n none a b (constant (F := Ideal) S2048x512 .f32 0x00000000#32) (ix2 p q)
      = ∑ g : Fin 32, a (ix2 p g) * b (ix2 g q) := by
  simp only [matmul]
  rw [Ideal.matmul_constant_zero_apply, ← Equiv.sum_comp (ValueIdx.contrEquiv1 dot_S2048x32_S32x512_S2048x512_1_0_0_1_n_n 32 rfl rfl).symm]
  refine Finset.sum_congr rfl fun k _ => ?_
  have hk := ValueIdx.contrEquiv1_symm_val dot_S2048x32_S32x512_S2048x512_1_0_0_1_n_n 32 rfl rfl k
  have el : dot_S2048x32_S32x512_S2048x512_1_0_0_1_n_n.lhsIdx (ix2 p q) ((ValueIdx.contrEquiv1 dot_S2048x32_S32x512_S2048x512_1_0_0_1_n_n 32 rfl rfl).symm k) = ix2 p k := funext fun a => Fin.ext (by
    match a with
    | ⟨0, _⟩ => exact lhs_small_0 _ _
    | ⟨1, _⟩ => exact (lhs_small_1 _ _).trans hk)
  have er : dot_S2048x32_S32x512_S2048x512_1_0_0_1_n_n.rhsIdx (ix2 p q) ((ValueIdx.contrEquiv1 dot_S2048x32_S32x512_S2048x512_1_0_0_1_n_n 32 rfl rfl).symm k) = ix2 k q := funext fun a => Fin.ext (by
    match a with
    | ⟨0, _⟩ => exact (rhs_small_0 _ _).trans hk
    | ⟨1, _⟩ => exact rhs_small_1 _ _)
  rw [el, er]

/-- The last step at (p, q): the accumulator less the product of the group sums and the scaled zero points, plus the bias. -/
theorem pay2_apply (v72 : Vec Ideal S2048x32 .f32) (v75 : Vec Ideal S32x512 .f32) (v79 : Vec Ideal S2048x512 .f32) (v81 : Vec Ideal S1x512 .f32)
    (p : Fin 2048) (q : Fin 512) :
    k0_pay2 (F := Ideal) v72 v75 v79 v81 (ix2 p q) = v79 (ix2 p q) - (∑ g : Fin 32, v72 (ix2 p g) * v75 (ix2 g q)) + v81 (ix2 0 q) := by
  unfold k0_pay2
  simp only [shapeCast_self]
  rw [addf_apply, subf_apply, matmul_small_apply]
  rw [broadcastTo_apply v81 broadcasts_S1x512_S2048x512 (ix2 p q) (ix2 0 q) (fun a => by
    match a with
    | ⟨0, _⟩ => rfl
    | ⟨1, _⟩ => rfl)]
  rfl

/-! ## The eight fields of a block of packed words -/

/-- Field `e` of every word of a [128,512] block, as extended reals. -/
def fieldBlock (v3 : Vec Ideal S128x512 .i32) (e : Fin 8) : FVec Ideal S128x512 .f32 := fun i => nibble (v3 i) e

theorem pay4_eq (v3 : Vec Ideal S128x512 .i32) : k0_pay4 (F := Ideal) v3 = fieldBlock v3 0 := by
  funext i
  unfold k0_pay4 fieldBlock nibble field
  show FloatOps.sitofp (F := Ideal) .f32 (IntOp.andi (IntOp.shrsi .vector (v3 i) 0#32) 15#32) = _
  rw [shrsi_of_lt .vector _ _ (by decide)]
  rfl
theorem pay5_eq (v3 : Vec Ideal S128x512 .i32) : k0_pay5 (F := Ideal) v3 = fieldBlock v3 1 := by
  funext i
  unfold k0_pay5 fieldBlock nibble field
  show FloatOps.sitofp (F := Ideal) .f32 (IntOp.andi (IntOp.shrsi .vector (v3 i) 4#32) 15#32) = _
  rw [shrsi_of_lt .vector _ _ (by decide)]
  rfl
theorem pay6_eq (v3 : Vec Ideal S128x512 .i32) : k0_pay6 (F := Ideal) v3 = fieldBlock v3 2 := by
  funext i
  unfold k0_pay6 fieldBlock nibble field
  show FloatOps.sitofp (F := Ideal) .f32 (IntOp.andi (IntOp.shrsi .vector (v3 i) 8#32) 15#32) = _
  rw [shrsi_of_lt .vector _ _ (by decide)]
  rfl
theorem pay7_eq (v3 : Vec Ideal S128x512 .i32) : k0_pay7 (F := Ideal) v3 = fieldBlock v3 3 := by
  funext i
  unfold k0_pay7 fieldBlock nibble field
  show FloatOps.sitofp (F := Ideal) .f32 (IntOp.andi (IntOp.shrsi .vector (v3 i) 12#32) 15#32) = _
  rw [shrsi_of_lt .vector _ _ (by decide)]
  rfl
theorem pay8_eq (v3 : Vec Ideal S128x512 .i32) : k0_pay8 (F := Ideal) v3 = fieldBlock v3 4 := by
  funext i
  unfold k0_pay8 fieldBlock nibble field
  show FloatOps.sitofp (F := Ideal) .f32 (IntOp.andi (IntOp.shrsi .vector (v3 i) 16#32) 15#32) = _
  rw [shrsi_of_lt .vector _ _ (by decide)]
  rfl
theorem pay9_eq (v3 : Vec Ideal S128x512 .i32) : k0_pay9 (F := Ideal) v3 = fieldBlock v3 5 := by
  funext i
  unfold k0_pay9 fieldBlock nibble field
  show FloatOps.sitofp (F := Ideal) .f32 (IntOp.andi (IntOp.shrsi .vector (v3 i) 20#32) 15#32) = _
  rw [shrsi_of_lt .vector _ _ (by decide)]
  rfl
theorem pay10_eq (v3 : Vec Ideal S128x512 .i32) : sitofp (F := Ideal) .f32 (k0_pay10 (F := Ideal) v3) = fieldBlock v3 6 := by
  funext i
  unfold k0_pay10 fieldBlock nibble field
  show FloatOps.sitofp (F := Ideal) .f32 (IntOp.andi (IntOp.shrsi .vector (v3 i) 24#32) 15#32) = _
  rw [shrsi_of_lt .vector _ _ (by decide)]
  rfl
theorem top_eq (v3 : Vec Ideal S128x512 .i32) :
    sitofp (F := Ideal) .f32 (andi (shrsi v3 (broadcast S128x512 28#32)) (broadcast S128x512 15#32)) = fieldBlock v3 7 := by
  funext i
  unfold fieldBlock nibble field
  show FloatOps.sitofp (F := Ideal) .f32 (IntOp.andi (IntOp.shrsi .vector (v3 i) 28#32) 15#32) = _
  rw [shrsi_of_lt .vector _ _ (by decide)]
  rfl

/-! ## The unpacked block and the scales at an index -/

/-- Eight [128,512] blocks laid side by side as [128,8,512] and merged to [1024,512]: row `r` is row `r / 8` of block `r % 8`. -/
theorem unpack_apply (g : Fin 8 → FVec Ideal S128x512 .f32) (r : Fin 1024) (q : Fin 512) :
    shapeCast S1024x512 (concatenate S128x8x512 1
      [⟨S128x1x512, shapeCast S128x1x512 (g 0) shapeCasts_S128x512_S128x1x512⟩, ⟨S128x1x512, shapeCast S128x1x512 (g 1) shapeCasts_S128x512_S128x1x512⟩,
       ⟨S128x1x512, shapeCast S128x1x512 (g 2) shapeCasts_S128x512_S128x1x512⟩, ⟨S128x1x512, shapeCast S128x1x512 (g 3) shapeCasts_S128x512_S128x1x512⟩,
       ⟨S128x1x512, shapeCast S128x1x512 (g 4) shapeCasts_S128x512_S128x1x512⟩, ⟨S128x1x512, shapeCast S128x1x512 (g 5) shapeCasts_S128x512_S128x1x512⟩,
       ⟨S128x1x512, shapeCast S128x1x512 (g 6) shapeCasts_S128x512_S128x1x512⟩, ⟨S128x1x512, shapeCast S128x1x512 (g 7) shapeCasts_S128x512_S128x1x512⟩]
      concatenates_S128x1x512_S128x1x512_S128x1x512_S128x1x512_S128x1x512_S128x1x512_S128x1x512_S128x1x512_S128x8x512_d1)
      shapeCasts_S128x8x512_S1024x512 (ix2 r q)
      = g ⟨r.val % 8, Nat.mod_lt _ (by decide)⟩ (ix2 ⟨r.val / 8, by have := r.isLt; omega⟩ q) := by
  have hr8 : r.val / 8 < 128 := by have := r.isLt; omega
  have hm8 : r.val % 8 < 8 := Nat.mod_lt _ (by decide)
  refine (shapeCast_apply _ shapeCasts_S128x8x512_S1024x512 (ix2 r q) (ix3 ⟨r.val / 8, hr8⟩ ⟨r.val % 8, hm8⟩ q) ?_).trans ?_
  · rw [Shape.rowMajor_val_three, Shape.rowMajor_val_two]
    show (r.val / 8 * 8 + r.val % 8) * 512 + q.val = r.val * 512 + q.val
    omega
  refine (concatenate_ofFn_unit_apply (t := S128x8x512) (s₁ := S128x1x512) 1
    (fun n : Fin 8 => shapeCast S128x1x512 (g n) shapeCasts_S128x512_S128x1x512)
    concatenates_S128x1x512_S128x1x512_S128x1x512_S128x1x512_S128x1x512_S128x1x512_S128x1x512_S128x1x512_S128x8x512_d1
    rfl rfl (ix3 ⟨r.val / 8, hr8⟩ ⟨r.val % 8, hm8⟩ q) ⟨r.val % 8, hm8⟩ rfl (ix3 ⟨r.val / 8, hr8⟩ (0 : Fin 1) q) (fun b hb => by
      match b with
      | ⟨0, _⟩ => rfl
      | ⟨1, _⟩ => exact absurd rfl hb
      | ⟨2, _⟩ => rfl)).trans ?_
  refine shapeCast_apply _ shapeCasts_S128x512_S128x1x512 (ix3 ⟨r.val / 8, hr8⟩ (0 : Fin 1) q) (ix2 ⟨r.val / 8, hr8⟩ q) ?_
  rw [Shape.rowMajor_val_three, Shape.rowMajor_val_two]
  show r.val / 8 * 512 + q.val = (r.val / 8 * 1 + 0) * 512 + q.val
  omega

/-- The [8,512] scales broadcast over 128 rows per group and merged to [1024,512]: row `r` is scales row `r / 128`. -/
theorem scales_apply (v54 : FVec Ideal S8x512 .f32) (r : Fin 1024) (q : Fin 512) :
    shapeCast S1024x512 (broadcastTo S8x128x512 (shapeCast S8x1x512 v54 shapeCasts_S8x512_S8x1x512)
      broadcasts_S8x1x512_S8x128x512) shapeCasts_S8x128x512_S1024x512 (ix2 r q)
      = v54 (ix2 ⟨r.val / 128, by have := r.isLt; omega⟩ q) := by
  have hg : r.val / 128 < 8 := by have := r.isLt; omega
  have hl : r.val % 128 < 128 := Nat.mod_lt _ (by decide)
  refine (shapeCast_apply _ shapeCasts_S8x128x512_S1024x512 (ix2 r q) (ix3 ⟨r.val / 128, hg⟩ ⟨r.val % 128, hl⟩ q) ?_).trans ?_
  · rw [Shape.rowMajor_val_three, Shape.rowMajor_val_two]
    show (r.val / 128 * 128 + r.val % 128) * 512 + q.val = r.val * 512 + q.val
    omega
  refine (broadcastTo_apply _ broadcasts_S8x1x512_S8x128x512 (ix3 ⟨r.val / 128, hg⟩ ⟨r.val % 128, hl⟩ q) (ix3 ⟨r.val / 128, hg⟩ (0 : Fin 1) q) (fun a => by
    match a with
    | ⟨0, _⟩ => rfl
    | ⟨1, _⟩ => rfl
    | ⟨2, _⟩ => rfl)).trans ?_
  refine shapeCast_apply _ shapeCasts_S8x512_S8x1x512 (ix3 ⟨r.val / 128, hg⟩ (0 : Fin 1) q) (ix2 ⟨r.val / 128, hg⟩ q) ?_
  rw [Shape.rowMajor_val_three, Shape.rowMajor_val_two]
  show r.val / 128 * 512 + q.val = (r.val / 128 * 1 + 0) * 512 + q.val
  omega

theorem lhs_big_0 (i : S2048x512.Idx) (q : dot_S2048x1024_S1024x512_S2048x512_1_0_0_1_n_n.contr.Idx) :
    (dot_S2048x1024_S1024x512_S2048x512_1_0_0_1_n_n.lhsIdx i q 0).val = (i 0).val := by
  unfold DotDims.lhsIdx
  rw [dif_neg (show ¬(0 : Fin S2048x1024.rank) ∈ dot_S2048x1024_S1024x512_S2048x512_1_0_0_1_n_n.lhsBatch by decide), dif_pos (show (0 : Fin S2048x1024.rank) ∈ dot_S2048x1024_S1024x512_S2048x512_1_0_0_1_n_n.lhsNonContracting by decide)]
  rfl
theorem lhs_big_1 (i : S2048x512.Idx) (q : dot_S2048x1024_S1024x512_S2048x512_1_0_0_1_n_n.contr.Idx) :
    (dot_S2048x1024_S1024x512_S2048x512_1_0_0_1_n_n.lhsIdx i q 1).val = (q ⟨0, by decide⟩).val :=
  dot_S2048x1024_S1024x512_S2048x512_1_0_0_1_n_n.lhsIdx_val_of_single rfl i q
theorem rhs_big_0 (i : S2048x512.Idx) (q : dot_S2048x1024_S1024x512_S2048x512_1_0_0_1_n_n.contr.Idx) :
    (dot_S2048x1024_S1024x512_S2048x512_1_0_0_1_n_n.rhsIdx i q 0).val = (q ⟨0, by decide⟩).val :=
  dot_S2048x1024_S1024x512_S2048x512_1_0_0_1_n_n.rhsIdx_val_of_single rfl i q
theorem rhs_big_1 (i : S2048x512.Idx) (q : dot_S2048x1024_S1024x512_S2048x512_1_0_0_1_n_n.contr.Idx) :
    (dot_S2048x1024_S1024x512_S2048x512_1_0_0_1_n_n.rhsIdx i q 1).val = (i 1).val := by
  unfold DotDims.rhsIdx
  rw [dif_neg (show ¬(1 : Fin S1024x512.rank) ∈ dot_S2048x1024_S1024x512_S2048x512_1_0_0_1_n_n.rhsBatch by decide), dif_pos (show (1 : Fin S1024x512.rank) ∈ dot_S2048x1024_S1024x512_S2048x512_1_0_0_1_n_n.rhsNonContracting by decide)]
  rfl

/-- The [2048,1024]x[1024,512] product into the zero accumulator at (p, q): the sum over the 1024 unpacked rows. -/
theorem matmul_big_apply (a : FVec Ideal S2048x1024 .bf16) (b : FVec Ideal S1024x512 .bf16) (p : Fin 2048) (q : Fin 512) :
    matmul dot_S2048x1024_S1024x512_S2048x512_1_0_0_1_n_n none a b (constant (F := Ideal) S2048x512 .f32 0x00000000#32) (ix2 p q)
      = ∑ r : Fin 1024, a (ix2 p r) * b (ix2 r q) := by
  simp only [matmul]
  rw [Ideal.matmul_constant_zero_apply, ← Equiv.sum_comp (ValueIdx.contrEquiv1 dot_S2048x1024_S1024x512_S2048x512_1_0_0_1_n_n 1024 rfl rfl).symm]
  refine Finset.sum_congr rfl fun k _ => ?_
  have hk := ValueIdx.contrEquiv1_symm_val dot_S2048x1024_S1024x512_S2048x512_1_0_0_1_n_n 1024 rfl rfl k
  have el : dot_S2048x1024_S1024x512_S2048x512_1_0_0_1_n_n.lhsIdx (ix2 p q) ((ValueIdx.contrEquiv1 dot_S2048x1024_S1024x512_S2048x512_1_0_0_1_n_n 1024 rfl rfl).symm k) = ix2 p k := funext fun a => Fin.ext (by
    match a with
    | ⟨0, _⟩ => exact lhs_big_0 _ _
    | ⟨1, _⟩ => exact (lhs_big_1 _ _).trans hk)
  have er : dot_S2048x1024_S1024x512_S2048x512_1_0_0_1_n_n.rhsIdx (ix2 p q) ((ValueIdx.contrEquiv1 dot_S2048x1024_S1024x512_S2048x512_1_0_0_1_n_n 1024 rfl rfl).symm k) = ix2 k q := funext fun a => Fin.ext (by
    match a with
    | ⟨0, _⟩ => exact (rhs_big_0 _ _).trans hk
    | ⟨1, _⟩ => exact rhs_big_1 _ _)
  rw [el, er]

/-! ## The accumulator update at an index -/

/-- The accumulator update at (p, q): the accumulator plus the sum, over the 1024 unpacked rows `r`, of the activation
    times field `r % 8` of packed row `r / 8` times scales row `r / 128`. -/
theorem pay1_apply (v3 : Vec Ideal S128x512 .i32) (v54 : Vec Ideal S8x512 .f32) (v61 : Vec Ideal S2048x512 .f32) (v62 : Vec Ideal S2048x1024 .bf16)
    (p : Fin 2048) (q : Fin 512) :
    k0_pay1 (F := Ideal) v3 (k0_pay4 v3) (k0_pay5 v3) (k0_pay6 v3) (k0_pay7 v3) (k0_pay8 v3) (k0_pay9 v3) (k0_pay10 v3) v54 v61 v62 (ix2 p q)
      = v61 (ix2 p q) + ∑ r : Fin 1024, v62 (ix2 p r) *
          (nibble (v3 (ix2 ⟨r.val / 8, by have := r.isLt; omega⟩ q)) ⟨r.val % 8, Nat.mod_lt _ (by decide)⟩
            * v54 (ix2 ⟨r.val / 128, by have := r.isLt; omega⟩ q)) := by
  unfold k0_pay1
  simp only [shapeCast_self]
  rw [addf_apply, matmul_big_apply]
  refine congrArg (v61 (ix2 p q) + ·) (Finset.sum_congr rfl fun r _ => ?_)
  rw [truncf_apply, mulf_apply, scales_apply, pay4_eq, pay5_eq, pay6_eq, pay7_eq, pay8_eq, pay9_eq, pay10_eq, top_eq]
  rw [unpack_apply (fieldBlock v3) r q]
  rfl

end Cert.KernelIdeal.Val

end
-- ==== Proof.KI.Tile.lean ====
/-
  The output tile at an index, over the extended reals. One depth tile adds to the accumulator, at row `p` and
  column `q` of the tile, the sum over the tile's 1024 input channels `r` of the activation times the unpacked weight
  (field `r mod 8` of packed row `r / 8`) times the scale of the channel's group (`r / 128`). The fold of four such
  updates from zeros is zero plus the four sums; the stored output tile is that, less the sum over the 32 groups of
  the group's activation sum times its scaled zero point, plus the bias.
-/
import proofs.«419219_j18975165514260_3_alg».proof.Proof.KI.Fold
import proofs.«419219_j18975165514260_3_alg».proof.Proof.KI.PayIdeal

set_option maxRecDepth 16384

noncomputable section

namespace Cert.KernelIdeal.Val

open Cert.KernelIdeal Cert.KernelIdeal.Gen Cert.KernelIdeal.Fr Cert.QSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- One depth tile's product at row `p`, column `q`. -/
def tileProd (x0 : Vec Ideal S2048x1024 .bf16) (x1 : Vec Ideal S128x512 .i32) (x2 : Vec Ideal S8x512 .f32) (p : Fin 2048) (q : Fin 512) : EReal :=
  ∑ r : Fin 1024, x0 (ix2 p r) *
    (nibble (x1 (ix2 ⟨r.val / 8, by have := r.isLt; omega⟩ q)) ⟨r.val % 8, Nat.mod_lt _ (by decide)⟩
      * x2 (ix2 ⟨r.val / 128, by have := r.isLt; omega⟩ q))

/-- The accumulator's update adds the tile's product. -/
theorem stepAcc_apply (x0 : Vec Ideal S2048x1024 .bf16) (x1 : Vec Ideal S128x512 .i32) (x2 : Vec Ideal S8x512 .f32)
    (acc : Vec Ideal S2048x512 .f32) (p : Fin 2048) (q : Fin 512) :
    stepAcc (F := Ideal) x0 x1 x2 acc (ix2 p q) = acc (ix2 p q) + tileProd x0 x1 x2 p q :=
  pay1_apply x1 x2 acc x0 p q

/-- What grid point `n` adds at an index of the tile (nothing past the grid). -/
def contrib (c : Dev nD) (n : ℕ) (i : S2048x512.Idx) : EReal :=
  if h : n < cfg0.N then tileProd (xblk m c ⟨n, h⟩) (qblk m c ⟨n, h⟩) (sblk m c ⟨n, h⟩) (i 0) (i 1) else 0

theorem contrib_pos (c : Dev nD) (n : ℕ) (h : n < cfg0.N) (p : Fin 2048) (q : Fin 512) :
    contrib m c n (ix2 p q) = tileProd (xblk m c ⟨n, h⟩) (qblk m c ⟨n, h⟩) (sblk m c ⟨n, h⟩) p q := by
  unfold contrib; rw [dif_pos h]

/-- The accumulator after point `n`: zero plus what the points since the last multiple of 4 added. -/
theorem acc_fold_apply (c : Dev nD) (n : ℕ) (h : n < cfg0.N) (i : S2048x512.Idx) :
    accAfter m c n h i = 0 + ∑ s ∈ Finset.range (n % 4 + 1), contrib m c (4 * (n / 4) + s) i := by
  have h' : 4 * (n / 4) + n % 4 < cfg0.N := by rw [Nat.div_add_mod]; exact h
  rw [accAfter_fold m c n h h']
  refine Pipeline.accAt_add_apply _ _ (fun _ => (0 : EReal)) (fun b j => contrib m c b j) (4 * (n / 4)) 3 ?_ ?_ (n % 4) (by omega) h' i
  · intro hb j
    obtain ⟨p, q, rfl⟩ : ∃ p q, j = ix2 p q := ⟨j 0, j 1, eq_ix2 j⟩
    show stepAt m c _ hb (k0_pay3 (F := Ideal)) (ix2 p q) = 0 + contrib m c _ (ix2 p q)
    unfold stepAt
    rw [stepAcc_apply, pay3_apply, contrib_pos m c _ hb]
  · intro b hb acc j _ _
    obtain ⟨p, q, rfl⟩ : ∃ p q, j = ix2 p q := ⟨j 0, j 1, eq_ix2 j⟩
    show stepAt m c b hb acc (ix2 p q) = acc (ix2 p q) + contrib m c b (ix2 p q)
    unfold stepAt
    rw [stepAcc_apply, contrib_pos m c b hb]

/-- The output tile stored at a last depth tile, at an index. -/
theorem tile_apply (c : Dev nD) (t : Fin cfg0.N) (h1 : t.val % 4 = 3) (p : Fin 2048) (q : Fin 512) :
    outAfter m c t (ix2 p q)
      = (0 + ∑ s ∈ Finset.range 4, contrib m c (4 * (t.val / 4) + s) (ix2 p q))
          - (∑ g : Fin 32, gblk m c t (ix2 p g) * zblk m c t (ix2 g q)) + bblk m c t (ix2 0 q) := by
  rw [outAfter_last m c t h1, pay2_apply, acc_fold_apply, h1]

end Cert.KernelIdeal.Val

end
-- ==== Proof.KI.Blocks.lean ====
/-
  Where each window's block sits in its array.  The grid is (row tile, column tile, depth tile) = (4, 24, 4) with
  the depth tile moving fastest, so point t has row tile t / 96, column tile (t / 4) % 24 and depth tile t % 4.
  The activations' block is rows 2048 * (row tile) … and columns 1024 * (depth tile) … of the activations; the
  packed weights' and the scales' blocks are at (depth tile, column tile); the group sums' block is at the row
  tile, the scaled zero points' and the bias's at the column tile; the output's block is at (row tile, column
  tile), and the points with depth tile 3 write it back, so that the written blocks cover the whole output.
-/
import proofs.«419219_j18975165514260_3_alg».proof.Proof.KI.Kit
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat)

variable {F : FTy → Type} [FloatOps F]
variable (m : (ℓ : Loc nD τ sig) → Buf (Elt F) ℓ)

/-! ## A grid point's tiles -/

/-- The row tile of point `t`. -/
def rt (t : Fin cfg0.N) : ℕ := t.val / 96
/-- The column tile of point `t`. -/
def ct (t : Fin cfg0.N) : ℕ := (t.val / 4) % 24
/-- The depth tile of point `t`. -/
def dt (t : Fin cfg0.N) : ℕ := t.val % 4

/-- The grid has 4 * 24 * 4 points. -/
theorem val_lt (t : Fin cfg0.N) : t.val < 384 := Nat.lt_of_lt_of_eq t.isLt N_0

theorem rt_lt (t : Fin cfg0.N) : rt t < 4 := by have := val_lt t; unfold rt; omega
theorem ct_lt (t : Fin cfg0.N) : ct t < 24 := by unfold ct; omega
theorem dt_lt (t : Fin cfg0.N) : dt t < 4 := by unfold dt; omega

/-! ## The index maps over the grid -/

/-- The activations' window moves with (row tile, depth tile). -/
theorem idx_x : ∀ t : Fin cfg0.N, win0_0.index t (0 : Fin 2) = t.val / 96 ∧ win0_0.index t (1 : Fin 2) = t.val % 4 :=
  (by decide +kernel : ∀ t : Fin grid0.N, _)

/-- The packed weights' window moves with (depth tile, column tile). -/
theorem idx_q : ∀ t : Fin cfg0.N, win0_1.index t (0 : Fin 2) = t.val % 4 ∧ win0_1.index t (1 : Fin 2) = (t.val / 4) % 24 :=
  (by decide +kernel : ∀ t : Fin grid0.N, _)

/-- The scales' window moves with (depth tile, column tile). -/
theorem idx_s : ∀ t : Fin cfg0.N, win0_2.index t (0 : Fin 2) = t.val % 4 ∧ win0_2.index t (1 : Fin 2) = (t.val / 4) % 24 :=
  (by decide +kernel : ∀ t : Fin grid0.N, _)

/-- The group sums' window moves with the row tile. -/
theorem idx_g : ∀ t : Fin cfg0.N, win0_3.index t (0 : Fin 2) = t.val / 96 ∧ win0_3.index t (1 : Fin 2) = 0 :=
  (by decide +kernel : ∀ t : Fin grid0.N, _)

/-- The scaled zero points' window moves with the column tile. -/
theorem idx_z : ∀ t : Fin cfg0.N, win0_4.index t (0 : Fin 2) = 0 ∧ win0_4.index t (1 : Fin 2) = (t.val / 4) % 24 :=
  (by decide +kernel : ∀ t : Fin grid0.N, _)

/-- The bias's window moves with the column tile. -/
theorem idx_b : ∀ t : Fin cfg0.N, win0_5.index t (0 : Fin 2) = 0 ∧ win0_5.index t (1 : Fin 2) = (t.val / 4) % 24 :=
  (by decide +kernel : ∀ t : Fin grid0.N, _)

/-- The output's window moves with (row tile, column tile). -/
theorem idx_o : ∀ t : Fin cfg0.N, win0_6.index t (0 : Fin 2) = t.val / 96 ∧ win0_6.index t (1 : Fin 2) = (t.val / 4) % 24 :=
  (by decide +kernel : ∀ t : Fin grid0.N, _)

/-! ## The blocks read off the arrays -/

/-- The activations' block: rows from 2048 * (row tile), columns from 1024 * (depth tile), of any contents `A` of the array. -/
theorem xblk_read (c : Dev nD) (t : Fin cfg0.N) (A : Buf (Elt F) ((cfg0.win 0).arr.view.loc (c.tc : Thread nD τ))) (p : Fin 2048) (r : Fin 1024) :
    (((cfg0.win 0).blk t).view.read (Elt F) A : Vec F S2048x1024 .bf16) (ix2 p r)
      = (A : S8192x4096.Idx → Elt F .bf16) (ix2 ⟨2048 * rt t + p.val, by have := rt_lt t; omega⟩ ⟨1024 * dt t + r.val, by have := dt_lt t; omega⟩) := by
  obtain ⟨e0, e1⟩ := idx_x t
  rw [View.read_apply]
  show (A : S8192x4096.Idx → Elt F .bf16) _ = (A : S8192x4096.Idx → Elt F .bf16) _
  congr 1
  funext a
  apply Fin.ext
  match a with
  | ⟨0, _⟩ => show win0_0.index t 0 * 2048 + 1 * p.val = 2048 * rt t + p.val; rw [e0]; unfold rt; omega
  | ⟨1, _⟩ => show win0_0.index t 1 * 1024 + 1 * r.val = 1024 * dt t + r.val; rw [e1]; unfold dt; omega

/-- The activations' block: rows from 2048 * (row tile), columns from 1024 * (depth tile), of the array as the region finds it. -/
theorem xblk_apply (c : Dev nD) (t : Fin cfg0.N) (p : Fin 2048) (r : Fin 1024) :
    (iblk m c 0 t : Vec F S2048x1024 .bf16) (ix2 p r)
      = (V m c main_v49 : S8192x4096.Idx → Elt F .bf16) (ix2 ⟨2048 * rt t + p.val, by have := rt_lt t; omega⟩ ⟨1024 * dt t + r.val, by have := dt_lt t; omega⟩) :=
  xblk_read c t (V m c main_v49) p r

/-- The packed weights' block: rows from 128 * (depth tile), columns from 512 * (column tile), of any contents `A` of the array. -/
theorem qblk_read (c : Dev nD) (t : Fin cfg0.N) (A : Buf (Elt F) ((cfg0.win 1).arr.view.loc (c.tc : Thread nD τ))) (p : Fin 128) (q : Fin 512) :
    (((cfg0.win 1).blk t).view.read (Elt F) A : Vec F S128x512 .i32) (ix2 p q)
      = (A : S512x12288.Idx → Elt F .i32) (ix2 ⟨128 * dt t + p.val, by have := dt_lt t; omega⟩ ⟨512 * ct t + q.val, by have := ct_lt t; omega⟩) := by
  obtain ⟨e0, e1⟩ := idx_q t
  rw [View.read_apply]
  show (A : S512x12288.Idx → Elt F .i32) _ = (A : S512x12288.Idx → Elt F .i32) _
  congr 1
  funext a
  apply Fin.ext
  match a with
  | ⟨0, _⟩ => show win0_1.index t 0 * 128 + 1 * p.val = 128 * dt t + p.val; rw [e0]; unfold dt; omega
  | ⟨1, _⟩ => show win0_1.index t 1 * 512 + 1 * q.val = 512 * ct t + q.val; rw [e1]; unfold ct; omega

/-- The packed weights' block: rows from 128 * (depth tile), columns from 512 * (column tile), of the array as the region finds it. -/
theorem qblk_apply (c : Dev nD) (t : Fin cfg0.N) (p : Fin 128) (q : Fin 512) :
    (iblk m c 1 t : Vec F S128x512 .i32) (ix2 p q)
      = (V m c main_arg3 : S512x12288.Idx → Elt F .i32) (ix2 ⟨128 * dt t + p.val, by have := dt_lt t; omega⟩ ⟨512 * ct t + q.val, by have := ct_lt t; omega⟩) :=
  qblk_read c t (V m c main_arg3) p q

/-- The scales' block: groups from 8 * (depth tile), columns from 512 * (column tile), of any contents `A` of the array. -/
theorem sblk_read (c : Dev nD) (t : Fin cfg0.N) (A : Buf (Elt F) ((cfg0.win 2).arr.view.loc (c.tc : Thread nD τ))) (g : Fin 8) (q : Fin 512) :
    (((cfg0.win 2).blk t).view.read (Elt F) A : Vec F S8x512 .f32) (ix2 g q)
      = (A : S32x12288.Idx → Elt F .f32) (ix2 ⟨8 * dt t + g.val, by have := dt_lt t; omega⟩ ⟨512 * ct t + q.val, by have := ct_lt t; omega⟩) := by
  obtain ⟨e0, e1⟩ := idx_s t
  rw [View.read_apply]
  show (A : S32x12288.Idx → Elt F .f32) _ = (A : S32x12288.Idx → Elt F .f32) _
  congr 1
  funext a
  apply Fin.ext
  match a with
  | ⟨0, _⟩ => show win0_2.index t 0 * 8 + 1 * g.val = 8 * dt t + g.val; rw [e0]; unfold dt; omega
  | ⟨1, _⟩ => show win0_2.index t 1 * 512 + 1 * q.val = 512 * ct t + q.val; rw [e1]; unfold ct; omega

/-- The scales' block: groups from 8 * (depth tile), columns from 512 * (column tile), of the array as the region finds it. -/
theorem sblk_apply (c : Dev nD) (t : Fin cfg0.N) (g : Fin 8) (q : Fin 512) :
    (iblk m c 2 t : Vec F S8x512 .f32) (ix2 g q)
      = (V m c main_arg1 : S32x12288.Idx → Elt F .f32) (ix2 ⟨8 * dt t + g.val, by have := dt_lt t; omega⟩ ⟨512 * ct t + q.val, by have := ct_lt t; omega⟩) :=
  sblk_read c t (V m c main_arg1) g q

/-- The group sums' block: rows from 2048 * (row tile), every group, of any contents `A` of the array. -/
theorem gblk_read (c : Dev nD) (t : Fin cfg0.N) (A : Buf (Elt F) ((cfg0.win 3).arr.view.loc (c.tc : Thread nD τ))) (p : Fin 2048) (g : Fin 32) :
    (((cfg0.win 3).blk t).view.read (Elt F) A : Vec F S2048x32 .f32) (ix2 p g)
      = (A : S8192x32.Idx → Elt F .f32) (ix2 ⟨2048 * rt t + p.val, by have := rt_lt t; omega⟩ g) := by
  obtain ⟨e0, e1⟩ := idx_g t
  rw [View.read_apply]
  show (A : S8192x32.Idx → Elt F .f32) _ = (A : S8192x32.Idx → Elt F .f32) _
  congr 1
  funext a
  apply Fin.ext
  match a with
  | ⟨0, _⟩ => show win0_3.index t 0 * 2048 + 1 * p.val = 2048 * rt t + p.val; rw [e0]; unfold rt; omega
  | ⟨1, _⟩ => show win0_3.index t 1 * 32 + 1 * g.val = g.val; rw [e1]; omega

/-- The group sums' block: rows from 2048 * (row tile), every group, of the array as the region finds it. -/
theorem gblk_apply (c : Dev nD) (t : Fin cfg0.N) (p : Fin 2048) (g : Fin 32) :
    (iblk m c 3 t : Vec F S2048x32 .f32) (ix2 p g)
      = (V m c main_v47 : S8192x32.Idx → Elt F .f32) (ix2 ⟨2048 * rt t + p.val, by have := rt_lt t; omega⟩ g) :=
  gblk_read c t (V m c main_v47) p g

/-- The scaled zero points' block: every group, columns from 512 * (column tile), of any contents `A` of the array. -/
theorem zblk_read (c : Dev nD) (t : Fin cfg0.N) (A : Buf (Elt F) ((cfg0.win 4).arr.view.loc (c.tc : Thread nD τ))) (g : Fin 32) (q : Fin 512) :
    (((cfg0.win 4).blk t).view.read (Elt F) A : Vec F S32x512 .f32) (ix2 g q)
      = (A : S32x12288.Idx → Elt F .f32) (ix2 g ⟨512 * ct t + q.val, by have := ct_lt t; omega⟩) := by
  obtain ⟨e0, e1⟩ := idx_z t
  rw [View.read_apply]
  show (A : S32x12288.Idx → Elt F .f32) _ = (A : S32x12288.Idx → Elt F .f32) _
  congr 1
  funext a
  apply Fin.ext
  match a with
  | ⟨0, _⟩ => show win0_4.index t 0 * 32 + 1 * g.val = g.val; rw [e0]; omega
  | ⟨1, _⟩ => show win0_4.index t 1 * 512 + 1 * q.val = 512 * ct t + q.val; rw [e1]; unfold ct; omega

/-- The scaled zero points' block: every group, columns from 512 * (column tile), of the array as the region finds it. -/
theorem zblk_apply (c : Dev nD) (t : Fin cfg0.N) (g : Fin 32) (q : Fin 512) :
    (iblk m c 4 t : Vec F S32x512 .f32) (ix2 g q)
      = (V m c main_v45 : S32x12288.Idx → Elt F .f32) (ix2 g ⟨512 * ct t + q.val, by have := ct_lt t; omega⟩) :=
  zblk_read c t (V m c main_v45) g q

/-- The bias's block: its one row, columns from 512 * (column tile), of any contents `A` of the array. -/
theorem bblk_read (c : Dev nD) (t : Fin cfg0.N) (A : Buf (Elt F) ((cfg0.win 5).arr.view.loc (c.tc : Thread nD τ))) (q : Fin 512) :
    (((cfg0.win 5).blk t).view.read (Elt F) A : Vec F S1x512 .f32) (ix2 0 q)
      = (A : S1x12288.Idx → Elt F .f32) (ix2 0 ⟨512 * ct t + q.val, by have := ct_lt t; omega⟩) := by
  obtain ⟨e0, e1⟩ := idx_b t
  rw [View.read_apply]
  show (A : S1x12288.Idx → Elt F .f32) _ = (A : S1x12288.Idx → Elt F .f32) _
  congr 1
  funext a
  apply Fin.ext
  match a with
  | ⟨0, _⟩ => show win0_5.index t 0 * 1 + 1 * 0 = 0; rw [e0]
  | ⟨1, _⟩ => show win0_5.index t 1 * 512 + 1 * q.val = 512 * ct t + q.val; rw [e1]; unfold ct; omega

/-- The bias's block: its one row, columns from 512 * (column tile), of the array as the region finds it. -/
theorem bblk_apply (c : Dev nD) (t : Fin cfg0.N) (q : Fin 512) :
    (iblk m c 5 t : Vec F S1x512 .f32) (ix2 0 q)
      = (V m c main_v48 : S1x12288.Idx → Elt F .f32) (ix2 0 ⟨512 * ct t + q.val, by have := ct_lt t; omega⟩) :=
  bblk_read c t (V m c main_v48) q

/-! ## The output's blocks -/

/-- The output's block of any contents `G` of the output array: rows from 2048 * (row tile), columns from
    512 * (column tile). -/
theorem oblk_read (c : Dev nD) (t : Fin cfg0.N) (G : Buf (Elt F) ((cfg0.win 6).arr.view.loc (c.tc : Thread nD τ)))
    (p : Fin 2048) (q : Fin 512) :
    (((cfg0.win 6).blk t).view.read (Elt F) G : Vec F S2048x512 .f32) (ix2 p q)
      = (G : S8192x12288.Idx → Elt F .f32)
          (ix2 ⟨2048 * rt t + p.val, by have := rt_lt t; omega⟩ ⟨512 * ct t + q.val, by have := ct_lt t; omega⟩) := by
  obtain ⟨e0, e1⟩ := idx_o t
  rw [View.read_apply]
  show (G : S8192x12288.Idx → Elt F .f32) _ = (G : S8192x12288.Idx → Elt F .f32) _
  congr 1
  funext a
  apply Fin.ext
  match a with
  | ⟨0, _⟩ => show win0_6.index t 0 * 2048 + 1 * p.val = 2048 * rt t + p.val; rw [e0]; unfold rt; omega
  | ⟨1, _⟩ => show win0_6.index t 1 * 512 + 1 * q.val = 512 * ct t + q.val; rw [e1]; unfold ct; omega

/-- An index of the output is in point `t`'s block iff each coordinate is in the block's range on its axis. -/
theorem mem_oblk (t : Fin cfg0.N) (i : S8192x12288.Idx) :
    i ∈ ((cfg0.win 6).blk t).view.set ↔ ∀ a : Fin 2, win0_6.index t a * S2048x512.size a ≤ (i a).val
      ∧ (i a).val < win0_6.index t a * S2048x512.size a + S2048x512.size a := by
  show i ∈ ((View.whole main_v50).slice (win0_6.rect t)).set ↔ _
  rw [View.set_slice_whole, Rect.mem_set_unit]
  exact Iff.rfl

/-- Every index of the output is in the block of a point that writes back: entry (row, col) in that of the
    point with row tile row / 2048, column tile col / 512 and depth tile 3. -/
theorem out_cover (i : S8192x12288.Idx) :
    ∃ t : Fin cfg0.N, (cfg0.win 6).flush t = true ∧ i ∈ ((cfg0.win 6).blk t).view.set := by
  have hi0 : (i 0).val < 8192 := (i 0).isLt
  have hi1 : (i 1).val < 12288 := (i 1).isLt
  obtain ⟨t, ht⟩ : ∃ t : Fin cfg0.N, t.val = 4 * (24 * ((i 0).val / 2048) + (i 1).val / 512) + 3 :=
    ⟨⟨4 * (24 * ((i 0).val / 2048) + (i 1).val / 512) + 3, Nat.lt_of_lt_of_eq (by omega) N_0.symm⟩, rfl⟩
  obtain ⟨e0, e1⟩ := idx_o t
  refine ⟨t, (flush0_6 t).mpr (by omega), ?_⟩
  rw [mem_oblk]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 512 ≤ (i 1).val ∧ (i 1).val < win0_6.index t (1 : Fin 2) * 512 + 512; omega

/-- So when every point that writes back writes its block of `G`, the output array ends holding `G`. -/
theorem out_final {c : Dev nD} (dat : Dat τ (Elt F) Unit ℕ (UR sig nD τ) ℕ cfg0 c)
    (G : Buf (Elt F) ((cfg0.win 6).arr.view.loc (c.tc : Thread nD τ)))
    (hG : ∀ t, (cfg0.win 6).flush t = true → dat.flushed 6 t = ((cfg0.win 6).blk t).view.read (Elt F) G) :
    dat.arrAt 6 cfg0.N = G :=
  dat.arrAt_eq_of_cover 6 G hG out_cover

end Cert.KernelIdeal.Val

end
-- ==== Proof.KI.HostVals.lean ====
/-
  What the host operations before the region leave in the four arrays the region's windows stage: the activations
  unchanged, the bias as a one-row matrix, the sum of each row's activations over each group of 128 channels, and
  the table of zero points: field `n mod 8` of packed word `n / 8` of group `g`, plus one, as a real, times the scale.
  Each array is first written as the operations' term over the launched arrays, then read at an index.
-/
import proofs.«419219_j18975165514260_3_alg».proof.Proof.KI.Kit
import proofs.«419219_j18975165514260_3_alg».proof.Proof.Spec
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

namespace Cert.KernelIdeal.Val

open Cert.KernelIdeal Cert.KernelIdeal.Gen Cert.KernelIdeal.Fr Cert.QSpec
open Idealize.ShloMosaic Idealize.ShloMosaic.TcCoe Idealize.ShloMosaic.ValueIdx
open scoped BigOperators

variable (m : (ℓ : Loc nD τ sig) → Buf (Elt Ideal) ℓ) (c : Dev nD)

/-- The five launched arrays the host operations read, and the four arrays they leave for the region, at their literal types. -/
abbrev aX : S8192x4096.Idx → EReal := m ((c : Thread nD τ).loc main_arg0)
abbrev aS : S32x12288.Idx → EReal := m ((c : Thread nD τ).loc main_arg1)
abbrev aB : S12288.Idx → EReal := m ((c : Thread nD τ).loc main_arg2)
abbrev aZ : S32x1536.Idx → BitVec 32 := m ((c : Thread nD τ).loc main_arg4)
abbrev vZpxs : S32x12288.Idx → EReal := V m c main_v45
abbrev vXg : S8192x32.Idx → EReal := V m c main_v47
abbrev vBias : S1x12288.Idx → EReal := V m c main_v48
abbrev vXbf : S8192x4096.Idx → EReal := V m c main_v49

/-- A zero point as the program reads it: field `e` of the packed word, plus one (in 32-bit arithmetic), as an extended real. -/
def zpVal (w : BitVec 32) (e : Fin 8) : EReal := (((IntOp.addi (Cert.QSpec.field w e) 1#32).toInt : ℝ) : EReal)

/-! ## The activations, the bias and the group sums -/

theorem xbf_term : vXbf m c = (truncf .bf16 (aX m c : FVec Ideal S8192x4096 .f32) bitsLt_bf16_f32 : FVec Ideal S8192x4096 .bf16) := by
  dsimp only [vXbf, aX, V, hostOps0]; after_results

theorem bias_term : vBias m c = shapeCast S1x12288 (aB m c) shapeCasts_S12288_S1x12288 := by
  dsimp only [vBias, aB, V, hostOps0]; after_results; rfl

theorem xg_term : vXg m c
    = Host.reduceAdd (F := Ideal) (shapeCast S8192x32x128 (aX m c) shapeCasts_S8192x4096_S8192x32x128 : FVec Ideal S8192x32x128 .f32)
        (constant (F := Ideal) S_ .f32 0x00000000#32) reducesTo_S8192x32x128_S8192x32_d2 h_S_ := by
  dsimp only [vXg, aX, V, hostOps0]; after_results; rfl

/-- The activations reach the region unchanged (the narrowing of the format is the identity on extended reals). -/
theorem xbf_apply (i : Fin 8192) (k : Fin 4096) : vXbf m c (ix2 i k) = aX m c (ix2 i k) := by
  rw [xbf_term]; rfl

/-- The bias as a one-row matrix reads the bias. -/
theorem bias_apply (n : Fin 12288) : vBias m c (ix2 0 n) = aB m c (ix1 n) := by
  rw [bias_term]
  refine shapeCast_apply (s := S12288) (t := S1x12288) _ _ _ _ ?_
  rw [Shape.rowMajor_val_one, Shape.rowMajor_val_two]
  show n.val = 0 * 12288 + n.val
  omega

/-- The group sums of the activations: group `g` of row `i` is the sum of its 128 channels (from the initial value zero). -/
theorem xg_apply (i : Fin 8192) (g : Fin 32) :
    vXg m c (ix2 i g) = 0 + ∑ q : Fin 128, aX m c (ix2 i ⟨128 * g.val + q.val, by omega⟩) := by
  rw [xg_term, hostReduceAdd_apply]
  have h : S8192x32x128.Reduces [2] S8192x32 := by decide
  rw [Ideal.hostReduceAdd_single reducesTo_S8192x32x128_S8192x32_d2 h, constant_apply, Ideal.ofBits_zero_f32]
  congr 1
  refine Finset.sum_congr rfl fun q _ => ?_
  refine shapeCast_apply (s := S8192x4096) (t := S8192x32x128) _ _ _ _ ?_
  rw [Shape.rowMajor_val_two, Shape.rowMajor_val_three]
  show i.val * 4096 + (128 * g.val + q.val) = (i.val * 32 + g.val) * 128 + q.val
  omega

/-! ## The table of zero points times scales -/

open Idealize.ShloMosaic.StableHlo in
/-- The result of an eight-operand operation, each operand's contents read at its own reference. -/
theorem nary8_result {x0 x1 x2 x3 x4 x5 x6 x7 y : Ref sig .tc}
    (f : ((k : Fin 8) → ((![x0, x1, x2, x3, x4, x5, x6, x7] : Fin 8 → Ref sig .tc) k).ty.Contents (Elt Ideal)) → y.ty.Contents (Elt Ideal)) (hxs hy)
    (F : Valuation τ sig (Elt Ideal)) :
    (nary (τ := τ) ![x0, x1, x2, x3, x4, x5, x6, x7] y f hxs hy).result F (Proc.devRef .tc y)
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (Fin.cons (F (Proc.devRef .tc x6)) (Fin.cons (F (Proc.devRef .tc x7))
            (fun i => i.elim0))))))))) := by
  rw [nary_result]; congr 1; funext k; fin_cases k <;> rfl

open Idealize.ShloMosaic.StableHlo in
theorem nary8_result' {x0 x1 x2 x3 x4 x5 x6 x7 y : Ref sig .tc}
    (f : ((k : Fin 8) → ((![x0, x1, x2, x3, x4, x5, x6, x7] : Fin 8 → Ref sig .tc) k).ty.Contents (Elt Ideal)) → y.ty.Contents (Elt Ideal)) (hxs hy)
    (F : Valuation τ sig (Elt Ideal)) :
    (nary (τ := τ) ![x0, x1, x2, x3, x4, x5, x6, x7] y f hxs hy).result F (no_index (Proc.devRef .tc y))
      = f (Fin.cons (F (Proc.devRef .tc x0)) (Fin.cons (F (Proc.devRef .tc x1)) (Fin.cons (F (Proc.devRef .tc x2)) (Fin.cons (F (Proc.devRef .tc x3))
          (Fin.cons (F (Proc.devRef .tc x4)) (Fin.cons (F (Proc.devRef .tc x5)) (Fin.cons (F (Proc.devRef .tc x6)) (Fin.cons (F (Proc.devRef .tc x7))
            (fun i => i.elim0))))))))) :=
  nary8_result f hxs hy F

open Idealize.ShloMosaic.StableHlo in
/-- Rewrites the contents after a literal list of operations, at one reference, into the operations' term over the launched contents, in one pass. -/
macro "after_results8_simp" : tactic =>
  `(tactic| (simp (disch := decide) only [after_cons, after_nil,
      nullary_result', unary_result', binary_result', reshape_result', nary8_result',
      nullary_result_ne', unary_result_ne', binary_result_ne', reshape_result_ne', nary_result_ne']))

/-- Field extraction on every packed zero point, as the program computes it: shift right by `s`, keep the low four bits,
    and append a unit axis. -/
def slab (Z : IVec S32x1536 32) (s : BitVec 32) : IVec S32x1536x1 32 :=
  broadcastInDim S32x1536x1 ![0, 1] bcast_S32x1536_S32x1536x1_0_1
    (andi (Host.shrsi Z (broadcastInDim S32x1536 ![] bcast_S_S32x1536 (constantI S_ 32 s)))
      (broadcastInDim S32x1536 ![] bcast_S_S32x1536 (constantI S_ 32 15#32)))

/-- The eight fields side by side on a third axis. -/
def conc (Z : IVec S32x1536 32) : IVec S32x1536x8 32 :=
  concatenate S32x1536x8 2
    [⟨S32x1536x1, slab Z 0#32⟩, ⟨S32x1536x1, slab Z 4#32⟩, ⟨S32x1536x1, slab Z 8#32⟩, ⟨S32x1536x1, slab Z 12#32⟩,
     ⟨S32x1536x1, slab Z 16#32⟩, ⟨S32x1536x1, slab Z 20#32⟩, ⟨S32x1536x1, slab Z 24#32⟩, ⟨S32x1536x1, slab Z 28#32⟩]
    concatenates_S32x1536x1_S32x1536x1_S32x1536x1_S32x1536x1_S32x1536x1_S32x1536x1_S32x1536x1_S32x1536x1_S32x1536x8_d2

/-- The table of zero points times scales as the program computes it from the packed zero points `Z` and the scales `S`:
    unpack, flatten the last two axes, add one, convert, multiply. -/
def zpTerm (Z : IVec S32x1536 32) (S : FVec Ideal S32x12288 .f32) : FVec Ideal S32x12288 .f32 :=
  mulf (sitofp .f32 (addi (shapeCast S32x12288 (conc Z) shapeCasts_S32x1536x8_S32x12288)
    (broadcastInDim S32x12288 ![] bcast_S_S32x12288 (constantI S_ 32 1#32)))) S

set_option maxHeartbeats 4000000 in
/-- The table of zero points times scales is the program's term over the launched packed zero points and scales. -/
theorem zpxs_term : vZpxs m c = zpTerm (aZ m c) (aS m c) := by
  unfold zpTerm conc slab
  dsimp only [vZpxs, aZ, aS, V, hostOps0]; after_results8_simp; rfl

/-- A slab at an index: the word at the first two coordinates, shifted and masked. -/
theorem slab_apply (Z : IVec S32x1536 32) (s : BitVec 32) (g : Fin 32) (q : Fin 1536) (z : Fin 1) :
    slab Z s (ix3 g q z) = IntOp.andi (IntOp.shrsi .host (Z (ix2 g q)) s) 15#32 := by
  unfold slab
  refine Eq.trans (broadcastInDim_apply (s := S32x1536) (t := S32x1536x1) _ _ _ (ix3 g q z) (ix2 g q)
    (fun a => by match a with | ⟨0, _⟩ => rfl | ⟨1, _⟩ => rfl)) ?_
  show IntOp.andi (IntOp.shrsi .host (Z (ix2 g q)) (broadcastInDim S32x1536 ![] bcast_S_S32x1536 (constantI S_ 32 s) (ix2 g q)))
      (broadcastInDim S32x1536 ![] bcast_S_S32x1536 (constantI S_ 32 15#32) (ix2 g q)) = _
  rw [broadcastInDim_scalar_apply, broadcastInDim_scalar_apply]
  rfl

/-- A shifted and masked word is the field of the packed word, when the shift is the field's. -/
theorem field_of_parts (w s : BitVec 32) (e : Fin 8) (hs : s = shAmt e) :
    IntOp.andi (IntOp.shrsi .host w s) 15#32 = field w e := by
  subst hs
  unfold field
  rw [shrsi_of_lt .host w (shAmt e) (by unfold shAmt; have := e.isLt; simp [BitVec.toNat_ofNat]; omega)]

/-! The concatenation at an index whose last coordinate is the literal `E`: piece `E`, the slab of shift `4·E`, which is field `E`. -/

theorem conc_apply0 (Z : IVec S32x1536 32) (g : Fin 32) (q : Fin 1536) :
    conc Z (ix3 g q (⟨0, by decide⟩ : Fin 8)) = field (Z (ix2 g q)) ⟨0, by decide⟩ := by
  unfold conc
  refine Eq.trans (concatenate_apply_piece (2 : Fin 3) _ _ (ix3 g q (⟨0, by decide⟩ : Fin 8)) 0 (by simp) S32x1536x1 (slab Z 0#32)
    (by rfl) (by rfl) 0 (by rfl) (ix3 g q (0 : Fin 1))
    (fun b hb => by match b with | ⟨0, _⟩ => rfl | ⟨1, _⟩ => rfl | ⟨2, _⟩ => exact absurd rfl hb) (by rfl)) ?_
  rw [slab_apply]
  exact field_of_parts _ _ _ rfl

theorem conc_apply1 (Z : IVec S32x1536 32) (g : Fin 32) (q : Fin 1536) :
    conc Z (ix3 g q (⟨1, by decide⟩ : Fin 8)) = field (Z (ix2 g q)) ⟨1, by decide⟩ := by
  unfold conc
  refine Eq.trans (concatenate_apply_piece (2 : Fin 3) _ _ (ix3 g q (⟨1, by decide⟩ : Fin 8)) 1 (by simp) S32x1536x1 (slab Z 4#32)
    (by rfl) (by rfl) 1 (by rfl) (ix3 g q (0 : Fin 1))
    (fun b hb => by match b with | ⟨0, _⟩ => rfl | ⟨1, _⟩ => rfl | ⟨2, _⟩ => exact absurd rfl hb) (by rfl)) ?_
  rw [slab_apply]
  exact field_of_parts _ _ _ rfl

theorem conc_apply2 (Z : IVec S32x1536 32) (g : Fin 32) (q : Fin 1536) :
    conc Z (ix3 g q (⟨2, by decide⟩ : Fin 8)) = field (Z (ix2 g q)) ⟨2, by decide⟩ := by
  unfold conc
  refine Eq.trans (concatenate_apply_piece (2 : Fin 3) _ _ (ix3 g q (⟨2, by decide⟩ : Fin 8)) 2 (by simp) S32x1536x1 (slab Z 8#32)
    (by rfl) (by rfl) 2 (by rfl) (ix3 g q (0 : Fin 1))
    (fun b hb => by match b with | ⟨0, _⟩ => rfl | ⟨1, _⟩ => rfl | ⟨2, _⟩ => exact absurd rfl hb) (by rfl)) ?_
  rw [slab_apply]
  exact field_of_parts _ _ _ rfl

theorem conc_apply3 (Z : IVec S32x1536 32) (g : Fin 32) (q : Fin 1536) :
    conc Z (ix3 g q (⟨3, by decide⟩ : Fin 8)) = field (Z (ix2 g q)) ⟨3, by decide⟩ := by
  unfold conc
  refine Eq.trans (concatenate_apply_piece (2 : Fin 3) _ _ (ix3 g q (⟨3, by decide⟩ : Fin 8)) 3 (by simp) S32x1536x1 (slab Z 12#32)
    (by rfl) (by rfl) 3 (by rfl) (ix3 g q (0 : Fin 1))
    (fun b hb => by match b with | ⟨0, _⟩ => rfl | ⟨1, _⟩ => rfl | ⟨2, _⟩ => exact absurd rfl hb) (by rfl)) ?_
  rw [slab_apply]
  exact field_of_parts _ _ _ rfl

theorem conc_apply4 (Z : IVec S32x1536 32) (g : Fin 32) (q : Fin 1536) :
    conc Z (ix3 g q (⟨4, by decide⟩ : Fin 8)) = field (Z (ix2 g q)) ⟨4, by decide⟩ := by
  unfold conc
  refine Eq.trans (concatenate_apply_piece (2 : Fin 3) _ _ (ix3 g q (⟨4, by decide⟩ : Fin 8)) 4 (by simp) S32x1536x1 (slab Z 16#32)
    (by rfl) (by rfl) 4 (by rfl) (ix3 g q (0 : Fin 1))
    (fun b hb => by match b with | ⟨0, _⟩ => rfl | ⟨1, _⟩ => rfl | ⟨2, _⟩ => exact absurd rfl hb) (by rfl)) ?_
  rw [slab_apply]
  exact field_of_parts _ _ _ rfl

theorem conc_apply5 (Z : IVec S32x1536 32) (g : Fin 32) (q : Fin 1536) :
    conc Z (ix3 g q (⟨5, by decide⟩ : Fin 8)) = field (Z (ix2 g q)) ⟨5, by decide⟩ := by
  unfold conc
  refine Eq.trans (concatenate_apply_piece (2 : Fin 3) _ _ (ix3 g q (⟨5, by decide⟩ : Fin 8)) 5 (by simp) S32x1536x1 (slab Z 20#32)
    (by rfl) (by rfl) 5 (by rfl) (ix3 g q (0 : Fin 1))
    (fun b hb => by match b with | ⟨0, _⟩ => rfl | ⟨1, _⟩ => rfl | ⟨2, _⟩ => exact absurd rfl hb) (by rfl)) ?_
  rw [slab_apply]
  exact field_of_parts _ _ _ rfl

theorem conc_apply6 (Z : IVec S32x1536 32) (g : Fin 32) (q : Fin 1536) :
    conc Z (ix3 g q (⟨6, by decide⟩ : Fin 8)) = field (Z (ix2 g q)) ⟨6, by decide⟩ := by
  unfold conc
  refine Eq.trans (concatenate_apply_piece (2 : Fin 3) _ _ (ix3 g q (⟨6, by decide⟩ : Fin 8)) 6 (by simp) S32x1536x1 (slab Z 24#32)
    (by rfl) (by rfl) 6 (by rfl) (ix3 g q (0 : Fin 1))
    (fun b hb => by match b with | ⟨0, _⟩ => rfl | ⟨1, _⟩ => rfl | ⟨2, _⟩ => exact absurd rfl hb) (by rfl)) ?_
  rw [slab_apply]
  exact field_of_parts _ _ _ rfl

theorem conc_apply7 (Z : IVec S32x1536 32) (g : Fin 32) (q : Fin 1536) :
    conc Z (ix3 g q (⟨7, by decide⟩ : Fin 8)) = field (Z (ix2 g q)) ⟨7, by decide⟩ := by
  unfold conc
  refine Eq.trans (concatenate_apply_piece (2 : Fin 3) _ _ (ix3 g q (⟨7, by decide⟩ : Fin 8)) 7 (by simp) S32x1536x1 (slab Z 28#32)
    (by rfl) (by rfl) 7 (by rfl) (ix3 g q (0 : Fin 1))
    (fun b hb => by match b with | ⟨0, _⟩ => rfl | ⟨1, _⟩ => rfl | ⟨2, _⟩ => exact absurd rfl hb) (by rfl)) ?_
  rw [slab_apply]
  exact field_of_parts _ _ _ rfl

/-- The eight fields side by side, read at an index: the field its last coordinate names. -/
theorem conc_apply (Z : IVec S32x1536 32) (g : Fin 32) (q : Fin 1536) (e : Fin 8) :
    conc Z (ix3 g q e) = field (Z (ix2 g q)) e := by
  match e with
  | ⟨0, _⟩ => exact conc_apply0 Z g q
  | ⟨1, _⟩ => exact conc_apply1 Z g q
  | ⟨2, _⟩ => exact conc_apply2 Z g q
  | ⟨3, _⟩ => exact conc_apply3 Z g q
  | ⟨4, _⟩ => exact conc_apply4 Z g q
  | ⟨5, _⟩ => exact conc_apply5 Z g q
  | ⟨6, _⟩ => exact conc_apply6 Z g q
  | ⟨7, _⟩ => exact conc_apply7 Z g q

/-- The table at an index: the zero point of group `g` and output channel `n` (field `n mod 8` of packed word `n / 8`,
    plus one, as a real) times the scale there. -/
theorem zpTerm_apply (Z : IVec S32x1536 32) (S : FVec Ideal S32x12288 .f32) (g : Fin 32) (n : Fin 12288) :
    zpTerm Z S (ix2 g n) = zpVal (Z (ix2 g ⟨n.val / 8, by omega⟩)) ⟨n.val % 8, by omega⟩ * S (ix2 g n) := by
  unfold zpTerm zpVal
  rw [mulf_apply, sitofp_apply]
  show (((IntOp.addi (shapeCast S32x12288 (conc Z) shapeCasts_S32x1536x8_S32x12288 (ix2 g n))
      (broadcastInDim S32x12288 ![] bcast_S_S32x12288 (constantI S_ 32 1#32) (ix2 g n))).toInt : ℝ) : EReal) * S (ix2 g n) = _
  rw [broadcastInDim_scalar_apply,
    shapeCast_apply (s := S32x1536x8) (t := S32x12288) (conc Z) shapeCasts_S32x1536x8_S32x12288 (ix2 g n)
      (ix3 g (⟨n.val / 8, by omega⟩ : Fin 1536) (⟨n.val % 8, by omega⟩ : Fin 8)) (by
        rw [Shape.rowMajor_val_two, Shape.rowMajor_val_three]
        show (g.val * 1536 + n.val / 8) * 8 + n.val % 8 = g.val * 12288 + n.val
        omega),
    conc_apply]
  rfl

/-- The table the region stages, at group `g` and output channel `n`: the zero point there times the scale there. -/
theorem zpxs_apply (g : Fin 32) (n : Fin 12288) :
    vZpxs m c (ix2 g n) = zpVal (aZ m c (ix2 g ⟨n.val / 8, by omega⟩)) ⟨n.val % 8, by omega⟩ * aS m c (ix2 g n) := by
  rw [zpxs_term]
  exact zpTerm_apply _ _ g n

end Cert.KernelIdeal.Val

end
-- ==== Proof.Algebra.lean ====
/-
  The arithmetic identity that joins the two programs. One output entry of the kernel is a sum over four depth
  tiles and 1024 channels of x·(w·sc), minus a sum over the 32 groups of (the group's sum of x)·(z·sc), plus the
  bias; the reference is a sum over all 4096 channels of x·((w − z)·sc) plus the bias. Every number involved is a
  real, so the identity is proved in ℝ (distributivity, and regrouping 4096 = 4 × 1024 = 32 × 128) and then carried
  to the extended reals through the coercion, which preserves sums, products and differences of reals.
-/
import proofs.«419219_j18975165514260_3_alg».proof.Proof.Spec
import Mathlib.Data.EReal.Operations
import Mathlib.Data.Fintype.BigOperators
import Mathlib.Logic.Equiv.Fin.Basic
import Mathlib.Tactic.Ring

noncomputable section

namespace Cert.QSpec

/-- Channel `r` of depth tile `s`. -/
def kOf (s : Fin 4) (r : Fin 1024) : Fin 4096 := ⟨1024 * s.val + r.val, by omega⟩

/-- Channel `q` of dequantisation group `g`. -/
def chOf (g : Fin 32) (q : Fin 128) : Fin 4096 := ⟨128 * g.val + q.val, by omega⟩

/-- Channel `q` of group `g` belongs to group `g`. -/
theorem grpOf_chOf (g : Fin 32) (q : Fin 128) : grpOf (chOf g q) = g := by
  apply Fin.ext
  show (128 * g.val + q.val) / 128 = g.val
  omega

/-- The group of channel `r` of tile `s`, as a number. -/
theorem grpOf_kOf_val (s : Fin 4) (r : Fin 1024) : (grpOf (kOf s r)).val = 8 * s.val + r.val / 128 := by
  show (1024 * s.val + r.val) / 128 = 8 * s.val + r.val / 128
  omega

/-- A sum over `a·b` indices is a sum over `a` blocks of `b` indices, block `i` holding `b·i + j`. -/
theorem sum_regroup {M : Type*} [AddCommMonoid M] {a b n : ℕ} (h : a * b = n) (f : Fin n → M) :
    ∑ k, f k = ∑ i : Fin a, ∑ j : Fin b, f (finCongr h (finProdFinEquiv (i, j))) := by
  rw [← Fintype.sum_prod_type (fun p : Fin a × Fin b => f (finCongr h (finProdFinEquiv p)))]
  exact ((finProdFinEquiv.trans (finCongr h)).sum_comp f).symm

/-- 4096 channels as four tiles of 1024. -/
theorem sum_kOf {M : Type*} [AddCommMonoid M] (f : Fin 4096 → M) :
    ∑ k, f k = ∑ s : Fin 4, ∑ r : Fin 1024, f (kOf s r) := by
  rw [sum_regroup (a := 4) (b := 1024) (by norm_num) f]
  refine Finset.sum_congr rfl fun s _ => Finset.sum_congr rfl fun r _ => ?_
  congr 1
  apply Fin.ext
  show r.val + 1024 * s.val = 1024 * s.val + r.val
  omega

/-- 4096 channels as 32 groups of 128. -/
theorem sum_chOf {M : Type*} [AddCommMonoid M] (f : Fin 4096 → M) :
    ∑ k, f k = ∑ g : Fin 32, ∑ q : Fin 128, f (chOf g q) := by
  rw [sum_regroup (a := 32) (b := 128) (by norm_num) f]
  refine Finset.sum_congr rfl fun g _ => Finset.sum_congr rfl fun q _ => ?_
  congr 1
  apply Fin.ext
  show q.val + 128 * g.val = 128 * g.val + q.val
  omega

/-- The identity over the reals. -/
theorem real_identity (X W : Fin 4096 → ℝ) (S Z : Fin 32 → ℝ) :
    (∑ s : Fin 4, ∑ r : Fin 1024, X (kOf s r) * (W (kOf s r) * S (grpOf (kOf s r))))
        - (∑ g : Fin 32, (∑ q : Fin 128, X (chOf g q)) * (Z g * S g))
      = ∑ k : Fin 4096, X k * ((W k - Z (grpOf k)) * S (grpOf k)) := by
  rw [← sum_kOf (fun k => X k * (W k * S (grpOf k)))]
  have h2 : ∑ g : Fin 32, (∑ q : Fin 128, X (chOf g q)) * (Z g * S g)
      = ∑ k : Fin 4096, X k * (Z (grpOf k) * S (grpOf k)) := by
    rw [sum_chOf (fun k => X k * (Z (grpOf k) * S (grpOf k)))]
    refine Finset.sum_congr rfl fun g _ => ?_
    rw [Finset.sum_mul]
    refine Finset.sum_congr rfl fun q _ => ?_
    rw [grpOf_chOf]
  rw [h2, ← Finset.sum_sub_distrib]
  refine Finset.sum_congr rfl fun k _ => ?_
  ring

/-- The coercion of the reals into the extended reals preserves finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => rw [Finset.sum_empty, Finset.sum_empty, EReal.coe_zero]
  | insert a s ha ih => rw [Finset.sum_insert ha, Finset.sum_insert ha, EReal.coe_add, ih]

/-- The identity over the extended reals, all inputs being real. -/
theorem dequant_identity (xr wn : Fin 4096 → EReal) (scn zn : Fin 32 → EReal) (b : EReal)
    (hx : ∀ k, ∃ r : ℝ, xr k = (r : EReal)) (hw : ∀ k, ∃ r : ℝ, wn k = (r : EReal))
    (hs : ∀ g, ∃ r : ℝ, scn g = (r : EReal)) (hz : ∀ g, ∃ r : ℝ, zn g = (r : EReal)) :
    ((0 + ∑ s : Fin 4, ∑ r : Fin 1024, xr (kOf s r) * (wn (kOf s r) * scn (grpOf (kOf s r))))
        - (∑ g : Fin 32, (0 + ∑ q : Fin 128, xr (chOf g q)) * (zn g * scn g))) + b
      = (∑ k : Fin 4096, xr k * ((wn k - zn (grpOf k)) * scn (grpOf k))) + b := by
  choose X hX using hx
  choose W hW using hw
  choose S hS using hs
  choose Z hZ using hz
  have key := congrArg (fun t : ℝ => ((t : ℝ) : EReal) + b) (real_identity X W S Z)
  simp only [EReal.coe_sub, coe_sum, EReal.coe_mul] at key
  simp only [hX, hW, hS, hZ, zero_add]
  exact key

end Cert.QSpec

end
-- ==== Proof.KI.Final.lean ====
/-
  The kernel's result array as one function of the argument arrays. Every output tile is written back once, at the
  last depth tile of its (row tile, column tile) pair; read at a row `I` and a column `J` of the whole array it
  is: zero plus, over the four depth tiles `s` and the 1024 channels `r` of a tile, activation `x[I, 1024 s + r]`
  times the unpacked weight of that channel times its group's scale; less, over the 32 groups `g`, the group's
  activation sum times the group's zero point times its scale; plus the bias. The blocks the grid points stage
  are read off the arrays at the region's entry, and those arrays off the arguments.
-/
import proofs.«419219_j18975165514260_3_alg».proof.Proof.KI.Tile
import proofs.«419219_j18975165514260_3_alg».proof.Proof.KI.Blocks
import proofs.«419219_j18975165514260_3_alg».proof.Proof.KI.HostVals
import proofs.«419219_j18975165514260_3_alg».proof.Proof.Algebra

set_option maxRecDepth 16384

noncomputable section

namespace Cert.KernelIdeal.Val

open Cert.KernelIdeal Cert.KernelIdeal.Gen Cert.KernelIdeal.Fr Cert.QSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The packed weights, at their literal type. -/
abbrev aQ (c : Dev nD) : S512x12288.Idx → BitVec 32 := m ((c : Thread nD τ).loc main_arg3)

/-- Two rank-2 indices with equal coordinates are equal. -/
theorem ix2_congr {n0 n1 : ℕ} {a a' : Fin n0} {b b' : Fin n1} (ha : a.val = a'.val) (hb : b.val = b'.val) :
    (ix2 a b : (⟨2, ![n0, n1]⟩ : Shape).Idx) = ix2 a' b' := by
  obtain rfl := Fin.ext ha; obtain rfl := Fin.ext hb; rfl

/-- The result at row `I`, column `J`. -/
def resultAt (c : Dev nD) (I : Fin 8192) (J : Fin 12288) : EReal :=
  ((0 + ∑ s : Fin 4, ∑ r : Fin 1024, aX m c (ix2 I (kOf s r)) *
        (nibble (aQ m c (ix2 (rowOf (kOf s r)) J)) (fieldOf (kOf s r)) * aS m c (ix2 (grpOf (kOf s r)) J)))
    - (∑ g : Fin 32, (0 + ∑ q : Fin 128, aX m c (ix2 I (chOf g q))) *
        (zpVal (aZ m c (ix2 g ⟨J.val / 8, by have := J.isLt; omega⟩)) ⟨J.val % 8, Nat.mod_lt _ (by decide)⟩ * aS m c (ix2 g J))))
    + aB m c (ix1 J)

/-- The result array. -/
def resultArr (c : Dev nD) : S8192x12288.Idx → EReal := fun j => resultAt m c (j 0) (j 1)

/-! The blocks at a grid point, read off the argument arrays. -/
theorem xblk_eq (c : Dev nD) (t : Fin cfg0.N) (p : Fin 2048) (r : Fin 1024) :
    xblk m c t (ix2 p r) = aX m c (ix2 ⟨2048 * rt t + p.val, by have := rt_lt t; omega⟩ ⟨1024 * dt t + r.val, by have := dt_lt t; omega⟩) :=
  (xblk_apply m c t p r).trans (xbf_apply m c _ _)
theorem qblk_eq (c : Dev nD) (t : Fin cfg0.N) (p : Fin 128) (q : Fin 512) :
    qblk m c t (ix2 p q) = aQ m c (ix2 ⟨128 * dt t + p.val, by have := dt_lt t; omega⟩ ⟨512 * ct t + q.val, by have := ct_lt t; omega⟩) :=
  (qblk_apply m c t p q).trans (congrFun (V_main_arg3 m c) _)
theorem sblk_eq (c : Dev nD) (t : Fin cfg0.N) (g : Fin 8) (q : Fin 512) :
    sblk m c t (ix2 g q) = aS m c (ix2 ⟨8 * dt t + g.val, by have := dt_lt t; omega⟩ ⟨512 * ct t + q.val, by have := ct_lt t; omega⟩) :=
  (sblk_apply m c t g q).trans (congrFun (V_main_arg1 m c) _)
theorem gblk_eq (c : Dev nD) (t : Fin cfg0.N) (p : Fin 2048) (g : Fin 32) :
    gblk m c t (ix2 p g) = 0 + ∑ q : Fin 128, aX m c (ix2 ⟨2048 * rt t + p.val, by have := rt_lt t; omega⟩ (chOf g q)) :=
  (gblk_apply m c t p g).trans (xg_apply m c _ g)
theorem zblk_eq (c : Dev nD) (t : Fin cfg0.N) (g : Fin 32) (q : Fin 512) :
    zblk m c t (ix2 g q)
      = zpVal (aZ m c (ix2 g ⟨(512 * ct t + q.val) / 8, by have := ct_lt t; omega⟩)) ⟨(512 * ct t + q.val) % 8, Nat.mod_lt _ (by decide)⟩
          * aS m c (ix2 g ⟨512 * ct t + q.val, by have := ct_lt t; omega⟩) :=
  (zblk_apply m c t g q).trans (zpxs_apply m c g _)
theorem bblk_eq (c : Dev nD) (t : Fin cfg0.N) (q : Fin 512) :
    bblk m c t (ix2 0 q) = aB m c (ix1 ⟨512 * ct t + q.val, by have := ct_lt t; omega⟩) :=
  (bblk_apply m c t q).trans (bias_apply m c _)

/-- What depth tile `s` of the pair of a last-depth-tile point `t` adds, over the argument arrays. -/
theorem contrib_eq (c : Dev nD) (t : Fin cfg0.N) (h1 : t.val % 4 = 3) (s : Fin 4) (p : Fin 2048) (q : Fin 512) :
    contrib m c (4 * (t.val / 4) + s.val) (ix2 p q)
      = ∑ r : Fin 1024, aX m c (ix2 ⟨2048 * rt t + p.val, by have := rt_lt t; omega⟩ (kOf s r)) *
          (nibble (aQ m c (ix2 (rowOf (kOf s r)) ⟨512 * ct t + q.val, by have := ct_lt t; omega⟩)) (fieldOf (kOf s r))
            * aS m c (ix2 (grpOf (kOf s r)) ⟨512 * ct t + q.val, by have := ct_lt t; omega⟩)) := by
  have hN : t.val < 384 := val_lt t
  have hs := s.isLt
  have hn : 4 * (t.val / 4) + s.val < cfg0.N := by have hN' : cfg0.N = 384 := N_0; omega
  rw [contrib_pos m c _ hn]
  unfold tileProd
  refine Finset.sum_congr rfl fun r _ => ?_
  have hr := r.isLt
  rw [xblk_eq, qblk_eq, sblk_eq]
  have e1 : rt ⟨4 * (t.val / 4) + s.val, hn⟩ = rt t := by unfold rt; show (4 * (t.val / 4) + s.val) / 96 = t.val / 96; omega
  have e2 : ct ⟨4 * (t.val / 4) + s.val, hn⟩ = ct t := by unfold ct; show ((4 * (t.val / 4) + s.val) / 4) % 24 = (t.val / 4) % 24; omega
  have e3 : dt ⟨4 * (t.val / 4) + s.val, hn⟩ = s.val := by unfold dt; show (4 * (t.val / 4) + s.val) % 4 = s.val; omega
  refine congrArg₂ (· * ·) (congrArg (aX m c) (ix2_congr ?_ ?_))
    (congrArg₂ (· * ·) (congrArg₂ nibble (congrArg (aQ m c) (ix2_congr ?_ ?_)) (Fin.ext ?_)) (congrArg (aS m c) (ix2_congr ?_ ?_)))
  all_goals simp only [kOf, rowOf, fieldOf, grpOf, e1, e2, e3]
  all_goals omega

/-- What a last-depth-tile point writes back is its block of the result array. -/
theorem flushed_eq (c : Dev nD) (t : Fin cfg0.N) (hf : (cfg0.win 6).flush t = true) :
    (dats m 0 c).flushed 6 t = ((cfg0.win 6).blk t).view.read (Elt Ideal) (resultArr m c) := by
  have h1 : t.val % 4 = 3 := (flush0_6 t).mp hf
  show (cfg0.win 6).cut (grid0.coords t) ((dats m 0 c).after 6 t) = _
  rw [after0_6]
  funext j
  obtain ⟨p, q, rfl⟩ : ∃ p q, j = ix2 p q := ⟨j 0, j 1, eq_ix2 j⟩
  refine (tile_apply m c t h1 p q).trans ?_
  refine Eq.trans ?_ (oblk_read (F := Ideal) c t (resultArr m c) p q).symm
  show _ = resultAt m c _ _
  unfold resultAt
  rw [Finset.sum_range (fun s => contrib m c (4 * (t.val / 4) + s) (ix2 p q))]
  simp only [contrib_eq m c t h1, gblk_eq, zblk_eq, bblk_eq]

/-- The output array after the run. -/
theorem final (c : Dev nD) : (dats m 0 c).arrAt 6 cfg0.N = resultArr m c :=
  out_final (F := Ideal) (dats m 0 c) (resultArr m c) (fun t hf => flushed_eq m c t hf)

/-- The run, with the result named: the output array ends at the result array and the five arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v50) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).1 6).trans (final m c),
      ((h c).2 main_arg0 (Pipeline.mem_restRefs_of main_arg0 (by decide) (by decide))).trans (V_main_arg0 m c),
      ((h c).1 2).trans (((dats m 0 c).arrAt_in 2 rfl _).trans ((A_eq m c 2).trans (V_main_arg1 m c))),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c)⟩)
    (run_main m ρ)

end Cert.KernelIdeal.Val

end
-- ==== Proof.RI.RefVal.lean ====
/-
  The reference program read at one output element, as a closed formula in the entries of its five arguments.
-/
import proofs.«419219_j18975165514260_3_alg».proof.Proof.Gen.ReferenceIdeal.Read
import proofs.«419219_j18975165514260_3_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.QSpec
open scoped BigOperators

/-! The reference program read at one output element. The packed weights are unpacked along the input-channel axis
    (channel `k` is field `k mod 8` of packed row `k / 8`), the packed zero points along the output axis (column `n` is
    field `n mod 8` of packed column `n / 8`, plus one), the dequantised weight is `(weight − zero point) · scale` with
    the group `k / 128`, and the result is the contraction with the activations plus the bias. -/

/-- The packed weights, the packed zero points, the scales, the activations and the bias, as the reference reads them. -/
abbrev W := (⟨S512x12288, .i32⟩ : BufTy).Contents (Elt Ideal)
abbrev Z := (⟨S32x1536, .i32⟩ : BufTy).Contents (Elt Ideal)
abbrev Sc := (⟨S32x12288, .f32⟩ : BufTy).Contents (Elt Ideal)
abbrev X := (⟨S8192x4096, .f32⟩ : BufTy).Contents (Elt Ideal)
abbrev B := (⟨S12288, .f32⟩ : BufTy).Contents (Elt Ideal)

/-- A zero point: the field plus one (in 32-bit integers), as an extended real. -/
def zpVal (w : BitVec 32) (e : Fin 8) : EReal := (((IntOp.addi (Cert.QSpec.field w e) 1#32).toInt : ℝ) : EReal)

/-- Shift right by the field's amount (below 32, so the arithmetic shift) and mask: the field. -/
theorem field_of_parts (w s : BitVec 32) (E : Fin 8) (hs : s = shAmt E) :
    IntOp.andi (IntOp.shrsi .host w s) 15#32 = field w E := by
  subst hs
  unfold field
  rw [shrsi_of_lt .host w (shAmt E) (by unfold shAmt; have := E.isLt; simp [BitVec.toNat_ofNat]; omega)]

/-- A field broadcast to a unit middle axis reads the field at the outer coordinates. -/
theorem wbroadcast_idx (r : Fin 512) (n : Fin 12288) : idx_main_v32 (ix3 r (0 : Fin 1) n) = ix2 r n :=
  funext fun a => Fin.ext (by match a with | ⟨0, _⟩ => rfl | ⟨1, _⟩ => rfl)

/-- A field broadcast to a unit last axis reads the field at the two leading coordinates. -/
theorem zbroadcast_idx (g : Fin 32) (q : Fin 1536) : idx_main_v75 (ix3 g q (0 : Fin 1)) = ix2 g q :=
  funext fun a => Fin.ext (by match a with | ⟨0, _⟩ => rfl | ⟨1, _⟩ => rfl)

/-! ### The weights: piece `e` of the concatenation along the middle axis is field `e` -/

theorem wpiece0 (x3 : W) (r : Fin 512) (n : Fin 12288) :
    val_main_v40 (F := Ideal) x3 (ix3 r (⟨0, by decide⟩ : Fin 8) n) = field (x3 (ix2 r n)) ⟨0, by decide⟩ := by
  unfold val_main_v40
  refine Eq.trans (concatenate_apply_piece (1 : Fin 3) _ _ (ix3 r (⟨0, by decide⟩ : Fin 8) n) 0 (by simp) S512x1x12288
    (val_main_v32 (F := Ideal) x3) (by rfl) (by rfl) 0 (by rfl) (ix3 r (0 : Fin 1) n)
    (fun b hb => by match b with | ⟨0, _⟩ => rfl | ⟨1, _⟩ => exact absurd rfl hb | ⟨2, _⟩ => rfl) (by rfl)) ?_
  have hi : idx_main_v32 (ix3 r (0 : Fin 1) n) = ix2 r n := wbroadcast_idx r n
  rw [val_main_v32_apply, hi, val_main_v3_apply, val_main_v1_apply, val_main_v0_apply, val_main_c_apply,
    val_main_v2_apply, val_main_c_0_apply]
  exact field_of_parts _ _ _ rfl

theorem wpiece1 (x3 : W) (r : Fin 512) (n : Fin 12288) :
    val_main_v40 (F := Ideal) x3 (ix3 r (⟨1, by decide⟩ : Fin 8) n) = field (x3 (ix2 r n)) ⟨1, by decide⟩ := by
  unfold val_main_v40
  refine Eq.trans (concatenate_apply_piece (1 : Fin 3) _ _ (ix3 r (⟨1, by decide⟩ : Fin 8) n) 1 (by simp) S512x1x12288
    (val_main_v33 (F := Ideal) x3) (by rfl) (by rfl) 1 (by rfl) (ix3 r (0 : Fin 1) n)
    (fun b hb => by match b with | ⟨0, _⟩ => rfl | ⟨1, _⟩ => exact absurd rfl hb | ⟨2, _⟩ => rfl) (by rfl)) ?_
  have hi : idx_main_v33 (ix3 r (0 : Fin 1) n) = ix2 r n := wbroadcast_idx r n
  rw [val_main_v33_apply, hi, val_main_v7_apply, val_main_v5_apply, val_main_v4_apply, val_main_c_1_apply,
    val_main_v6_apply, val_main_c_2_apply]
  exact field_of_parts _ _ _ rfl

theorem wpiece2 (x3 : W) (r : Fin 512) (n : Fin 12288) :
    val_main_v40 (F := Ideal) x3 (ix3 r (⟨2, by decide⟩ : Fin 8) n) = field (x3 (ix2 r n)) ⟨2, by decide⟩ := by
  unfold val_main_v40
  refine Eq.trans (concatenate_apply_piece (1 : Fin 3) _ _ (ix3 r (⟨2, by decide⟩ : Fin 8) n) 2 (by simp) S512x1x12288
    (val_main_v34 (F := Ideal) x3) (by rfl) (by rfl) 2 (by rfl) (ix3 r (0 : Fin 1) n)
    (fun b hb => by match b with | ⟨0, _⟩ => rfl | ⟨1, _⟩ => exact absurd rfl hb | ⟨2, _⟩ => rfl) (by rfl)) ?_
  have hi : idx_main_v34 (ix3 r (0 : Fin 1) n) = ix2 r n := wbroadcast_idx r n
  rw [val_main_v34_apply, hi, val_main_v11_apply, val_main_v9_apply, val_main_v8_apply, val_main_c_3_apply,
    val_main_v10_apply, val_main_c_4_apply]
  exact field_of_parts _ _ _ rfl

theorem wpiece3 (x3 : W) (r : Fin 512) (n : Fin 12288) :
    val_main_v40 (F := Ideal) x3 (ix3 r (⟨3, by decide⟩ : Fin 8) n) = field (x3 (ix2 r n)) ⟨3, by decide⟩ := by
  unfold val_main_v40
  refine Eq.trans (concatenate_apply_piece (1 : Fin 3) _ _ (ix3 r (⟨3, by decide⟩ : Fin 8) n) 3 (by simp) S512x1x12288
    (val_main_v35 (F := Ideal) x3) (by rfl) (by rfl) 3 (by rfl) (ix3 r (0 : Fin 1) n)
    (fun b hb => by match b with | ⟨0, _⟩ => rfl | ⟨1, _⟩ => exact absurd rfl hb | ⟨2, _⟩ => rfl) (by rfl)) ?_
  have hi : idx_main_v35 (ix3 r (0 : Fin 1) n) = ix2 r n := wbroadcast_idx r n
  rw [val_main_v35_apply, hi, val_main_v15_apply, val_main_v13_apply, val_main_v12_apply, val_main_c_5_apply,
    val_main_v14_apply, val_main_c_6_apply]
  exact field_of_parts _ _ _ rfl

theorem wpiece4 (x3 : W) (r : Fin 512) (n : Fin 12288) :
    val_main_v40 (F := Ideal) x3 (ix3 r (⟨4, by decide⟩ : Fin 8) n) = field (x3 (ix2 r n)) ⟨4, by decide⟩ := by
  unfold val_main_v40
  refine Eq.trans (concatenate_apply_piece (1 : Fin 3) _ _ (ix3 r (⟨4, by decide⟩ : Fin 8) n) 4 (by simp) S512x1x12288
    (val_main_v36 (F := Ideal) x3) (by rfl) (by rfl) 4 (by rfl) (ix3 r (0 : Fin 1) n)
    (fun b hb => by match b with | ⟨0, _⟩ => rfl | ⟨1, _⟩ => exact absurd rfl hb | ⟨2, _⟩ => rfl) (by rfl)) ?_
  have hi : idx_main_v36 (ix3 r (0 : Fin 1) n) = ix2 r n := wbroadcast_idx r n
  rw [val_main_v36_apply, hi, val_main_v19_apply, val_main_v17_apply, val_main_v16_apply, val_main_c_7_apply,
    val_main_v18_apply, val_main_c_8_apply]
  exact field_of_parts _ _ _ rfl

theorem wpiece5 (x3 : W) (r : Fin 512) (n : Fin 12288) :
    val_main_v40 (F := Ideal) x3 (ix3 r (⟨5, by decide⟩ : Fin 8) n) = field (x3 (ix2 r n)) ⟨5, by decide⟩ := by
  unfold val_main_v40
  refine Eq.trans (concatenate_apply_piece (1 : Fin 3) _ _ (ix3 r (⟨5, by decide⟩ : Fin 8) n) 5 (by simp) S512x1x12288
    (val_main_v37 (F := Ideal) x3) (by rfl) (by rfl) 5 (by rfl) (ix3 r (0 : Fin 1) n)
    (fun b hb => by match b with | ⟨0, _⟩ => rfl | ⟨1, _⟩ => exact absurd rfl hb | ⟨2, _⟩ => rfl) (by rfl)) ?_
  have hi : idx_main_v37 (ix3 r (0 : Fin 1) n) = ix2 r n := wbroadcast_idx r n
  rw [val_main_v37_apply, hi, val_main_v23_apply, val_main_v21_apply, val_main_v20_apply, val_main_c_9_apply,
    val_main_v22_apply, val_main_c_10_apply]
  exact field_of_parts _ _ _ rfl

theorem wpiece6 (x3 : W) (r : Fin 512) (n : Fin 12288) :
    val_main_v40 (F := Ideal) x3 (ix3 r (⟨6, by decide⟩ : Fin 8) n) = field (x3 (ix2 r n)) ⟨6, by decide⟩ := by
  unfold val_main_v40
  refine Eq.trans (concatenate_apply_piece (1 : Fin 3) _ _ (ix3 r (⟨6, by decide⟩ : Fin 8) n) 6 (by simp) S512x1x12288
    (val_main_v38 (F := Ideal) x3) (by rfl) (by rfl) 6 (by rfl) (ix3 r (0 : Fin 1) n)
    (fun b hb => by match b with | ⟨0, _⟩ => rfl | ⟨1, _⟩ => exact absurd rfl hb | ⟨2, _⟩ => rfl) (by rfl)) ?_
  have hi : idx_main_v38 (ix3 r (0 : Fin 1) n) = ix2 r n := wbroadcast_idx r n
  rw [val_main_v38_apply, hi, val_main_v27_apply, val_main_v25_apply, val_main_v24_apply, val_main_c_11_apply,
    val_main_v26_apply, val_main_c_12_apply]
  exact field_of_parts _ _ _ rfl

theorem wpiece7 (x3 : W) (r : Fin 512) (n : Fin 12288) :
    val_main_v40 (F := Ideal) x3 (ix3 r (⟨7, by decide⟩ : Fin 8) n) = field (x3 (ix2 r n)) ⟨7, by decide⟩ := by
  unfold val_main_v40
  refine Eq.trans (concatenate_apply_piece (1 : Fin 3) _ _ (ix3 r (⟨7, by decide⟩ : Fin 8) n) 7 (by simp) S512x1x12288
    (val_main_v39 (F := Ideal) x3) (by rfl) (by rfl) 7 (by rfl) (ix3 r (0 : Fin 1) n)
    (fun b hb => by match b with | ⟨0, _⟩ => rfl | ⟨1, _⟩ => exact absurd rfl hb | ⟨2, _⟩ => rfl) (by rfl)) ?_
  have hi : idx_main_v39 (ix3 r (0 : Fin 1) n) = ix2 r n := wbroadcast_idx r n
  rw [val_main_v39_apply, hi, val_main_v31_apply, val_main_v29_apply, val_main_v28_apply, val_main_c_13_apply,
    val_main_v30_apply, val_main_c_14_apply]
  exact field_of_parts _ _ _ rfl

/-- The eight fields joined along the middle axis: coordinate `e` there reads field `e`. -/
theorem wconcat (x3 : W) (r : Fin 512) (e : Fin 8) (n : Fin 12288) :
    val_main_v40 (F := Ideal) x3 (ix3 r e n) = field (x3 (ix2 r n)) e := by
  match e with
  | ⟨0, _⟩ => exact wpiece0 x3 r n
  | ⟨1, _⟩ => exact wpiece1 x3 r n
  | ⟨2, _⟩ => exact wpiece2 x3 r n
  | ⟨3, _⟩ => exact wpiece3 x3 r n
  | ⟨4, _⟩ => exact wpiece4 x3 r n
  | ⟨5, _⟩ => exact wpiece5 x3 r n
  | ⟨6, _⟩ => exact wpiece6 x3 r n
  | ⟨7, _⟩ => exact wpiece7 x3 r n

/-- Row `k` of the reshaped `[4096, 12288]` array is packed row `k / 8`, field `k mod 8`. -/
theorem wreshape_idx (k : Fin 4096) (n : Fin 12288) : idx_main_v41 (ix2 k n) = ix3 (rowOf k) (fieldOf k) n :=
  funext fun a => Fin.ext (by
    have hk := k.isLt
    have hn := n.isLt
    match a with
    | ⟨0, _⟩ => show (k.val * 12288 + n.val) / 98304 = k.val / 8; omega
    | ⟨1, _⟩ => show (k.val * 12288 + n.val) / 12288 % 8 = k.val % 8; omega
    | ⟨2, _⟩ => show (k.val * 12288 + n.val) % 12288 = n.val; omega)

/-- **The unpacked weight** at input channel `k`, output column `n`. -/
theorem weight_apply (x3 : W) (k : Fin 4096) (n : Fin 12288) :
    val_main_v42 (F := Ideal) x3 (ix2 k n) = nibble (x3 (ix2 (rowOf k) n)) (fieldOf k) := by
  rw [val_main_v42_apply, val_main_v41_apply, wreshape_idx, wconcat]
  rfl

/-! ### The zero points: piece `e` of the concatenation along the last axis is field `e` -/

theorem zpiece0 (x4 : Z) (g : Fin 32) (q : Fin 1536) :
    val_main_v83 (F := Ideal) x4 (ix3 g q (⟨0, by decide⟩ : Fin 8)) = field (x4 (ix2 g q)) ⟨0, by decide⟩ := by
  unfold val_main_v83
  refine Eq.trans (concatenate_apply_piece (2 : Fin 3) _ _ (ix3 g q (⟨0, by decide⟩ : Fin 8)) 0 (by simp) S32x1536x1
    (val_main_v75 (F := Ideal) x4) (by rfl) (by rfl) 0 (by rfl) (ix3 g q (0 : Fin 1))
    (fun b hb => by match b with | ⟨0, _⟩ => rfl | ⟨1, _⟩ => rfl | ⟨2, _⟩ => exact absurd rfl hb) (by rfl)) ?_
  have hi : idx_main_v75 (ix3 g q (0 : Fin 1)) = ix2 g q := zbroadcast_idx g q
  rw [val_main_v75_apply, hi, val_main_v46_apply, val_main_v44_apply, val_main_v43_apply, val_main_c_15_apply,
    val_main_v45_apply, val_main_c_16_apply]
  exact field_of_parts _ _ _ rfl

theorem zpiece1 (x4 : Z) (g : Fin 32) (q : Fin 1536) :
    val_main_v83 (F := Ideal) x4 (ix3 g q (⟨1, by decide⟩ : Fin 8)) = field (x4 (ix2 g q)) ⟨1, by decide⟩ := by
  unfold val_main_v83
  refine Eq.trans (concatenate_apply_piece (2 : Fin 3) _ _ (ix3 g q (⟨1, by decide⟩ : Fin 8)) 1 (by simp) S32x1536x1
    (val_main_v76 (F := Ideal) x4) (by rfl) (by rfl) 1 (by rfl) (ix3 g q (0 : Fin 1))
    (fun b hb => by match b with | ⟨0, _⟩ => rfl | ⟨1, _⟩ => rfl | ⟨2, _⟩ => exact absurd rfl hb) (by rfl)) ?_
  have hi : idx_main_v76 (ix3 g q (0 : Fin 1)) = ix2 g q := zbroadcast_idx g q
  rw [val_main_v76_apply, hi, val_main_v50_apply, val_main_v48_apply, val_main_v47_apply, val_main_c_17_apply,
    val_main_v49_apply, val_main_c_18_apply]
  exact field_of_parts _ _ _ rfl

theorem zpiece2 (x4 : Z) (g : Fin 32) (q : Fin 1536) :
    val_main_v83 (F := Ideal) x4 (ix3 g q (⟨2, by decide⟩ : Fin 8)) = field (x4 (ix2 g q)) ⟨2, by decide⟩ := by
  unfold val_main_v83
  refine Eq.trans (concatenate_apply_piece (2 : Fin 3) _ _ (ix3 g q (⟨2, by decide⟩ : Fin 8)) 2 (by simp) S32x1536x1
    (val_main_v77 (F := Ideal) x4) (by rfl) (by rfl) 2 (by rfl) (ix3 g q (0 : Fin 1))
    (fun b hb => by match b with | ⟨0, _⟩ => rfl | ⟨1, _⟩ => rfl | ⟨2, _⟩ => exact absurd rfl hb) (by rfl)) ?_
  have hi : idx_main_v77 (ix3 g q (0 : Fin 1)) = ix2 g q := zbroadcast_idx g q
  rw [val_main_v77_apply, hi, val_main_v54_apply, val_main_v52_apply, val_main_v51_apply, val_main_c_19_apply,
    val_main_v53_apply, val_main_c_20_apply]
  exact field_of_parts _ _ _ rfl

theorem zpiece3 (x4 : Z) (g : Fin 32) (q : Fin 1536) :
    val_main_v83 (F := Ideal) x4 (ix3 g q (⟨3, by decide⟩ : Fin 8)) = field (x4 (ix2 g q)) ⟨3, by decide⟩ := by
  unfold val_main_v83
  refine Eq.trans (concatenate_apply_piece (2 : Fin 3) _ _ (ix3 g q (⟨3, by decide⟩ : Fin 8)) 3 (by simp) S32x1536x1
    (val_main_v78 (F := Ideal) x4) (by rfl) (by rfl) 3 (by rfl) (ix3 g q (0 : Fin 1))
    (fun b hb => by match b with | ⟨0, _⟩ => rfl | ⟨1, _⟩ => rfl | ⟨2, _⟩ => exact absurd rfl hb) (by rfl)) ?_
  have hi : idx_main_v78 (ix3 g q (0 : Fin 1)) = ix2 g q := zbroadcast_idx g q
  rw [val_main_v78_apply, hi, val_main_v58_apply, val_main_v56_apply, val_main_v55_apply, val_main_c_21_apply,
    val_main_v57_apply, val_main_c_22_apply]
  exact field_of_parts _ _ _ rfl

theorem zpiece4 (x4 : Z) (g : Fin 32) (q : Fin 1536) :
    val_main_v83 (F := Ideal) x4 (ix3 g q (⟨4, by decide⟩ : Fin 8)) = field (x4 (ix2 g q)) ⟨4, by decide⟩ := by
  unfold val_main_v83
  refine Eq.trans (concatenate_apply_piece (2 : Fin 3) _ _ (ix3 g q (⟨4, by decide⟩ : Fin 8)) 4 (by simp) S32x1536x1
    (val_main_v79 (F := Ideal) x4) (by rfl) (by rfl) 4 (by rfl) (ix3 g q (0 : Fin 1))
    (fun b hb => by match b with | ⟨0, _⟩ => rfl | ⟨1, _⟩ => rfl | ⟨2, _⟩ => exact absurd rfl hb) (by rfl)) ?_
  have hi : idx_main_v79 (ix3 g q (0 : Fin 1)) = ix2 g q := zbroadcast_idx g q
  rw [val_main_v79_apply, hi, val_main_v62_apply, val_main_v60_apply, val_main_v59_apply, val_main_c_23_apply,
    val_main_v61_apply, val_main_c_24_apply]
  exact field_of_parts _ _ _ rfl

theorem zpiece5 (x4 : Z) (g : Fin 32) (q : Fin 1536) :
    val_main_v83 (F := Ideal) x4 (ix3 g q (⟨5, by decide⟩ : Fin 8)) = field (x4 (ix2 g q)) ⟨5, by decide⟩ := by
  unfold val_main_v83
  refine Eq.trans (concatenate_apply_piece (2 : Fin 3) _ _ (ix3 g q (⟨5, by decide⟩ : Fin 8)) 5 (by simp) S32x1536x1
    (val_main_v80 (F := Ideal) x4) (by rfl) (by rfl) 5 (by rfl) (ix3 g q (0 : Fin 1))
    (fun b hb => by match b with | ⟨0, _⟩ => rfl | ⟨1, _⟩ => rfl | ⟨2, _⟩ => exact absurd rfl hb) (by rfl)) ?_
  have hi : idx_main_v80 (ix3 g q (0 : Fin 1)) = ix2 g q := zbroadcast_idx g q
  rw [val_main_v80_apply, hi, val_main_v66_apply, val_main_v64_apply, val_main_v63_apply, val_main_c_25_apply,
    val_main_v65_apply, val_main_c_26_apply]
  exact field_of_parts _ _ _ rfl

theorem zpiece6 (x4 : Z) (g : Fin 32) (q : Fin 1536) :
    val_main_v83 (F := Ideal) x4 (ix3 g q (⟨6, by decide⟩ : Fin 8)) = field (x4 (ix2 g q)) ⟨6, by decide⟩ := by
  unfold val_main_v83
  refine Eq.trans (concatenate_apply_piece (2 : Fin 3) _ _ (ix3 g q (⟨6, by decide⟩ : Fin 8)) 6 (by simp) S32x1536x1
    (val_main_v81 (F := Ideal) x4) (by rfl) (by rfl) 6 (by rfl) (ix3 g q (0 : Fin 1))
    (fun b hb => by match b with | ⟨0, _⟩ => rfl | ⟨1, _⟩ => rfl | ⟨2, _⟩ => exact absurd rfl hb) (by rfl)) ?_
  have hi : idx_main_v81 (ix3 g q (0 : Fin 1)) = ix2 g q := zbroadcast_idx g q
  rw [val_main_v81_apply, hi, val_main_v70_apply, val_main_v68_apply, val_main_v67_apply, val_main_c_27_apply,
    val_main_v69_apply, val_main_c_28_apply]
  exact field_of_parts _ _ _ rfl

theorem zpiece7 (x4 : Z) (g : Fin 32) (q : Fin 1536) :
    val_main_v83 (F := Ideal) x4 (ix3 g q (⟨7, by decide⟩ : Fin 8)) = field (x4 (ix2 g q)) ⟨7, by decide⟩ := by
  unfold val_main_v83
  refine Eq.trans (concatenate_apply_piece (2 : Fin 3) _ _ (ix3 g q (⟨7, by decide⟩ : Fin 8)) 7 (by simp) S32x1536x1
    (val_main_v82 (F := Ideal) x4) (by rfl) (by rfl) 7 (by rfl) (ix3 g q (0 : Fin 1))
    (fun b hb => by match b with | ⟨0, _⟩ => rfl | ⟨1, _⟩ => rfl | ⟨2, _⟩ => exact absurd rfl hb) (by rfl)) ?_
  have hi : idx_main_v82 (ix3 g q (0 : Fin 1)) = ix2 g q := zbroadcast_idx g q
  rw [val_main_v82_apply, hi, val_main_v74_apply, val_main_v72_apply, val_main_v71_apply, val_main_c_29_apply,
    val_main_v73_apply, val_main_c_30_apply]
  exact field_of_parts _ _ _ rfl

/-- The eight fields joined along the last axis: coordinate `e` there reads field `e`. -/
theorem zconcat (x4 : Z) (g : Fin 32) (q : Fin 1536) (e : Fin 8) :
    val_main_v83 (F := Ideal) x4 (ix3 g q e) = field (x4 (ix2 g q)) e := by
  match e with
  | ⟨0, _⟩ => exact zpiece0 x4 g q
  | ⟨1, _⟩ => exact zpiece1 x4 g q
  | ⟨2, _⟩ => exact zpiece2 x4 g q
  | ⟨3, _⟩ => exact zpiece3 x4 g q
  | ⟨4, _⟩ => exact zpiece4 x4 g q
  | ⟨5, _⟩ => exact zpiece5 x4 g q
  | ⟨6, _⟩ => exact zpiece6 x4 g q
  | ⟨7, _⟩ => exact zpiece7 x4 g q

/-- Column `n` of the reshaped `[32, 12288]` array is packed column `n / 8`, field `n mod 8`. -/
theorem zreshape_idx (g : Fin 32) (n : Fin 12288) :
    idx_main_v84 (ix2 g n) = ix3 g (⟨n.val / 8, by have := n.isLt; omega⟩ : Fin 1536) (⟨n.val % 8, by omega⟩ : Fin 8) :=
  funext fun a => Fin.ext (by
    have hg := g.isLt
    have hn := n.isLt
    match a with
    | ⟨0, _⟩ => show (g.val * 12288 + n.val) / 12288 = g.val; omega
    | ⟨1, _⟩ => show (g.val * 12288 + n.val) / 8 % 1536 = n.val / 8; omega
    | ⟨2, _⟩ => show (g.val * 12288 + n.val) % 8 = n.val % 8; omega)

/-- **The zero point** of group `g`, output column `n`. -/
theorem zero_apply (x4 : Z) (g : Fin 32) (n : Fin 12288) :
    val_main_v87 (F := Ideal) x4 (ix2 g n)
      = zpVal (x4 (ix2 g (⟨n.val / 8, by have := n.isLt; omega⟩ : Fin 1536))) (⟨n.val % 8, by omega⟩ : Fin 8) := by
  rw [val_main_v87_apply, val_main_v86_apply, val_main_v84_apply, zreshape_idx, zconcat, val_main_v85_apply, val_main_c_31_apply]
  rfl

/-! ### The dequantised weight -/

/-- Row `k` of the `[4096, 12288]` result is group `k / 128`, row `k mod 128` of the `[32, 128, 12288]` array. -/
theorem dreshape_idx (k : Fin 4096) (n : Fin 12288) :
    idx_main_v95 (ix2 k n) = ix3 (grpOf k) (⟨k.val % 128, by omega⟩ : Fin 128) n :=
  funext fun a => Fin.ext (by
    have hk := k.isLt
    have hn := n.isLt
    match a with
    | ⟨0, _⟩ => show (k.val * 12288 + n.val) / 1572864 = k.val / 128; omega
    | ⟨1, _⟩ => show (k.val * 12288 + n.val) / 12288 % 128 = k.val % 128; omega
    | ⟨2, _⟩ => show (k.val * 12288 + n.val) % 12288 = n.val; omega)

/-- Group `k / 128`, row `k mod 128` of the `[32, 128, 12288]` view of the unpacked weights is row `k`. -/
theorem greshape_idx (k : Fin 4096) (n : Fin 12288) :
    idx_main_v88 (ix3 (grpOf k) (⟨k.val % 128, by omega⟩ : Fin 128) n) = ix2 k n :=
  funext fun a => Fin.ext (by
    have hk := k.isLt
    have hn := n.isLt
    match a with
    | ⟨0, _⟩ => show ((k.val / 128 * 128 + k.val % 128) * 12288 + n.val) / 12288 = k.val; omega
    | ⟨1, _⟩ => show ((k.val / 128 * 128 + k.val % 128) * 12288 + n.val) % 12288 = n.val; omega)

/-- A per-group row broadcast over the 128 rows of its group reads the group's row. -/
theorem gbroadcast_idx (g : Fin 32) (p : Fin 128) (n : Fin 12288) :
    idx_main_v89 (idx_main_v90 (ix3 g p n)) = ix2 g n :=
  funext fun a => Fin.ext (by match a with | ⟨0, _⟩ => rfl | ⟨1, _⟩ => rfl)

theorem sbroadcast_idx (g : Fin 32) (p : Fin 128) (n : Fin 12288) :
    idx_main_v92 (idx_main_v93 (ix3 g p n)) = ix2 g n :=
  funext fun a => Fin.ext (by match a with | ⟨0, _⟩ => rfl | ⟨1, _⟩ => rfl)

/-- **The dequantised weight** at input channel `k`, output column `n`: (weight − zero point) · scale of the group. -/
theorem dequant_apply (x1 : Sc) (x3 : W) (x4 : Z) (k : Fin 4096) (n : Fin 12288) :
    val_main_v95 (F := Ideal) x1 x3 x4 (ix2 k n)
      = (nibble (x3 (ix2 (rowOf k) n)) (fieldOf k)
          - zpVal (x4 (ix2 (grpOf k) (⟨n.val / 8, by have := n.isLt; omega⟩ : Fin 1536))) (⟨n.val % 8, by omega⟩ : Fin 8))
        * x1 (ix2 (grpOf k) n) := by
  rw [val_main_v95_apply, dreshape_idx, val_main_v94_apply, val_main_v91_apply, val_main_v88_apply, greshape_idx,
    val_main_v90_apply, val_main_v89_apply, gbroadcast_idx, val_main_v93_apply, val_main_v92_apply, sbroadcast_idx,
    weight_apply, zero_apply]
  rfl

/-! ### The product and the bias -/

theorem lidx_eq (i : Fin 8192) (n : Fin 12288) (k : Fin 4096) : lidx_main_v96 (ix2 i n) k = ix2 i k :=
  funext fun a => Fin.ext (by match a with | ⟨0, _⟩ => rfl | ⟨1, _⟩ => rfl)

theorem ridx_eq (i : Fin 8192) (n : Fin 12288) (k : Fin 4096) : ridx_main_v96 (ix2 i n) k = ix2 k n :=
  funext fun a => Fin.ext (by match a with | ⟨0, _⟩ => rfl | ⟨1, _⟩ => rfl)

theorem bias_idx (i : Fin 8192) (n : Fin 12288) : idx_main_v97 (idx_main_v98 (ix2 i n)) = ix1 n :=
  funext fun a => Fin.ext (by match a with | ⟨0, _⟩ => rfl)

/-- **The reference at output element `(i, n)`**: the activations' row `i` against column `n` of the dequantised
    weights, plus the bias. -/
theorem ref_apply (x0 : X) (x1 : Sc) (x2 : B) (x3 : W) (x4 : Z) (i : Fin 8192) (n : Fin 12288) :
    val_main_v99 (F := Ideal) x0 x1 x2 x3 x4 (ix2 i n)
      = (∑ k : Fin 4096, x0 (ix2 i k)
          * ((nibble (x3 (ix2 (rowOf k) n)) (fieldOf k)
              - zpVal (x4 (ix2 (grpOf k) (⟨n.val / 8, by have := n.isLt; omega⟩ : Fin 1536))) (⟨n.val % 8, by omega⟩ : Fin 8))
            * x1 (ix2 (grpOf k) n)))
        + x2 (ix1 n) := by
  rw [val_main_v99_apply, val_main_v96_apply, val_main_v98_apply, val_main_v97_apply, bias_idx]
  simp only [lidx_eq, ridx_eq, dequant_apply]
  rfl

end Cert.ReferenceIdeal.RefValue

end
-- ==== Proof.Finite.lean ====
/-
  Every float input is a real number. The precondition is the conjunction of three statements "all entries of |x| are
  below +∞", one per float argument; each conjunct being true gives, entry by entry, |x| < +∞ over the extended
  reals, and an extended real whose absolute value is below +∞ is neither infinity, hence a real.
-/
import proofs.«419219_j18975165514260_3_alg».proof.Defs
import proofs.«419219_j18975165514260_3_alg».proof.Proof.Gen.Pre_finite_inputs
import proofs.«419219_j18975165514260_3_alg».proof.Proof.Gen.KernelIdeal
import Idealize.ShloMosaic.Lib.ReduceAll
import Idealize.ShloMosaic.Lib.ValueIdx
import Mathlib.Data.EReal.Basic

noncomputable section

namespace Cert.Proof.Finite

open Idealize.ShloMosaic Idealize.SL.Sem

/-- The rank-0 shape has one index. -/
instance : Subsingleton Cert.Pre_finite_inputs.S_.Idx := ⟨fun a b => funext fun d => d.elim0⟩

/-- The pattern `0x7F800000` denotes +∞. -/
theorem inf_eq_top : Ideal.ofBits .f32 0x7F800000#32 = ⊤ := by simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = (r : EReal) := by
  rw [inf_eq_top] at h
  induction x using EReal.rec with
  | bot => exfalso; simp [Ideal.cmp] at h
  | coe r => exact ⟨r, rfl⟩
  | top => exfalso; simp [Ideal.cmp] at h

/-- The three conjuncts of the precondition on device `c`: each "all entries of |x| are below +∞" is true. -/
theorem conjuncts (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (Host.reduce IntOp.andi
        (cmpf (F := Ideal) .olt (Host.absf (m ((c.tc : Thread Cert.KernelIdeal.nD Cert.KernelIdeal.τ).loc Cert.KernelIdeal.main_arg0)))
          (broadcastInDim Cert.Pre_finite_inputs.S8192x4096 ![] Cert.Pre_finite_inputs.Facts.bcast_S_S8192x4096
            (constant Cert.Pre_finite_inputs.S_ .f32 0x7F800000#32)))
        (constantI Cert.Pre_finite_inputs.S_ 1 1#1) Cert.Pre_finite_inputs.Facts.reducesTo_S8192x4096_S_d0_1
        Cert.Pre_finite_inputs.Facts.h_S_ ValueIdx.ix0 = 1#1)
    ∧ (Host.reduce IntOp.andi
        (cmpf (F := Ideal) .olt (Host.absf (m ((c.tc : Thread Cert.KernelIdeal.nD Cert.KernelIdeal.τ).loc Cert.KernelIdeal.main_arg1)))
          (broadcastInDim Cert.Pre_finite_inputs.S32x12288 ![] Cert.Pre_finite_inputs.Facts.bcast_S_S32x12288
            (constant Cert.Pre_finite_inputs.S_ .f32 0x7F800000#32)))
        (constantI Cert.Pre_finite_inputs.S_ 1 1#1) Cert.Pre_finite_inputs.Facts.reducesTo_S32x12288_S_d0_1
        Cert.Pre_finite_inputs.Facts.h_S_ ValueIdx.ix0 = 1#1)
    ∧ (Host.reduce IntOp.andi
        (cmpf (F := Ideal) .olt (Host.absf (m ((c.tc : Thread Cert.KernelIdeal.nD Cert.KernelIdeal.τ).loc Cert.KernelIdeal.main_arg2)))
          (broadcastInDim Cert.Pre_finite_inputs.S12288 ![] Cert.Pre_finite_inputs.Facts.bcast_S_S12288
            (constant Cert.Pre_finite_inputs.S_ .f32 0x7F800000#32)))
        (constantI Cert.Pre_finite_inputs.S_ 1 1#1) Cert.Pre_finite_inputs.Facts.reducesTo_S12288_S_d0
        Cert.Pre_finite_inputs.Facts.h_S_ ValueIdx.ix0 = 1#1) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨h0', h1, h2⟩

/-- Every entry of the activation is a real. -/
theorem x_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S8192x4096.Idx) :
    ∃ r : ℝ, m ((c.tc : Thread Cert.KernelIdeal.nD Cert.KernelIdeal.τ).loc Cert.KernelIdeal.main_arg0) i = (r : EReal) := by
  have e := (conjuncts m h c).1
  exact real_of_abs_lt_inf _ (Host.reduce_andi_all _ _ _ _ _ e i)

/-- Every entry of the scales is a real. -/
theorem scales_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S32x12288.Idx) :
    ∃ r : ℝ, m ((c.tc : Thread Cert.KernelIdeal.nD Cert.KernelIdeal.τ).loc Cert.KernelIdeal.main_arg1) i = (r : EReal) := by
  have e := (conjuncts m h c).2.1
  exact real_of_abs_lt_inf _ (Host.reduce_andi_all _ _ _ _ _ e i)

/-- Every entry of the bias is a real. -/
theorem bias_real (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S12288.Idx) :
    ∃ r : ℝ, m ((c.tc : Thread Cert.KernelIdeal.nD Cert.KernelIdeal.τ).loc Cert.KernelIdeal.main_arg2) i = (r : EReal) := by
  have e := (conjuncts m h c).2.2
  exact real_of_abs_lt_inf _ (Host.reduce_andi_all _ _ _ _ _ e i)

end Cert.Proof.Finite

end
-- ==== Proof.lean ====
/-
  Equivalence of a 4-bit weight-only linear layer's Pallas kernel with its jnp reference, over the extended reals.

  Both programs unpack eight 4-bit fields from each 32-bit word of the packed weights (along the input-channel axis)
  and of the packed zero points (along the output axis), and dequantise group-wise: channel `k` belongs to group
  `k / 128`, and the weight is `(field − (zero point + 1)) · scale`. The reference forms that weight matrix and
  multiplies the activations by it, then adds the bias. The kernel never subtracts the zero point from the weights:
  it accumulates, depth tile by depth tile on a (4, 24, 4) grid, the product of the activations with
  `field · scale`, and at the last depth tile subtracts the product of the per-group activation sums with
  `(zero point + 1) · scale` (both computed once on the host) and adds the bias.

  The two results agree at every entry because all numbers involved are reals — the activations and scales by the
  precondition, the fields and zero points because they are integers — so multiplication distributes over the
  subtraction and the sum over the 4096 channels regroups as 4 depth tiles of 1024 and as 32 groups of 128
  (on the extended reals distributivity fails at infinities, which is where finiteness is used). The format
  changes to bf16 are the identity at the ideal instance.

  The frames: each program runs to its end, faults nowhere and leaves its five argument arrays unchanged. For the
  kernel's two programs this is the run of the one pipelined region after the sixty-eight host operations, with
  the scratch accumulator tracked from grid point to grid point; for the reference it is its run with the result
  dropped. The idealization rewrote nothing, so `preserves` is trivial.
-/
import proofs.«419219_j18975165514260_3_alg».proof.Defs
import proofs.«419219_j18975165514260_3_alg».proof.Proof.Gen.Kernel
import proofs.«419219_j18975165514260_3_alg».proof.Proof.Gen.KernelIdeal
import proofs.«419219_j18975165514260_3_alg».proof.Proof.Gen.ReferenceIdeal
import proofs.«419219_j18975165514260_3_alg».proof.Proof.Gen.ReferenceIdeal.Run
import proofs.«419219_j18975165514260_3_alg».proof.Proof.Gen.ReferenceIdeal.Read
import proofs.«419219_j18975165514260_3_alg».proof.Proof.Gen.Pre_finite_inputs
import proofs.«419219_j18975165514260_3_alg».proof.Proof.K.Frame
import proofs.«419219_j18975165514260_3_alg».proof.Proof.KI.Final
import proofs.«419219_j18975165514260_3_alg».proof.Proof.RI.RefVal
import proofs.«419219_j18975165514260_3_alg».proof.Proof.Finite
import proofs.«419219_j18975165514260_3_alg».proof.Proof.Algebra
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.QSpec

/-- The word-level kernel program's frame. -/
theorem frame_k : Cert.frame_Kernel (hKernel := Cert.Kernel.Gen.facts) (hPre_finite_inputs := Cert.Pre_finite_inputs.Gen.facts) :=
  fun m ρ _ => Cert.Kernel.Fr.frame m ρ

/-- The idealized kernel program's frame. -/
theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The two idealized programs end with equal results: entry by entry the reference's sum over the 4096 channels is
    the kernel's accumulated sum less its zero-point correction, by the identity over the reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Val.resultArr m c, Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq, (hagree c).1, (hagree c).2.1, (hagree c).2.2.1, (hagree c).2.2.2.1, (hagree c).2.2.2.2]
  funext j
  obtain ⟨I, J, rfl⟩ : ∃ I J, j = ix2 I J := ⟨j 0, j 1, eq_ix2 j⟩
  refine (Cert.ReferenceIdeal.RefValue.ref_apply _ _ _ _ _ I J).trans ?_
  exact (dequant_identity
    (fun k => Cert.KernelIdeal.Val.aX m c (ix2 I k))
    (fun k => nibble (Cert.KernelIdeal.Val.aQ m c (ix2 (rowOf k) J)) (fieldOf k))
    (fun g => Cert.KernelIdeal.Val.aS m c (ix2 g J))
    (fun g => Cert.KernelIdeal.Val.zpVal (Cert.KernelIdeal.Val.aZ m c (ix2 g ⟨J.val / 8, by have := J.isLt; omega⟩)) ⟨J.val % 8, Nat.mod_lt _ (by decide)⟩)
    (Cert.KernelIdeal.Val.aB m c (ix1 J))
    (fun k => Cert.Proof.Finite.x_real m hpre c (ix2 I k))
    (fun k => nibble_real _ _)
    (fun g => Cert.Proof.Finite.scales_real m hpre c (ix2 g J))
    (fun g => ⟨_, rfl⟩)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
